-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S768x256 .f32) (main_arg15 : FVec F S256 .f32) (main_arg16 : FVec F S256x1 .f32) (main_arg17 : FVec F S1 .f32) (main_v63 : IVec S_ 1) (main_v67 : IVec S_ 1) : IVec S_ 1 :=
  let main_v68 : IVec S_ 1 := andi main_v63 main_v67
  let main_v69 : FVec F S768x256 .f32 := Host.absf main_arg14
  let main_cst_26 : FVec F S_ .f32 := constant S_ .f32 0x7F800000#32
  let main_v70 : FVec F S768x256 .f32 := broadcastInDim S768x256 ![] bcast_S_S768x256 main_cst_26
  let main_v71 : IVec S768x256 1 := cmpf .olt main_v69 main_v70
  let main_c_27 : IVec S_ 1 := constantI S_ 1 1#1
  let main_v72 : IVec S_ 1 := (fun x v => Host.reduce IntOp.andi x v reducesTo_S768x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg16
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S400x256 : Shape := ⟨2, ![400, 256]⟩
abbrev S1x256 : Shape := ⟨2, ![1, 256]⟩
abbrev S200x10000 : Shape := ⟨2, ![200, 10000]⟩
abbrev S200x256 : Shape := ⟨2, ![200, 256]⟩
abbrev S200 : Shape := ⟨1, ![200]⟩
abbrev S200x1 : Shape := ⟨2, ![200, 1]⟩
abbrev S1000x10000 : Shape := ⟨2, ![1000, 10000]⟩
abbrev S1000x256 : Shape := ⟨2, ![1000, 256]⟩
abbrev S1000 : Shape := ⟨1, ![1000]⟩
abbrev S1000x1 : Shape := ⟨2, ![1000, 1]⟩
abbrev S1x1 : Shape := ⟨2, ![1, 1]⟩
abbrev S10000x1 : Shape := ⟨2, ![10000, 1]⟩
abbrev S400x10000 : Shape := ⟨2, ![400, 10000]⟩
abbrev S400x1 : Shape := ⟨2, ![400, 1]⟩
abbrev S400 : Shape := ⟨1, ![400]⟩
abbrev S10000 : Shape := ⟨1, ![10000]⟩

abbrev nBuf : Space → Nat
  | .hbm => 47
  | .vmem => 47
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S768x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S256x256, .bf16⟩
  | .hbm, ⟨19, _⟩ => ⟨S10000x256, .bf16⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S256x256, .bf16⟩
  | .hbm, ⟨24, _⟩ => ⟨S10000x10000, .bf16⟩
  | .hbm, ⟨25, _⟩ => ⟨S10000x256, .bf16⟩
  | .hbm, ⟨26, _⟩ => ⟨S10000x256, .bf16⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S256x256, .bf16⟩
  | .hbm, ⟨31, _⟩ => ⟨S10000x256, .bf16⟩
  | .hbm, ⟨32, _⟩ => ⟨S10000x256, .bf16⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x1, .f32⟩
  | .hbm, ⟨45, _⟩ => ⟨S10000x1, .f32⟩
  | .hbm, ⟨46, _⟩ => ⟨S10000, .f32⟩
  | .local _ .vmem, ⟨0, _⟩ => ⟨S400x256, .f32⟩
  | .local _ .vmem, ⟨1, _⟩ => ⟨S400x256, .f32⟩
  | .local _ .vmem, ⟨2, _⟩ => ⟨S256x256, .bf16⟩
  | .local _ .vmem, ⟨3, _⟩ => ⟨S400x256, .bf16⟩
  | .local _ .vmem, ⟨4, _⟩ => ⟨S400x256, .bf16⟩
  | .local _ .vmem, ⟨5, _⟩ => ⟨S200x10000, .f32⟩
  | .local _ .vmem, ⟨6, _⟩ => ⟨S200x10000, .f32⟩
  | .local _ .vmem, ⟨7, _⟩ => ⟨S10000x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S200x10000, .bf16⟩
  | .local _ .vmem, ⟨13, _⟩ => ⟨S200x10000, .bf16⟩
  | .local _ .vmem, ⟨14, _⟩ => ⟨S200x256, .bf16⟩
  | .local _ .vmem, ⟨15, _⟩ => ⟨S200x256, .bf16⟩
  | .local _ .vmem, ⟨16, _⟩ => ⟨S200x256, .bf16⟩
  | .local _ .vmem, ⟨17, _⟩ => ⟨S200x256, .bf16⟩
  | .local _ .vmem, ⟨18, _⟩ => ⟨S1000x10000, .bf16⟩
  | .local _ .vmem, ⟨19, _⟩ => ⟨S1000x10000, .bf16⟩
  | .local _ .vmem, ⟨20, _⟩ => ⟨S10000x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x256, .bf16⟩
  | .local _ .vmem, ⟨25, _⟩ => ⟨S1000x256, .bf16⟩
  | .local _ .vmem, ⟨26, _⟩ => ⟨S1000x256, .bf16⟩
  | .local _ .vmem, ⟨27, _⟩ => ⟨S1000x256, .bf16⟩
  | .local _ .vmem, ⟨28, _⟩ => ⟨S1000x256, .bf16⟩
  | .local _ .vmem, ⟨29, _⟩ => ⟨S400x10000, .bf16⟩
  | .local _ .vmem, ⟨30, _⟩ => ⟨S400x10000, .bf16⟩
  | .local _ .vmem, ⟨31, _⟩ => ⟨S10000x256, .bf16⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S400x256, .bf16⟩
  | .local _ .vmem, ⟨36, _⟩ => ⟨S400x256, .bf16⟩
  | .local _ .vmem, ⟨37, _⟩ => ⟨S400x256, .bf16⟩
  | .local _ .vmem, ⟨38, _⟩ => ⟨S400x256, .bf16⟩
  | .local _ .vmem, ⟨39, _⟩ => ⟨S256x256, .bf16⟩
  | .local _ .vmem, ⟨40, _⟩ => ⟨S256x256, .bf16⟩
  | .local _ .vmem, ⟨41, _⟩ => ⟨S256x256, .bf16⟩
  | .local _ .vmem, ⟨42, _⟩ => ⟨S1x256, .f32⟩
  | .local _ .vmem, ⟨43, _⟩ => ⟨S1x256, .f32⟩
  | .local _ .vmem, ⟨44, _⟩ => ⟨S1x1, .f32⟩
  | .local _ .vmem, ⟨45, _⟩ => ⟨S400x1, .f32⟩
  | .local _ .vmem, ⟨46, _⟩ => ⟨S400x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg11_0 : Ref sig .tc := ⟨.vmem, 43, rfl⟩
abbrev cc3_stg12_0 : Ref sig .tc := ⟨.vmem, 44, rfl⟩
abbrev cc3_stg13_0 : Ref sig .tc := ⟨.vmem, 45, rfl⟩
abbrev cc3_stg13_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem6_1 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem12_0 : DmaSem sig := 44
abbrev cc3_sem13_0 : DmaSem sig := 45
abbrev cc3_sem13_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x10000 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S200x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S200x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S400x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S256x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x256 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S400x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  bitsLt_bf16_f32 : FTy.bits .bf16 < FTy.bits .f32
  inb_S400x256_S400x256_0_0 : ∀ a, (![0, 0] : Fin 2 → Nat) a + S400x256.size a ≤ S400x256.size a
  h_S400x256 : 0 < S400x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S400x256_S400x256_0_0 : (Rect.unit (s := S400x256) ![0, 0] S400x256.size inb_S400x256_S400x256_0_0).PackedRows (EltTy.packing .bf16)
  shapeCasts_S256_S1x256 : S256.ShapeCasts S1x256
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  reduces_S200x256_S200 : S200x256.Reduces [1] S200
  shapeCasts_S200_S200x1 : S200.ShapeCasts S200x1
  broadcasts_S200x1_S200x256 : S200x1.Broadcasts S200x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S256x1_S1x256 : S256x1.ShapeCasts S1x256
  shapeCasts_S1_S1x1 : S1.ShapeCasts S1x1
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x256_S400x256 : S1x256.Broadcasts S400x256
  reduces_S400x256_S400 : S400x256.Reduces [1] S400
  shapeCasts_S400_S400x1 : S400.ShapeCasts S400x1
  broadcasts_S400x1_S400x256 : S400x1.Broadcasts S400x256
  shapeCasts_S400x256_S400x256 : S400x256.ShapeCasts S400x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  shapeCasts_S10000x1_S10000 : S10000x1.ShapeCasts S10000
  dot_S400x256_S256x256_S400x256_1_0_0_1_n_n_wf : DotDims.WF S400x256 S256x256 S400x256 [1] [0] [0] [1] [] []
  dot_S200x10000_S10000x256_S200x256_1_0_0_1_n_n_wf : DotDims.WF S200x10000 S10000x256 S200x256 [1] [0] [0] [1] [] []
  dot_S200x256_S256x256_S200x256_1_0_0_1_n_n_wf : DotDims.WF S200x256 S256x256 S200x256 [1] [0] [0] [1] [] []
  dot_S1000x10000_S10000x256_S1000x256_1_0_0_1_n_n_wf : DotDims.WF S1000x10000 S10000x256 S1000x256 [1] [0] [0] [1] [] []
  dot_S1000x256_S256x256_S1000x256_1_0_0_1_n_n_wf : DotDims.WF S1000x256 S256x256 S1000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S10000x256.size a
  hwx0_0 : ∀ i : grid0.Coords, EltTy.bits .f32 = 32 ∨ (Rect.block (s := S10000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S10000x256.size a
  hwx0_2 : ∀ i : grid0.Coords, EltTy.bits .bf16 = 32 ∨ (Rect.block (s := S10000x256) S400x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x10000.size a ≤ S10000x10000.size a
  hwx1_6 : ∀ i : grid1.Coords, EltTy.bits .bf16 = 32 ∨ (Rect.block (s := S10000x10000) S200x10000.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x256.size a ≤ S10000x256.size a
  hwx1_7 : ∀ i : grid1.Coords, EltTy.bits .bf16 = 32 ∨ (Rect.block (s := S10000x256) S200x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x256.size a ≤ S10000x256.size a
  hwx1_8 : ∀ i : grid1.Coords, EltTy.bits .bf16 = 32 ∨ (Rect.block (s := S10000x256) S200x256.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S10000x256.size a
  hwx2_6 : ∀ i : grid2.Coords, EltTy.bits .bf16 = 32 ∨ (Rect.block (s := S10000x256) S1000x256.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x256.size a ≤ S10000x256.size a
  hwx2_7 : ∀ i : grid2.Coords, EltTy.bits .bf16 = 32 ∨ (Rect.block (s := S10000x256) S1000x256.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S400x256.size a ≤ S10000x256.size a
  hwx3_5 : ∀ i : grid3.Coords, EltTy.bits .bf16 = 32 ∨ (Rect.block (s := S10000x256) S400x256.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x256.size a ≤ S10000x256.size a
  hwx3_6 : ∀ i : grid3.Coords, EltTy.bits .bf16 = 32 ∨ (Rect.block (s := S10000x256) S400x256.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .bf16 = 32 ∨ (Rect.block (s := S256x256) S256x256.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S256x256.size a
  hwx3_8 : ∀ i : grid3.Coords, EltTy.bits .bf16 = 32 ∨ (Rect.block (s := S256x256) S256x256.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x256.size a ≤ S256x256.size a
  hwx3_9 : ∀ i : grid3.Coords, EltTy.bits .bf16 = 32 ∨ (Rect.block (s := S256x256) S256x256.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x256.size a ≤ S1x256.size a
  hwx3_11 : ∀ i : grid3.Coords, EltTy.bits .f32 = 32 ∨ (Rect.block (s := S1x256) S1x256.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x1.size a ≤ S1x1.size a
  hwx3_12 : ∀ i : grid3.Coords, EltTy.bits .f32 = 32 ∨ (Rect.block (s := S1x1) S1x1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S400x1.size a ≤ S10000x1.size a
  hwx3_13 : ∀ i : grid3.Coords, EltTy.bits .f32 = 32 ∨ (Rect.block (s := S10000x1) S400x1.size (cc3_transform_13 i) (hinb3_13 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S400x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S200x10000.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S200x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6_2) S200x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v6_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_2) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11_0) S1000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v11_1) S1000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v6_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11_1) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6_1) S400x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v11_0) S400x256.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v13) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v15) S256x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v17) S256x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v21) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v22) S1x256.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v23) S1x1.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v24) S400x1.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S1x256 : Shape := ⟨2, ![1, 256]⟩
abbrev S_ : Shape := ⟨0, ![]⟩
abbrev S10000 : Shape := ⟨1, ![10000]⟩
abbrev S10000x1 : Shape := ⟨2, ![10000, 1]⟩
abbrev S10000x768 : Shape := ⟨2, ![10000, 768]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S10000x256, .f32⟩
  | 1 => ⟨S10000x10000, .f32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S768x256, .f32⟩
  | 15 => ⟨S256, .f32⟩
  | 16 => ⟨S256x1, .f32⟩
  | 17 => ⟨S1, .f32⟩
  | 18 => ⟨S10000x256, .f32⟩
  | 19 => ⟨S10000x256, .f32⟩
  | 20 => ⟨S1x256, .f32⟩
  | 21 => ⟨S10000x256, .f32⟩
  | 22 => ⟨S10000x256, .f32⟩
  | 23 => ⟨S_, .f32⟩
  | 24 => ⟨S10000, .f32⟩
  | 25 => ⟨S10000x1, .f32⟩
  | 26 => ⟨S_, .f32⟩
  | 27 => ⟨S10000x1, .f32⟩
  | 28 => ⟨S10000x1, .f32⟩
  | 29 => ⟨S10000x256, .f32⟩
  | 30 => ⟨S10000x256, .f32⟩
  | 31 => ⟨S10000x256, .f32⟩
  | 32 => ⟨S_, .f32⟩
  | 33 => ⟨S10000, .f32⟩
  | 34 => ⟨S10000x1, .f32⟩
  | 35 => ⟨S_, .f32⟩
  | 36 => ⟨S10000x1, .f32⟩
  | 37 => ⟨S10000x1, .f32⟩
  | 38 => ⟨S10000x256, .f32⟩
  | 39 => ⟨S10000x256, .f32⟩
  | 40 => ⟨S_, .f32⟩
  | 41 => ⟨S10000x1, .f32⟩
  | 42 => ⟨S10000x1, .f32⟩
  | 43 => ⟨S10000x1, .f32⟩
  | 44 => ⟨S10000x256, .f32⟩
  | 45 => ⟨S10000x256, .f32⟩
  | 46 => ⟨S1x256, .f32⟩
  | 47 => ⟨S10000x256, .f32⟩
  | 48 => ⟨S10000x256, .f32⟩
  | 49 => ⟨S1x256, .f32⟩
  | 50 => ⟨S10000x256, .f32⟩
  | 51 => ⟨S10000x256, .f32⟩
  | 52 => ⟨S_, .f32⟩
  | 53 => ⟨S10000x256, .f32⟩
  | 54 => ⟨S10000x256, .f32⟩
  | 55 => ⟨S10000x256, .f32⟩
  | 56 => ⟨S10000x256, .f32⟩
  | 57 => ⟨S1x256, .f32⟩
  | 58 => ⟨S10000x256, .f32⟩
  | 59 => ⟨S10000x256, .f32⟩
  | 60 => ⟨S_, .f32⟩
  | 61 => ⟨S10000, .f32⟩
  | 62 => ⟨S10000x1, .f32⟩
  | 63 => ⟨S_, .f32⟩
  | 64 => ⟨S10000x1, .f32⟩
  | 65 => ⟨S10000x1, .f32⟩
  | 66 => ⟨S10000x256, .f32⟩
  | 67 => ⟨S10000x256, .f32⟩
  | 68 => ⟨S10000x256, .f32⟩
  | 69 => ⟨S_, .f32⟩
  | 70 => ⟨S10000, .f32⟩
  | 71 => ⟨S10000x1, .f32⟩
  | 72 => ⟨S_, .f32⟩
  | 73 => ⟨S10000x1, .f32⟩
  | 74 => ⟨S10000x1, .f32⟩
  | 75 => ⟨S10000x256, .f32⟩
  | 76 => ⟨S10000x256, .f32⟩
  | 77 => ⟨S_, .f32⟩
  | 78 => ⟨S10000x1, .f32⟩
  | 79 => ⟨S10000x1, .f32⟩
  | 80 => ⟨S10000x1, .f32⟩
  | 81 => ⟨S10000x256, .f32⟩
  | 82 => ⟨S10000x256, .f32⟩
  | 83 => ⟨S1x256, .f32⟩
  | 84 => ⟨S10000x256, .f32⟩
  | 85 => ⟨S10000x256, .f32⟩
  | 86 => ⟨S1x256, .f32⟩
  | 87 => ⟨S10000x256, .f32⟩
  | 88 => ⟨S10000x256, .f32⟩
  | 89 => ⟨S_, .f32⟩
  | 90 => ⟨S10000x256, .f32⟩
  | 91 => ⟨S10000x256, .f32⟩
  | 92 => ⟨S10000x256, .f32⟩
  | 93 => ⟨S10000x256, .f32⟩
  | 94 => ⟨S1x256, .f32⟩
  | 95 => ⟨S10000x256, .f32⟩
  | 96 => ⟨S10000x256, .f32⟩
  | 97 => ⟨S_, .f32⟩
  | 98 => ⟨S10000, .f32⟩
  | 99 => ⟨S10000x1, .f32⟩
  | 100 => ⟨S_, .f32⟩
  | 101 => ⟨S10000x1, .f32⟩
  | 102 => ⟨S10000x1, .f32⟩
  | 103 => ⟨S10000x256, .f32⟩
  | 104 => ⟨S10000x256, .f32⟩
  | 105 => ⟨S10000x256, .f32⟩
  | 106 => ⟨S_, .f32⟩
  | 107 => ⟨S10000, .f32⟩
  | 108 => ⟨S10000x1, .f32⟩
  | 109 => ⟨S_, .f32⟩
  | 110 => ⟨S10000x1, .f32⟩
  | 111 => ⟨S10000x1, .f32⟩
  | 112 => ⟨S10000x256, .f32⟩
  | 113 => ⟨S10000x256, .f32⟩
  | 114 => ⟨S_, .f32⟩
  | 115 => ⟨S10000x1, .f32⟩
  | 116 => ⟨S10000x1, .f32⟩
  | 117 => ⟨S10000x1, .f32⟩
  | 118 => ⟨S10000x256, .f32⟩
  | 119 => ⟨S10000x256, .f32⟩
  | 120 => ⟨S1x256, .f32⟩
  | 121 => ⟨S10000x256, .f32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x256, .f32⟩

abbrev hbmTy0_1 (i : Nat) : BufTy := match i % 128 with
  | 0 => ⟨S10000x256, .f32⟩
  | 1 => ⟨S10000x768, .f32⟩
  | 2 => ⟨S10000x256, .f32⟩
  | 3 => ⟨S1x256, .f32⟩
  | 4 => ⟨S10000x256, .f32⟩
  | 5 => ⟨S10000x256, .f32⟩
  | 6 => ⟨S_, .f32⟩
  | 7 => ⟨S10000x256, .f32⟩
  | 8 => ⟨S10000x256, .f32⟩
  | 9 => ⟨S10000x1, .f32⟩
  | 10 => ⟨S1x1, .f32⟩
  | 11 => ⟨S10000x1, .f32⟩
  | 12 => ⟨S10000x1, .f32⟩
  | 13 => ⟨S10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call2_cst : Ref sig .tc := ⟨.hbm, 126, rfl⟩
abbrev main_call2_v0 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  concatenates_S10000x256_S10000x256_S10000x256_S10000x768_d1 : Shape.Concatenates [S10000x256, S10000x256, S10000x256] S10000x768 1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x768_S768x256_S10000x256_1_0_0_1_n_n_wf : DotDims.WF S10000x768 S768x256 S10000x256 [1] [0] [0] [1] [] []
  dot_S10000x256_S256x1_S10000x1_1_0_0_1_n_n_wf : DotDims.WF S10000x256 S256x1 S10000x1 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.Spec.lean ====
/-
  The network both programs compute, one row at a time, on the extended reals.

  A node's feature row passes three graph-convolution layers and a two-layer head.  A layer takes the row
  `h j = (∑ k, adj r k · s k j) + bias j` of the aggregated support, centres it on its mean over the 256 features,
  scales it by the inverse root of its variance plus a small positive word, applies the affine pair `g`, `b` and
  clips at zero.  The head multiplies the three layers' rows by the three 256-row bands of one 768-row matrix, adds
  them, adds a bias, clips at zero, and contracts with a weight column.

  Two spellings meet here.  One multiplies the centred row by the reciprocal root; the other divides it by the root.
  They agree because the variance is a sum of squares over 256, hence nonnegative, and the added word is positive:
  the argument of the root is never zero, negative or minus infinity, which are the only places where the two
  spellings part.  The head's two spellings — three products over 256 added up, or one product over the 768
  concatenated features — are one sum, regrouped.  No finiteness of the inputs is used anywhere.
-/
import Idealize.ShloMosaic.PureOps.Ideal
import Idealize.ShloMosaic.PureOps.Ideal.Laws

noncomputable section

open scoped BigOperators

namespace Gcn

open Idealize.ShloMosaic

/-! ## The three words both programs spell -/

/-- The word `+0.0`. -/
abbrev wZero : EReal := Ideal.ofBits .f32 0x00000000#32
/-- The word `256.0`: the number of features a mean is taken over. -/
abbrev w256 : EReal := Ideal.ofBits .f32 0x43800000#32
/-- The word nearest `1e-5`, added to a variance before its root. -/
abbrev wEps : EReal := Ideal.ofBits .f32 0x3727C5AC#32

theorem wZero_eq : wZero = 0 := Ideal.ofBits_zero_f32

theorem w256_eq : w256 = ((256 : ℝ) : EReal) := by
  simp [Ideal.ofBits, Ideal.ieee, -EReal.coe_mul]; norm_num

/-- The added word is a positive real: `(2^23 + 2606508) · 2^(-40)`. -/
theorem wEps_pos : 0 < wEps := by
  have h : wEps = (((8388608 + 2606508 : ℕ) : ℝ) * (2 : ℝ) ^ (-40 : ℤ) : ℝ) := by
    simp [Ideal.ofBits, Ideal.ieee, -EReal.coe_mul]
  rw [h]
  exact EReal.coe_pos.mpr (by positivity)

/-! ## Rows -/

/-- A row times a matrix. -/
def rowMat {K N : Nat} (a : Fin K → EReal) (B : Fin K → Fin N → EReal) (j : Fin N) : EReal :=
  ∑ k, a k * B k j

/-- The mean of a row of 256 features. -/
def mean (h : Fin 256 → EReal) : EReal := Ideal.div (∑ k, h k) w256

/-- The row centred on its mean. -/
def dev (h : Fin 256 → EReal) (j : Fin 256) : EReal := h j - mean h

/-- The mean of the centred row's squares. -/
def var (h : Fin 256 → EReal) : EReal := Ideal.div (∑ k, dev h k * dev h k) w256

/-- Normalise, scale, shift, clip at zero — the centred row TIMES the reciprocal root. -/
def lnRelu (h g b : Fin 256 → EReal) (j : Fin 256) : EReal :=
  max (dev h j * Ideal.rsqrt (var h + wEps) * g j + b j) wZero

/-- The same with the centred row DIVIDED by the root. -/
def lnReluQuot (h g b : Fin 256 → EReal) (j : Fin 256) : EReal :=
  max (Ideal.div (dev h j) (Ideal.sqrt (var h + wEps)) * g j + b j) wZero

/-- A square is nonnegative on the extended reals, at the infinities too. -/
theorem mul_self_nonneg' (x : EReal) : 0 ≤ x * x := by
  induction x using EReal.rec with
  | bot => simp
  | coe r => exact_mod_cast mul_self_nonneg r
  | top => simp

/-- A variance is nonnegative. -/
theorem var_nonneg (h : Fin 256 → EReal) : 0 ≤ var h := by
  unfold var
  rw [w256_eq, Ideal.div_coe (by norm_num : (256 : ℝ) ≠ 0)]
  refine EReal.mul_nonneg (Finset.sum_nonneg fun k _ => mul_self_nonneg' _) ?_
  exact_mod_cast (by norm_num : (0 : ℝ) ≤ 1 / 256)

/-- So the argument of the root is positive. -/
theorem var_add_pos (h : Fin 256 → EReal) : 0 < var h + wEps :=
  lt_of_lt_of_le wEps_pos (le_add_of_nonneg_left (var_nonneg h))

/-- At a positive argument, multiplying by the reciprocal root is dividing by the root. -/
theorem mul_rsqrt_eq_div_sqrt (c z : EReal) (hz : 0 < z) : c * Ideal.rsqrt z = Ideal.div c (Ideal.sqrt z) := by
  induction z using EReal.rec with
  | bot => exact absurd hz (by simp)
  | coe r =>
    have hr : 0 < r := by exact_mod_cast hz
    have hs : Real.sqrt r ≠ 0 := (Real.sqrt_pos.mpr hr).ne'
    rw [Ideal.rsqrt_coe, Ideal.sqrt_coe, if_neg (not_lt.mpr hr.le), if_neg hr.ne', if_neg (not_lt.mpr hr.le)]
    unfold Ideal.div
    rw [if_neg (by exact_mod_cast hs), EReal.coe_inv]
  | top =>
    rw [Ideal.rsqrt_top, Ideal.sqrt_top]
    unfold Ideal.div
    rw [if_neg (by simp), EReal.inv_top]

theorem lnReluQuot_eq (h g b : Fin 256 → EReal) : lnReluQuot h g b = lnRelu h g b := by
  funext j
  unfold lnReluQuot lnRelu
  rw [mul_rsqrt_eq_div_sqrt _ _ (var_add_pos h)]

/-! ## The head -/

/-- The head on three rows and the three bands of its matrix. -/
def head (x1 x2 x3 : Fin 256 → EReal) (A B C : Fin 256 → Fin 256 → EReal) (fb1 w2 : Fin 256 → EReal) (fb2 : EReal) : EReal :=
  (∑ j, max (rowMat x1 A j + rowMat x2 B j + rowMat x3 C j + fb1 j) wZero * w2 j) + fb2

/-- A sum over 768 indices is the sum of its three bands of 256. -/
theorem sum_three_bands (f : Fin 768 → EReal) :
    ∑ k, f k = (∑ k : Fin 256, f ⟨k.val, by omega⟩) + (∑ k : Fin 256, f ⟨k.val + 256, by omega⟩)
      + (∑ k : Fin 256, f ⟨k.val + 512, by omega⟩) := by
  have e := Fin.sum_univ_add (a := 256 + 256) (b := 256) (f : Fin (256 + 256 + 256) → EReal)
  have e' := Fin.sum_univ_add (a := 256) (b := 256) (fun i : Fin (256 + 256) => f (Fin.castAdd 256 i))
  rw [e, e']
  refine congrArg₂ (· + ·) (congrArg₂ (· + ·) ?_ ?_) ?_
  · exact Finset.sum_congr rfl fun k _ => congrArg f (Fin.ext rfl)
  · exact Finset.sum_congr rfl fun k _ => congrArg f (Fin.ext (by simp [Fin.natAdd, Fin.castAdd]; omega))
  · exact Finset.sum_congr rfl fun k _ => congrArg f (Fin.ext (by simp [Fin.natAdd]; omega))

end Gcn

end
-- ==== Proof.Net.lean ====
/-
  The whole network as one function of its eighteen arguments, row by row.

  `Params` holds the arguments as plain functions of their coordinates.  Layer `l`'s row at node `r` is the
  normalised, clipped row `(∑ k, adj r k · s k j) + bias j`, where the support `s` is the previous layer's rows (the
  node features for the first layer) times that layer's weight matrix.  The output at node `r` is the head of the
  three layers' rows at `r` against the three 256-row bands of the 768-row matrix.
-/
import proofs.«122235_g19155554140324_cont_8to1_1621_8_alg».proof.Proof.Spec
import Idealize.ShloMosaic.Lib.ValueIdx

noncomputable section

open scoped BigOperators

namespace Gcn

open Idealize.ShloMosaic Idealize.ShloMosaic.ValueIdx

/-- The network's arguments, each as a function of its coordinates. -/
structure Params where
  x : Fin 10000 → Fin 256 → EReal
  adj : Fin 10000 → Fin 10000 → EReal
  W1 : Fin 256 → Fin 256 → EReal
  b1 : Fin 256 → EReal
  g1 : Fin 256 → EReal
  be1 : Fin 256 → EReal
  W2 : Fin 256 → Fin 256 → EReal
  b2 : Fin 256 → EReal
  g2 : Fin 256 → EReal
  be2 : Fin 256 → EReal
  W3 : Fin 256 → Fin 256 → EReal
  b3 : Fin 256 → EReal
  g3 : Fin 256 → EReal
  be3 : Fin 256 → EReal
  fcW1 : Fin 768 → Fin 256 → EReal
  fcb1 : Fin 256 → EReal
  fcW2 : Fin 256 → EReal
  fcb2 : EReal

/-- The arguments as the two programs hold them: arrays over the literal shapes, read at their coordinates (the
    head's weight column is column `0` of a `[256, 1]` matrix, its bias the one entry of a `[1]` vector). -/
def Params.ofArrays
    (a0 : (⟨2, ![10000, 256]⟩ : Shape).Idx → EReal) (a1 : (⟨2, ![10000, 10000]⟩ : Shape).Idx → EReal)
    (a2 : (⟨2, ![256, 256]⟩ : Shape).Idx → EReal) (a3 a4 a5 : (⟨1, ![256]⟩ : Shape).Idx → EReal)
    (a6 : (⟨2, ![256, 256]⟩ : Shape).Idx → EReal) (a7 a8 a9 : (⟨1, ![256]⟩ : Shape).Idx → EReal)
    (a10 : (⟨2, ![256, 256]⟩ : Shape).Idx → EReal) (a11 a12 a13 : (⟨1, ![256]⟩ : Shape).Idx → EReal)
    (a14 : (⟨2, ![768, 256]⟩ : Shape).Idx → EReal) (a15 : (⟨1, ![256]⟩ : Shape).Idx → EReal)
    (a16 : (⟨2, ![256, 1]⟩ : Shape).Idx → EReal) (a17 : (⟨1, ![1]⟩ : Shape).Idx → EReal) : Params where
  x := fun r k => a0 (ix2 r k)
  adj := fun r k => a1 (ix2 r k)
  W1 := fun k j => a2 (ix2 k j)
  b1 := fun j => a3 (ix1 j)
  g1 := fun j => a4 (ix1 j)
  be1 := fun j => a5 (ix1 j)
  W2 := fun k j => a6 (ix2 k j)
  b2 := fun j => a7 (ix1 j)
  g2 := fun j => a8 (ix1 j)
  be2 := fun j => a9 (ix1 j)
  W3 := fun k j => a10 (ix2 k j)
  b3 := fun j => a11 (ix1 j)
  g3 := fun j => a12 (ix1 j)
  be3 := fun j => a13 (ix1 j)
  fcW1 := fun k j => a14 (ix2 k j)
  fcb1 := fun j => a15 (ix1 j)
  fcW2 := fun j => a16 (ix2 j 0)
  fcb2 := a17 (ix1 0)

/-- One layer's row at node `r`: the aggregate of the support over the neighbours plus the bias, normalised and
    clipped. -/
def layer (adj : Fin 10000 → Fin 10000 → EReal) (s : Fin 10000 → Fin 256 → EReal) (bias g beta : Fin 256 → EReal)
    (r : Fin 10000) : Fin 256 → EReal :=
  lnRelu (fun j => (∑ k, adj r k * s k j) + bias j) g beta

/-- The first layer's rows. -/
def x1 (p : Params) (r : Fin 10000) : Fin 256 → EReal :=
  layer p.adj (fun k => rowMat (p.x k) p.W1) p.b1 p.g1 p.be1 r

/-- The second layer's rows. -/
def x2 (p : Params) (r : Fin 10000) : Fin 256 → EReal :=
  layer p.adj (fun k => rowMat (x1 p k) p.W2) p.b2 p.g2 p.be2 r

/-- The third layer's rows. -/
def x3 (p : Params) (r : Fin 10000) : Fin 256 → EReal :=
  layer p.adj (fun k => rowMat (x2 p k) p.W3) p.b3 p.g3 p.be3 r

/-- The three bands of the head's 768-row matrix. -/
def band0 (p : Params) (k j : Fin 256) : EReal := p.fcW1 ⟨k.val, by omega⟩ j
def band1 (p : Params) (k j : Fin 256) : EReal := p.fcW1 ⟨k.val + 256, by omega⟩ j
def band2 (p : Params) (k j : Fin 256) : EReal := p.fcW1 ⟨k.val + 512, by omega⟩ j

/-- The network's output at node `r`. -/
def net (p : Params) (r : Fin 10000) : EReal :=
  head (x1 p r) (x2 p r) (x3 p r) (band0 p) (band1 p) (band2 p) p.fcb1 p.fcW2 p.fcb2

end Gcn

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Reg0.lean ====
/-
  The first region: the support of layer one.  Each of its 25 points takes 400 rows of the node features and the whole
  weight matrix and writes the 400 rows of their product; a change of float format is the identity on the extended
  reals.  The 25 blocks of 400 rows tile the 10000 rows, so after the region the output array is, entry by entry, the
  row of the features times the matrix.
-/
import proofs.«122235_g19155554140324_cont_8to1_1621_8_alg».proof.Proof.Gen.KernelIdeal.Frame
import proofs.«122235_g19155554140324_cont_8to1_1621_8_alg».proof.Proof.Spec
import proofs.«122235_g19155554140324_cont_8to1_1621_8_alg».proof.Proof.LibRowDims
import Idealize.ShloMosaic.Lib.ValueIdx
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's contraction is the plain one: rows by columns. -/
theorem dot_plain : dot_S400x256_S256x256_S400x256_1_0_0_1_n_n = DotDims.plain 400 256 256 := rfl

/-- The body's stored value at an entry: the row of the feature block times the weight matrix. -/
theorem pay_apply (x0 : FVec Ideal S400x256 .f32) (x1 : FVec Ideal S256x256 .bf16) (p : Fin 400) (q : Fin 256) :
    k0_pay1 (F := Ideal) x0 x1 (ix2 p q) = Gcn.rowMat (fun k => x0 (ix2 p k)) (fun k j => x1 (ix2 k j)) q := by
  unfold k0_pay1 Gcn.rowMat
  rw [shapeCast_self]
  exact RowDims.matmul_plain_zero_apply none x0 x1 p q

/-- The index maps over the grid: the features' block and the output's block move with the point along the rows, the
    weight matrix stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array function the output ends at. -/
def G (a0 : S10000x256.Idx → EReal) (a1 : S256x256.Idx → EReal) : S10000x256.Idx → EReal :=
  fun i => Gcn.rowMat (fun k => a0 (ix2 ⟨(i 0).val, idx2_lt0 i⟩ k)) (fun k j => a1 (ix2 k j)) ⟨(i 1).val, idx2_lt1 i⟩

/-- What point `t` writes back is block `t` of that function of the arrays as the region finds them. -/
theorem flushed_eq (c : Dev nD) (t : Fin cfg0.N) :
    (dat0 V c).flushed 2 t = ((cfg0.win 2).blk t).view.read (Elt Ideal)
      (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S400x256) hz, View.ld_unit_zero (S := S256x256) hz]
  obtain ⟨e00, e01, e10, e11, e20, e21⟩ := idx_facts t
  funext j
  have hj0 : (j 0).val < 400 := (j 0).isLt
  have hj1 : (j 1).val < 256 := (j 1).isLt
  have ht : t.val < 25 := t.isLt
  -- the block index in literal coordinates
  have ej : j = ix2 (⟨(j 0).val, hj0⟩ : Fin 400) (⟨(j 1).val, hj1⟩ : Fin 256) := by
    funext a; match a with
    | ⟨0, _⟩ => rfl
    | ⟨1, _⟩ => rfl
  show k0_pay1 (F := Ideal) (iblk0 V c 0 t) (iblk0 V c 1 t) j
    = G (V c (Pipeline.arrRef spec0 0)) (V c (Pipeline.arrRef spec0 1)) (((cfg0.win 2).blk t).view.emb j)
  refine (congrArg (k0_pay1 (F := Ideal) (iblk0 V c 0 t) (iblk0 V c 1 t)) ej).trans ?_
  refine (pay_apply (iblk0 V c 0 t) (iblk0 V c 1 t) _ _).trans ?_
  unfold G Gcn.rowMat
  -- the output entry's column is the block's column
  have hq : (⟨(j 1).val, hj1⟩ : Fin 256) = ⟨((((cfg0.win 2).blk t).view.emb j) 1).val, idx2_lt1 _⟩ := by
    apply Fin.ext
    show (j 1).val = win0_2.index t (1 : Fin 2) * 256 + 1 * (j 1).val
    omega
  rw [← hq]
  refine Finset.sum_congr rfl fun k _ => ?_
  refine congrArg₂ (· * ·) ?_ ?_
  · -- the feature block's row p is row 400 t + p of the array
    show V c (Pipeline.arrRef spec0 0) (((cfg0.win 0).blk t).view.emb (ix2 ⟨(j 0).val, hj0⟩ k)) = _
    refine congrArg (V c (Pipeline.arrRef spec0 0)) ?_
    funext a; apply Fin.ext
    match a with
    | ⟨0, _⟩ =>
      show win0_0.index t (0 : Fin 2) * 400 + 1 * (j 0).val = win0_2.index t (0 : Fin 2) * 400 + 1 * (j 0).val
      omega
    | ⟨1, _⟩ =>
      show win0_0.index t (1 : Fin 2) * 256 + 1 * k.val = k.val
      omega
  · -- the weight matrix is staged whole
    show V c (Pipeline.arrRef spec0 1) (((cfg0.win 1).blk t).view.emb (ix2 k ⟨(j 1).val, hj1⟩)) = _
    refine congrArg (V c (Pipeline.arrRef spec0 1)) ?_
    funext a; apply Fin.ext
    match a with
    | ⟨0, _⟩ =>
      show win0_1.index t (0 : Fin 2) * 256 + 1 * k.val = k.val
      omega
    | ⟨1, _⟩ =>
      show win0_1.index t (1 : Fin 2) * 256 + 1 * (j 1).val = (j 1).val
      omega

/-- An index of the array is in point `t`'s block iff each coordinate is in the block's range on its axis. -/
theorem mem_blk (t : Fin cfg0.N) (i : S10000x256.Idx) :
    i ∈ ((cfg0.win 2).blk t).view.set ↔ ∀ a : Fin 2, win0_2.index t a * S400x256.size a ≤ (i a).val
      ∧ (i a).val < win0_2.index t a * S400x256.size a + S400x256.size a := by
  show i ∈ ((View.whole main_v1).slice (win0_2.rect t)).set ↔ _
  rw [View.set_slice_whole, Rect.mem_set_unit]
  exact Iff.rfl

/-- Every row lies in the block of the point `row / 400`. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have ht : (i 0).val / 400 < 25 := by omega
  obtain ⟨_, _, _, _, e20, e21⟩ := idx_facts ⟨(i 0).val / 400, ht⟩
  have e20' : win0_2.index ⟨(i 0).val / 400, ht⟩ (0 : Fin 2) = (i 0).val / 400 := e20
  refine ⟨⟨(i 0).val / 400, ht⟩, flush0_2 _, ?_⟩
  rw [mem_blk]
  intro a
  match a with
  | ⟨0, _⟩ =>
    show win0_2.index ⟨(i 0).val / 400, ht⟩ (0 : Fin 2) * 400 ≤ (i 0).val
      ∧ (i 0).val < win0_2.index ⟨(i 0).val / 400, ht⟩ (0 : Fin 2) * 400 + 400
    omega
  | ⟨1, _⟩ =>
    show win0_2.index ⟨(i 0).val / 400, ht⟩ (1 : Fin 2) * 256 ≤ (i 1).val
      ∧ (i 1).val < win0_2.index ⟨(i 0).val / 400, ht⟩ (1 : Fin 2) * 256 + 256
    omega

/-- The output array after the region, as one function of the arrays the region finds. -/
theorem final (c : Dev nD) :
    (dat0 V c).arrAt 2 cfg0.N = G (V c (Pipeline.arrRef spec0 0)) (V c (Pipeline.arrRef spec0 1)) :=
  (dat0 V c).arrAt_eq_of_cover 2 _ (fun t _ => flushed_eq V c t) cover

/-- The same, entry by entry. -/
theorem final_apply (c : Dev nD) (r : Fin 10000) (j : Fin 256) :
    (dat0 V c).arrAt 2 cfg0.N (ix2 r j)
      = Gcn.rowMat (fun k : Fin 256 => V c (Pipeline.arrRef spec0 0) (ix2 r k))
          (fun (k : Fin 256) (q : Fin 256) => V c (Pipeline.arrRef spec0 1) (ix2 k q)) j := by
  rw [final]
  rfl

end Cert.KernelIdeal.Reg0

end
-- ==== Proof.LibColumns.lean ====
/-
  Two layout operations on a column, read at an index given by coordinates.  A vector of `a` entries cast to an
  `[a, 1]` column keeps entry `i` at row `i`; an `[a, 1]` column broadcast to `[a, b]` repeats row `p`'s one entry
  along the row.  They are what a sum over an axis kept as a unit axis, and its use against the full rows, read as.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.Reg1.lean ====
/-
  The second region: layer one.  Each of its 50 points takes 200 rows of the adjacency matrix and, whole, the support
  of layer one, the layer's bias, scale and shift rows and the next layer's weight matrix.  It writes back the 200
  adjacency rows in the narrower float format (the identity on the extended reals), the 200 rows of the layer's output
  — the aggregate plus bias, normalised over the 256 features, scaled, shifted and clipped at zero — and those rows
  times the next weight matrix, the support of layer two.  The 50 blocks of 200 rows tile the 10000 rows.
-/
import proofs.«122235_g19155554140324_cont_8to1_1621_8_alg».proof.Proof.Gen.KernelIdeal.Frame
import proofs.«122235_g19155554140324_cont_8to1_1621_8_alg».proof.Proof.Net
import proofs.«122235_g19155554140324_cont_8to1_1621_8_alg».proof.Proof.LibRowDims
import proofs.«122235_g19155554140324_cont_8to1_1621_8_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency block and the three output blocks move with the point along the rows;
    the support, the three parameter rows and the next weight matrix stay whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! ## The adjacency matrix, written back -/

/-- The whole-array function the first output ends at: the adjacency matrix itself. -/
def G6 (a0 : S10000x10000.Idx → EReal) : S10000x10000.Idx → EReal := fun i => a0 i

/-- What point `t` writes back to the first output is block `t` of the adjacency matrix. -/
theorem flushed_eq6 (c : Dev nD) (t : Fin cfg1.N) :
    (dat1 V c).flushed 6 t = ((cfg1.win 6).blk t).view.read (Elt Ideal) (G6 (V c (Pipeline.arrRef spec1 0))) := by
  show (cfg1.win 6).cut (grid1.coords t) ((dat1 V c).after 6 t) = _
  rw [after1_6]
  unfold out1_6
  rw [View.canon_unit_zero hz]
  simp only [View.ld_unit_zero (S := S200x10000) hz]
  obtain ⟨e00, e01, _, _, _, _, _, _, _, _, _, _, e60, e61, _, _, _, _⟩ := idx_facts t
  funext j
  have hj0 : (j 0).val < 200 := (j 0).isLt
  have hj1 : (j 1).val < 10000 := (j 1).isLt
  have ht : t.val < 50 := t.isLt
  -- the format change is the identity, so the stored entry is the loaded block's entry
  show V c (Pipeline.arrRef spec1 0) (((cfg1.win 0).blk t).view.emb j)
    = V c (Pipeline.arrRef spec1 0) (((cfg1.win 6).blk t).view.emb j)
  refine congrArg (V c (Pipeline.arrRef spec1 0)) ?_
  funext a; apply Fin.ext
  match a with
  | ⟨0, _⟩ =>
    show win1_0.index t (0 : Fin 2) * 200 + 1 * (j 0).val = win1_6.index t (0 : Fin 2) * 200 + 1 * (j 0).val
    omega
  | ⟨1, _⟩ =>
    show win1_0.index t (1 : Fin 2) * 10000 + 1 * (j 1).val = win1_6.index t (1 : Fin 2) * 10000 + 1 * (j 1).val
    omega

/-- An index of the first output is in point `t`'s block iff each coordinate is in the block's range on its axis. -/
theorem mem_blk6 (t : Fin cfg1.N) (i : S10000x10000.Idx) :
    i ∈ ((cfg1.win 6).blk t).view.set ↔ ∀ a : Fin 2, win1_6.index t a * S200x10000.size a ≤ (i a).val
      ∧ (i a).val < win1_6.index t a * S200x10000.size a + S200x10000.size a := by
  show i ∈ ((View.whole main_v6_0).slice (win1_6.rect t)).set ↔ _
  rw [View.set_slice_whole, Rect.mem_set_unit]
  exact Iff.rfl

/-- Every row lies in the block of the point `row / 200`. -/
theorem cover6 (i : S10000x10000.Idx) :
    ∃ t : Fin cfg1.N, (cfg1.win 6).flush t = true ∧ i ∈ ((cfg1.win 6).blk t).view.set := by
  have hi0 : (i 0).val < 10000 := (i 0).isLt
  have hi1 : (i 1).val < 10000 := (i 1).isLt
  have ht : (i 0).val / 200 < 50 := by omega
  obtain ⟨_, _, _, _, _, _, _, _, _, _, _, _, e60, e61, _, _, _, _⟩ := idx_facts ⟨(i 0).val / 200, ht⟩
  have e60' : win1_6.index ⟨(i 0).val / 200, ht⟩ (0 : Fin 2) = (i 0).val / 200 := e60
  refine ⟨⟨(i 0).val / 200, ht⟩, flush1_6 _, ?_⟩
  rw [mem_blk6]
  intro a
  match a with
  | ⟨0, _⟩ =>
    show win1_6.index ⟨(i 0).val / 200, ht⟩ (0 : Fin 2) * 200 ≤ (i 0).val
      ∧ (i 0).val < win1_6.index ⟨(i 0).val / 200, ht⟩ (0 : Fin 2) * 200 + 200
    omega
  | ⟨1, _⟩ =>
    show win1_6.index ⟨(i 0).val / 200, ht⟩ (1 : Fin 2) * 10000 ≤ (i 1).val
      ∧ (i 1).val < win1_6.index ⟨(i 0).val / 200, ht⟩ (1 : Fin 2) * 10000 + 10000
    omega

/-- The first output after the region is the adjacency matrix. -/
theorem final6 (c : Dev nD) : (dat1 V c).arrAt 6 cfg1.N = G6 (V c (Pipeline.arrRef spec1 0)) :=
  (dat1 V c).arrAt_eq_of_cover 6 _ (fun t _ => flushed_eq6 V c t) cover6

/-- The adjacency matrix passes through unchanged. -/
theorem final6_apply (c : Dev nD) (r k : Fin 10000) :
    (dat1 V c).arrAt 6 cfg1.N (ix2 r k) = V c (Pipeline.arrRef spec1 0) (ix2 r k) := by
  rw [final6]
  rfl

/-! ## The body's arithmetic at an entry -/

/-- The region's two contractions are the plain one: rows by columns. -/
theorem dot_plain1 : dot_S200x10000_S10000x256_S200x256_1_0_0_1_n_n = DotDims.plain 200 10000 256 := rfl
theorem dot_plain2 : dot_S200x256_S256x256_S200x256_1_0_0_1_n_n = DotDims.plain 200 256 256 := rfl

/-- A sum of a 200 by 256 block over its second axis, read at row `p`: the sum of that row's 256 entries. -/
theorem rowSum_apply (x : FVec Ideal S200x256 .f32) (h : S200x256.Reduces [1] S200) (hφ : FKind.Formats .f32)
    (hacc : (0x00000000#32 : BitVec 32) = FKind.add.neutral .f32 hφ) (p : Fin 200) :
    multiReduction .add [1] S200 x 0x00000000#32 h hφ hacc (ix1 p) = ∑ k : Fin 256, x (ix2 p k) := by
  refine (Ideal.multiReduction_add_single x 0x00000000#32 h hφ hacc (ix1 p)).trans ?_
  refine Finset.sum_congr rfl fun k _ => congrArg x ?_
  funext a; apply Fin.ext
  match a with
  | ⟨0, _⟩ => rfl
  | ⟨1, _⟩ => rfl

/-- The column of row means of a block: each row's sum, kept as a one-entry row, over 256. -/
def meanCol (x : FVec Ideal S200x256 .f32) : FVec Ideal S200x1 .f32 :=
  divf (shapeCast S200x1 (multiReduction .add [1] S200 x 0x00000000#32 reduces_S200x256_S200 (.inl rfl) rfl) shapeCasts_S200_S200x1)
    (broadcast S200x1 (Scalar.ofBits (F := Ideal) .f32 0x43800000#32))

/-- The block with each row centred on its mean. -/
def devBlock (x : FVec Ideal S200x256 .f32) : FVec Ideal S200x256 .f32 :=
  subf x (broadcastTo S200x256 (meanCol x) broadcasts_S200x1_S200x256)

/-- The column of row variances: the row means of the centred block's squares. -/
def varCol (x : FVec Ideal S200x256 .f32) : FVec Ideal S200x1 .f32 :=
  meanCol (mulf (devBlock x) (devBlock x))

/-- The block normalised row by row, scaled and shifted by two rows, clipped at zero. -/
def lnBlock (x : FVec Ideal S200x256 .f32) (g b : FVec Ideal S1x256 .f32) : FVec Ideal S200x256 .f32 :=
  maximumf
    (addf
      (mulf
        (mulf (devBlock x)
          (broadcastTo S200x256
            (rsqrt (addf (varCol x) (broadcast S200x1 (Scalar.ofBits (F := Ideal) .f32 0x3727C5AC#32))))
            broadcasts_S200x1_S200x256))
        (broadcastTo S200x256 g broadcasts_S1x256_S200x256))
      (broadcastTo S200x256 b broadcasts_S1x256_S200x256))
    (broadcast S200x256 (Scalar.ofBits (F := Ideal) .f32 0x00000000#32))

/-- The mean column at row `p` is the mean of row `p`. -/
theorem meanCol_apply (x : FVec Ideal S200x256 .f32) (p : Fin 200) (u : Fin 1) :
    meanCol x (ix2 p u) = Gcn.mean (fun k => x (ix2 p k)) := by
  unfold meanCol Gcn.mean
  show Ideal.div (shapeCast S200x1 (multiReduction .add [1] S200 x 0x00000000#32 reduces_S200x256_S200 (.inl rfl) rfl)
      shapeCasts_S200_S200x1 (ix2 p u)) Gcn.w256 = _
  exact congrArg (fun z => Ideal.div z Gcn.w256)
    ((ColumnLayout.shapeCast_a_a1_apply _ shapeCasts_S200_S200x1 p u).trans (rowSum_apply x _ _ _ p))

/-- The centred block at `(p, q)` is row `p` centred, at `q`. -/
theorem devBlock_apply (x : FVec Ideal S200x256 .f32) (p : Fin 200) (q : Fin 256) :
    devBlock x (ix2 p q) = Gcn.dev (fun k => x (ix2 p k)) q := by
  unfold devBlock Gcn.dev
  show x (ix2 p q) - broadcastTo S200x256 (meanCol x) broadcasts_S200x1_S200x256 (ix2 p q) = _
  exact congrArg (fun z => x (ix2 p q) - z)
    ((ColumnLayout.broadcastTo_a1_ab_apply _ broadcasts_S200x1_S200x256 p q).trans (meanCol_apply x p 0))

/-- The variance column at row `p` is the variance of row `p`. -/
theorem varCol_apply (x : FVec Ideal S200x256 .f32) (p : Fin 200) (u : Fin 1) :
    varCol x (ix2 p u) = Gcn.var (fun k => x (ix2 p k)) := by
  unfold varCol
  refine (meanCol_apply _ p u).trans ?_
  unfold Gcn.var Gcn.mean
  refine congrArg (fun z => Ideal.div z Gcn.w256) (Finset.sum_congr rfl fun k _ => ?_)
  show devBlock x (ix2 p k) * devBlock x (ix2 p k) = _
  rw [devBlock_apply]

/-- The normalised block at `(p, q)` is row `p` normalised, scaled, shifted and clipped, at `q`. -/
theorem lnBlock_apply (x : FVec Ideal S200x256 .f32) (g b : FVec Ideal S1x256 .f32) (p : Fin 200) (q : Fin 256) :
    lnBlock x g b (ix2 p q)
      = Gcn.lnRelu (fun k => x (ix2 p k)) (fun k => g (ix2 (0 : Fin 1) k)) (fun k => b (ix2 (0 : Fin 1) k)) q := by
  unfold lnBlock Gcn.lnRelu
  show max (devBlock x (ix2 p q)
        * broadcastTo S200x256
            (rsqrt (addf (varCol x) (broadcast S200x1 (Scalar.ofBits (F := Ideal) .f32 0x3727C5AC#32))))
            broadcasts_S200x1_S200x256 (ix2 p q)
        * broadcastTo S200x256 g broadcasts_S1x256_S200x256 (ix2 p q)
        + broadcastTo S200x256 b broadcasts_S1x256_S200x256 (ix2 p q)) Gcn.wZero = _
  rw [devBlock_apply, ColumnLayout.broadcastTo_a1_ab_apply _ broadcasts_S200x1_S200x256 p q,
    broadcastTo_1b_ab_apply g broadcasts_S1x256_S200x256 p q, broadcastTo_1b_ab_apply b broadcasts_S1x256_S200x256 p q]
  show max (Gcn.dev (fun k => x (ix2 p k)) q * Ideal.rsqrt (varCol x (ix2 p (0 : Fin 1)) + Gcn.wEps)
        * g (ix2 (0 : Fin 1) q) + b (ix2 (0 : Fin 1) q)) Gcn.wZero = _
  rw [varCol_apply]

/-- The aggregate plus bias: the adjacency block times the whole support, plus the bias row on every row. -/
def hrow (v0 : FVec Ideal S200x10000 .f32) (v3 : FVec Ideal S10000x256 .bf16) (v6 : FVec Ideal S1x256 .f32) :
    FVec Ideal S200x256 .f32 :=
  addf
    (matmul dot_S200x10000_S10000x256_S200x256_1_0_0_1_n_n none (k1_pay2 (F := Ideal) v0)
      (shapeCast S10000x256 v3 shapeCasts_S10000x256_S10000x256) (constant S200x256 .f32 0x00000000#32))
    (broadcastTo S200x256 (shapeCast S1x256 v6 shapeCasts_S1x256_S1x256) broadcasts_S1x256_S200x256)

/-- At `(p, q)`: row `p` of the adjacency block against column `q` of the support, plus the bias at `q`. -/
theorem hrow_apply (v0 : FVec Ideal S200x10000 .f32) (v3 : FVec Ideal S10000x256 .bf16) (v6 : FVec Ideal S1x256 .f32)
    (p : Fin 200) (q : Fin 256) :
    hrow v0 v3 v6 (ix2 p q) = (∑ k : Fin 10000, v0 (ix2 p k) * v3 (ix2 k q)) + v6 (ix2 (0 : Fin 1) q) := by
  unfold hrow k1_pay2
  rw [shapeCast_self, shapeCast_self]
  refine congrArg₂ (· + ·) ?_ ?_
  · exact RowDims.matmul_plain_zero_apply none v0 v3 p q
  · exact broadcastTo_1b_ab_apply v6 broadcasts_S1x256_S200x256 p q

/-- The body's layer value is the normalised block of the aggregate plus bias. -/
theorem pay3_eq (v0 : FVec Ideal S200x10000 .f32) (v3 : FVec Ideal S10000x256 .bf16) (v6 v10 v12 : FVec Ideal S1x256 .f32) :
    k1_pay3 (F := Ideal) v0 v3 v6 v10 v12
      = lnBlock (hrow v0 v3 v6) (shapeCast S1x256 v10 shapeCasts_S1x256_S1x256)
          (shapeCast S1x256 v12 shapeCasts_S1x256_S1x256) := rfl

/-- The body's layer value at an entry: the layer's row function of the loaded blocks' rows. -/
theorem pay3_apply (v0 : FVec Ideal S200x10000 .f32) (v3 : FVec Ideal S10000x256 .bf16) (v6 v10 v12 : FVec Ideal S1x256 .f32)
    (p : Fin 200) (q : Fin 256) :
    k1_pay3 (F := Ideal) v0 v3 v6 v10 v12 (ix2 p q)
      = Gcn.lnRelu (fun j => (∑ k : Fin 10000, v0 (ix2 p k) * v3 (ix2 k j)) + v6 (ix2 (0 : Fin 1) j))
          (fun j => v10 (ix2 (0 : Fin 1) j)) (fun j => v12 (ix2 (0 : Fin 1) j)) q := by
  rw [pay3_eq, shapeCast_self, shapeCast_self]
  refine (lnBlock_apply _ v10 v12 p q).trans ?_
  exact congrArg (fun h => Gcn.lnRelu h (fun j => v10 (ix2 (0 : Fin 1) j)) (fun j => v12 (ix2 (0 : Fin 1) j)) q)
    (funext fun j => hrow_apply v0 v3 v6 p j)

/-- The second output's stored value at an entry: the format change of the layer value, the identity. -/
theorem pay4_apply (v0 : FVec Ideal S200x10000 .f32) (v3 : FVec Ideal S10000x256 .bf16) (v6 v10 v12 : FVec Ideal S1x256 .f32)
    (p : Fin 200) (q : Fin 256) :
    k1_pay4 (F := Ideal) v0 v3 v6 v10 v12 (ix2 p q)
      = Gcn.lnRelu (fun j => (∑ k : Fin 10000, v0 (ix2 p k) * v3 (ix2 k j)) + v6 (ix2 (0 : Fin 1) j))
          (fun j => v10 (ix2 (0 : Fin 1) j)) (fun j => v12 (ix2 (0 : Fin 1) j)) q :=
  pay3_apply v0 v3 v6 v10 v12 p q

/-- The third output's stored value at an entry: row `p` of the layer block times the next weight matrix. -/
theorem pay1_apply (y : FVec Ideal S200x256 .f32) (w : FVec Ideal S256x256 .bf16) (p : Fin 200) (q : Fin 256) :
    k1_pay1 (F := Ideal) y w (ix2 p q) = Gcn.rowMat (fun k => y (ix2 p k)) (fun k j => w (ix2 k j)) q := by
  unfold k1_pay1 Gcn.rowMat
  rw [shapeCast_self]
  exact RowDims.matmul_plain_zero_apply none y w p q

/-! ## The staged blocks, read in the arrays' coordinates -/

/-- Row `p` of point `t`'s adjacency block is row `200 t + p` of the adjacency matrix. -/
theorem iblk_rows0 (c : Dev nD) (t : Fin cfg1.N) (p : Fin 200) (r : Fin 10000) (hr : r.val = t.val * 200 + p.val)
    (k : Fin 10000) :
    iblk1 V c 0 t (ix2 p k) = V c (Pipeline.arrRef spec1 0) (ix2 r k) := by
  obtain ⟨e00, e01, _⟩ := idx_facts t
  show V c (Pipeline.arrRef spec1 0) (((cfg1.win 0).blk t).view.emb (ix2 p k)) = _
  refine congrArg (V c (Pipeline.arrRef spec1 0)) ?_
  funext a; apply Fin.ext
  match a with
  | ⟨0, _⟩ =>
    show win1_0.index t (0 : Fin 2) * 200 + 1 * p.val = r.val
    omega
  | ⟨1, _⟩ =>
    show win1_0.index t (1 : Fin 2) * 10000 + 1 * k.val = k.val
    omega

/-- The support is staged whole. -/
theorem iblk_whole1 (c : Dev nD) (t : Fin cfg1.N) (k : Fin 10000) (q : Fin 256) :
    iblk1 V c 1 t (ix2 k q) = V c (Pipeline.arrRef spec1 1) (ix2 k q) := by
  obtain ⟨_, _, e10, e11, _⟩ := idx_facts t
  show V c (Pipeline.arrRef spec1 1) (((cfg1.win 1).blk t).view.emb (ix2 k q)) = _
  refine congrArg (V c (Pipeline.arrRef spec1 1)) ?_
  funext a; apply Fin.ext
  match a with
  | ⟨0, _⟩ =>
    show win1_1.index t (0 : Fin 2) * 10000 + 1 * k.val = k.val
    omega
  | ⟨1, _⟩ =>
    show win1_1.index t (1 : Fin 2) * 256 + 1 * q.val = q.val
    omega

/-- The bias row is staged whole. -/
theorem iblk_whole2 (c : Dev nD) (t : Fin cfg1.N) (q : Fin 256) :
    iblk1 V c 2 t (ix2 (0 : Fin 1) q) = V c (Pipeline.arrRef spec1 2) (ix2 (0 : Fin 1) q) := by
  obtain ⟨_, _, _, _, e20, e21, _⟩ := idx_facts t
  show V c (Pipeline.arrRef spec1 2) (((cfg1.win 2).blk t).view.emb (ix2 (0 : Fin 1) q)) = _
  refine congrArg (V c (Pipeline.arrRef spec1 2)) ?_
  funext a; apply Fin.ext
  match a with
  | ⟨0, _⟩ =>
    show win1_2.index t (0 : Fin 2) * 1 + 1 * 0 = 0
    omega
  | ⟨1, _⟩ =>
    show win1_2.index t (1 : Fin 2) * 256 + 1 * q.val = q.val
    omega

/-- The scale row is staged whole. -/
theorem iblk_whole3 (c : Dev nD) (t : Fin cfg1.N) (q : Fin 256) :
    iblk1 V c 3 t (ix2 (0 : Fin 1) q) = V c (Pipeline.arrRef spec1 3) (ix2 (0 : Fin 1) q) := by
  obtain ⟨_, _, _, _, _, _, e30, e31, _⟩ := idx_facts t
  show V c (Pipeline.arrRef spec1 3) (((cfg1.win 3).blk t).view.emb (ix2 (0 : Fin 1) q)) = _
  refine congrArg (V c (Pipeline.arrRef spec1 3)) ?_
  funext a; apply Fin.ext
  match a with
  | ⟨0, _⟩ =>
    show win1_3.index t (0 : Fin 2) * 1 + 1 * 0 = 0
    omega
  | ⟨1, _⟩ =>
    show win1_3.index t (1 : Fin 2) * 256 + 1 * q.val = q.val
    omega

/-- The shift row is staged whole. -/
theorem iblk_whole4 (c : Dev nD) (t : Fin cfg1.N) (q : Fin 256) :
    iblk1 V c 4 t (ix2 (0 : Fin 1) q) = V c (Pipeline.arrRef spec1 4) (ix2 (0 : Fin 1) q) := by
  obtain ⟨_, _, _, _, _, _, _, _, e40, e41, _⟩ := idx_facts t
  show V c (Pipeline.arrRef spec1 4) (((cfg1.win 4).blk t).view.emb (ix2 (0 : Fin 1) q)) = _
  refine congrArg (V c (Pipeline.arrRef spec1 4)) ?_
  funext a; apply Fin.ext
  match a with
  | ⟨0, _⟩ =>
    show win1_4.index t (0 : Fin 2) * 1 + 1 * 0 = 0
    omega
  | ⟨1, _⟩ =>
    show win1_4.index t (1 : Fin 2) * 256 + 1 * q.val = q.val
    omega

/-- The next weight matrix is staged whole. -/
theorem iblk_whole5 (c : Dev nD) (t : Fin cfg1.N) (k q : Fin 256) :
    iblk1 V c 5 t (ix2 k q) = V c (Pipeline.arrRef spec1 5) (ix2 k q) := by
  obtain ⟨_, _, _, _, _, _, _, _, _, _, e50, e51, _⟩ := idx_facts t
  show V c (Pipeline.arrRef spec1 5) (((cfg1.win 5).blk t).view.emb (ix2 k q)) = _
  refine congrArg (V c (Pipeline.arrRef spec1 5)) ?_
  funext a; apply Fin.ext
  match a with
  | ⟨0, _⟩ =>
    show win1_5.index t (0 : Fin 2) * 256 + 1 * k.val = k.val
    omega
  | ⟨1, _⟩ =>
    show win1_5.index t (1 : Fin 2) * 256 + 1 * q.val = q.val
    omega

/-- The normalised row depends only on the entries of its three rows. -/
theorem lnRelu_congr {h h' g g' b b' : Fin 256 → EReal} (q : Fin 256) (eh : ∀ j, h j = h' j) (eg : ∀ j, g j = g' j)
    (eb : ∀ j, b j = b' j) : Gcn.lnRelu h g b q = Gcn.lnRelu h' g' b' q := by
  rw [funext eh, funext eg, funext eb]

/-- The layer's row function of point `t`'s staged blocks at block row `p` is the layer's row `200 t + p` of the
    arrays as the region finds them. -/
theorem layer_blocks (c : Dev nD) (t : Fin cfg1.N) (p : Fin 200) (r : Fin 10000) (hr : r.val = t.val * 200 + p.val)
    (q : Fin 256) (x0 : FVec Ideal S200x10000 .f32) (x1 : FVec Ideal S10000x256 .bf16) (x2 x3 x4 : FVec Ideal S1x256 .f32)
    (h0 : x0 = iblk1 V c 0 t) (h1 : x1 = iblk1 V c 1 t) (h2 : x2 = iblk1 V c 2 t) (h3 : x3 = iblk1 V c 3 t)
    (h4 : x4 = iblk1 V c 4 t) :
    Gcn.lnRelu (fun j => (∑ k : Fin 10000, x0 (ix2 p k) * x1 (ix2 k j)) + x2 (ix2 (0 : Fin 1) j))
        (fun j => x3 (ix2 (0 : Fin 1) j)) (fun j => x4 (ix2 (0 : Fin 1) j)) q
      = Gcn.layer (fun r k => V c (Pipeline.arrRef spec1 0) (ix2 r k)) (fun k q => V c (Pipeline.arrRef spec1 1) (ix2 k q))
          (fun q => V c (Pipeline.arrRef spec1 2) (ix2 (0 : Fin 1) q)) (fun q => V c (Pipeline.arrRef spec1 3) (ix2 (0 : Fin 1) q))
          (fun q => V c (Pipeline.arrRef spec1 4) (ix2 (0 : Fin 1) q)) r q := by
  subst h0 h1 h2 h3 h4
  unfold Gcn.layer
  refine lnRelu_congr q (fun j => ?_) (fun j => iblk_whole3 V c t j) (fun j => iblk_whole4 V c t j)
  refine congrArg₂ (· + ·) (Finset.sum_congr rfl fun k _ => congrArg₂ (· * ·) ?_ ?_) (iblk_whole2 V c t j)
  · exact iblk_rows0 V c t p r hr k
  · exact iblk_whole1 V c t k j

/-! ## The layer's rows, written back -/

/-- The whole-array function the second output ends at: the layer's row at each node. -/
def G7 (a0 : S10000x10000.Idx → EReal) (a1 : S10000x256.Idx → EReal) (a2 a3 a4 : S1x256.Idx → EReal) :
    S10000x256.Idx → EReal :=
  fun i => Gcn.layer (fun r k => a0 (ix2 r k)) (fun k q => a1 (ix2 k q)) (fun q => a2 (ix2 (0 : Fin 1) q))
    (fun q => a3 (ix2 (0 : Fin 1) q)) (fun q => a4 (ix2 (0 : Fin 1) q)) ⟨(i 0).val, idx2_lt0 i⟩ ⟨(i 1).val, idx2_lt1 i⟩

/-- What point `t` writes back to the second output is block `t` of that function of the arrays. -/
theorem flushed_eq7 (c : Dev nD) (t : Fin cfg1.N) :
    (dat1 V c).flushed 7 t = ((cfg1.win 7).blk t).view.read (Elt Ideal)
      (G7 (V c (Pipeline.arrRef spec1 0)) (V c (Pipeline.arrRef spec1 1)) (V c (Pipeline.arrRef spec1 2))
        (V c (Pipeline.arrRef spec1 3)) (V c (Pipeline.arrRef spec1 4))) := by
  show (cfg1.win 7).cut (grid1.coords t) ((dat1 V c).after 7 t) = _
  rw [after1_7]
  unfold out1_7
  rw [View.canon_unit_zero hz]
  simp only [View.ld_unit_zero (S := S200x10000) hz, View.ld_unit_zero (S := S10000x256) hz,
    View.ld_unit_zero (S := S1x256) hz]
  obtain ⟨_, _, _, _, _, _, _, _, _, _, _, _, _, _, e70, e71, _, _⟩ := idx_facts t
  funext j
  have hj0 : (j 0).val < 200 := (j 0).isLt
  have hj1 : (j 1).val < 256 := (j 1).isLt
  have ht : t.val < 50 := t.isLt
  -- the block index in literal coordinates
  have ej : j = ix2 (⟨(j 0).val, hj0⟩ : Fin 200) (⟨(j 1).val, hj1⟩ : Fin 256) := by
    funext a; match a with
    | ⟨0, _⟩ => rfl
    | ⟨1, _⟩ => rfl
  show k1_pay4 (F := Ideal) (iblk1 V c 0 t) (iblk1 V c 1 t) (iblk1 V c 2 t) (iblk1 V c 3 t) (iblk1 V c 4 t) j
    = G7 (V c (Pipeline.arrRef spec1 0)) (V c (Pipeline.arrRef spec1 1)) (V c (Pipeline.arrRef spec1 2))
        (V c (Pipeline.arrRef spec1 3)) (V c (Pipeline.arrRef spec1 4)) (((cfg1.win 7).blk t).view.emb j)
  refine (congrArg (k1_pay4 (F := Ideal) (iblk1 V c 0 t) (iblk1 V c 1 t) (iblk1 V c 2 t) (iblk1 V c 3 t) (iblk1 V c 4 t)) ej).trans ?_
  refine (pay4_apply (iblk1 V c 0 t) (iblk1 V c 1 t) (iblk1 V c 2 t) (iblk1 V c 3 t) (iblk1 V c 4 t) _ _).trans ?_
  unfold G7
  -- the output entry's column is the block's column
  have hq : (⟨(j 1).val, hj1⟩ : Fin 256) = ⟨((((cfg1.win 7).blk t).view.emb j) 1).val, idx2_lt1 _⟩ := by
    apply Fin.ext
    show (j 1).val = win1_7.index t (1 : Fin 2) * 256 + 1 * (j 1).val
    omega
  rw [← hq]
  -- and its row is row 200 t + p of the arrays
  refine layer_blocks V c t ⟨(j 0).val, hj0⟩ ⟨((((cfg1.win 7).blk t).view.emb j) 0).val, idx2_lt0 _⟩ ?_ _
    (iblk1 V c 0 t) (iblk1 V c 1 t) (iblk1 V c 2 t) (iblk1 V c 3 t) (iblk1 V c 4 t) rfl rfl rfl rfl rfl
  show win1_7.index t (0 : Fin 2) * 200 + 1 * (j 0).val = t.val * 200 + (j 0).val
  omega

/-- An index of the second output is in point `t`'s block iff each coordinate is in the block's range on its axis. -/
theorem mem_blk7 (t : Fin cfg1.N) (i : S10000x256.Idx) :
    i ∈ ((cfg1.win 7).blk t).view.set ↔ ∀ a : Fin 2, win1_7.index t a * S200x256.size a ≤ (i a).val
      ∧ (i a).val < win1_7.index t a * S200x256.size a + S200x256.size a := by
  show i ∈ ((View.whole main_v6_1).slice (win1_7.rect t)).set ↔ _
  rw [View.set_slice_whole, Rect.mem_set_unit]
  exact Iff.rfl

/-- Every row lies in the block of the point `row / 200`. -/
theorem cover7 (i : S10000x256.Idx) :
    ∃ t : Fin cfg1.N, (cfg1.win 7).flush t = true ∧ i ∈ ((cfg1.win 7).blk t).view.set := by
  have hi0 : (i 0).val < 10000 := (i 0).isLt
  have hi1 : (i 1).val < 256 := (i 1).isLt
  have ht : (i 0).val / 200 < 50 := by omega
  obtain ⟨_, _, _, _, _, _, _, _, _, _, _, _, _, _, e70, e71, _, _⟩ := idx_facts ⟨(i 0).val / 200, ht⟩
  have e70' : win1_7.index ⟨(i 0).val / 200, ht⟩ (0 : Fin 2) = (i 0).val / 200 := e70
  refine ⟨⟨(i 0).val / 200, ht⟩, flush1_7 _, ?_⟩
  rw [mem_blk7]
  intro a
  match a with
  | ⟨0, _⟩ =>
    show win1_7.index ⟨(i 0).val / 200, ht⟩ (0 : Fin 2) * 200 ≤ (i 0).val
      ∧ (i 0).val < win1_7.index ⟨(i 0).val / 200, ht⟩ (0 : Fin 2) * 200 + 200
    omega
  | ⟨1, _⟩ =>
    show win1_7.index ⟨(i 0).val / 200, ht⟩ (1 : Fin 2) * 256 ≤ (i 1).val
      ∧ (i 1).val < win1_7.index ⟨(i 0).val / 200, ht⟩ (1 : Fin 2) * 256 + 256
    omega

/-- The second output after the region, as one function of the arrays the region finds. -/
theorem final7 (c : Dev nD) :
    (dat1 V c).arrAt 7 cfg1.N = G7 (V c (Pipeline.arrRef spec1 0)) (V c (Pipeline.arrRef spec1 1))
      (V c (Pipeline.arrRef spec1 2)) (V c (Pipeline.arrRef spec1 3)) (V c (Pipeline.arrRef spec1 4)) :=
  (dat1 V c).arrAt_eq_of_cover 7 _ (fun t _ => flushed_eq7 V c t) cover7

/-- Layer one's output, entry by entry. -/
theorem final7_apply (c : Dev nD) (r : Fin 10000) (j : Fin 256) :
    (dat1 V c).arrAt 7 cfg1.N (ix2 r j)
      = Gcn.layer (fun r k => V c (Pipeline.arrRef spec1 0) (ix2 r k)) (fun k q => V c (Pipeline.arrRef spec1 1) (ix2 k q))
          (fun q => V c (Pipeline.arrRef spec1 2) (ix2 (0 : Fin 1) q)) (fun q => V c (Pipeline.arrRef spec1 3) (ix2 (0 : Fin 1) q))
          (fun q => V c (Pipeline.arrRef spec1 4) (ix2 (0 : Fin 1) q)) r j := by
  rw [final7]
  rfl

/-! ## The support of layer two, written back -/

/-- The whole-array function the third output ends at: the layer's row at each node times the next weight matrix. -/
def G8 (a0 : S10000x10000.Idx → EReal) (a1 : S10000x256.Idx → EReal) (a2 a3 a4 : S1x256.Idx → EReal)
    (a5 : S256x256.Idx → EReal) : S10000x256.Idx → EReal :=
  fun i => Gcn.rowMat
    (Gcn.layer (fun r k => a0 (ix2 r k)) (fun k q => a1 (ix2 k q)) (fun q => a2 (ix2 (0 : Fin 1) q))
      (fun q => a3 (ix2 (0 : Fin 1) q)) (fun q => a4 (ix2 (0 : Fin 1) q)) ⟨(i 0).val, idx2_lt0 i⟩)
    (fun k q => a5 (ix2 k q)) ⟨(i 1).val, idx2_lt1 i⟩

/-- What point `t` writes back to the third output is block `t` of that function of the arrays. -/
theorem flushed_eq8 (c : Dev nD) (t : Fin cfg1.N) :
    (dat1 V c).flushed 8 t = ((cfg1.win 8).blk t).view.read (Elt Ideal)
      (G8 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 8).cut (grid1.coords t) ((dat1 V c).after 8 t) = _
  rw [after1_8]
  unfold out1_8
  rw [View.canon_unit_zero hz]
  simp only [View.ld_unit_zero (S := S200x10000) hz, View.ld_unit_zero (S := S10000x256) hz,
    View.ld_unit_zero (S := S1x256) hz, View.ld_unit_zero (S := S256x256) hz]
  obtain ⟨_, _, _, _, _, _, _, _, _, _, _, _, _, _, _, _, e80, e81⟩ := idx_facts t
  funext j
  have hj0 : (j 0).val < 200 := (j 0).isLt
  have hj1 : (j 1).val < 256 := (j 1).isLt
  have ht : t.val < 50 := t.isLt
  -- the block index in literal coordinates
  have ej : j = ix2 (⟨(j 0).val, hj0⟩ : Fin 200) (⟨(j 1).val, hj1⟩ : Fin 256) := by
    funext a; match a with
    | ⟨0, _⟩ => rfl
    | ⟨1, _⟩ => rfl
  show k1_pay1 (F := Ideal)
      (k1_pay3 (F := Ideal) (iblk1 V c 0 t) (iblk1 V c 1 t) (iblk1 V c 2 t) (iblk1 V c 3 t) (iblk1 V c 4 t))
      (iblk1 V c 5 t) j
    = G8 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (((cfg1.win 8).blk t).view.emb j)
  refine (congrArg (k1_pay1 (F := Ideal)
      (k1_pay3 (F := Ideal) (iblk1 V c 0 t) (iblk1 V c 1 t) (iblk1 V c 2 t) (iblk1 V c 3 t) (iblk1 V c 4 t))
      (iblk1 V c 5 t)) ej).trans ?_
  refine (pay1_apply
      (k1_pay3 (F := Ideal) (iblk1 V c 0 t) (iblk1 V c 1 t) (iblk1 V c 2 t) (iblk1 V c 3 t) (iblk1 V c 4 t))
      (iblk1 V c 5 t) _ _).trans ?_
  unfold G8 Gcn.rowMat
  -- the output entry's column is the block's column
  have hq : (⟨(j 1).val, hj1⟩ : Fin 256) = ⟨((((cfg1.win 8).blk t).view.emb j) 1).val, idx2_lt1 _⟩ := by
    apply Fin.ext
    show (j 1).val = win1_8.index t (1 : Fin 2) * 256 + 1 * (j 1).val
    omega
  rw [← hq]
  refine Finset.sum_congr rfl fun k _ => congrArg₂ (· * ·) ?_ ?_
  · -- the layer block's row p is the layer's row 200 t + p of the arrays
    refine (pay3_apply (iblk1 V c 0 t) (iblk1 V c 1 t) (iblk1 V c 2 t) (iblk1 V c 3 t) (iblk1 V c 4 t) _ _).trans ?_
    refine layer_blocks V c t ⟨(j 0).val, hj0⟩ ⟨((((cfg1.win 8).blk t).view.emb j) 0).val, idx2_lt0 _⟩ ?_ _
      (iblk1 V c 0 t) (iblk1 V c 1 t) (iblk1 V c 2 t) (iblk1 V c 3 t) (iblk1 V c 4 t) rfl rfl rfl rfl rfl
    show win1_8.index t (0 : Fin 2) * 200 + 1 * (j 0).val = t.val * 200 + (j 0).val
    omega
  · -- the next weight matrix is staged whole
    exact iblk_whole5 V c t k ⟨(j 1).val, hj1⟩

/-- An index of the third output is in point `t`'s block iff each coordinate is in the block's range on its axis. -/
theorem mem_blk8 (t : Fin cfg1.N) (i : S10000x256.Idx) :
    i ∈ ((cfg1.win 8).blk t).view.set ↔ ∀ a : Fin 2, win1_8.index t a * S200x256.size a ≤ (i a).val
      ∧ (i a).val < win1_8.index t a * S200x256.size a + S200x256.size a := by
  show i ∈ ((View.whole main_v6_2).slice (win1_8.rect t)).set ↔ _
  rw [View.set_slice_whole, Rect.mem_set_unit]
  exact Iff.rfl

/-- Every row lies in the block of the point `row / 200`. -/
theorem cover8 (i : S10000x256.Idx) :
    ∃ t : Fin cfg1.N, (cfg1.win 8).flush t = true ∧ i ∈ ((cfg1.win 8).blk t).view.set := by
  have hi0 : (i 0).val < 10000 := (i 0).isLt
  have hi1 : (i 1).val < 256 := (i 1).isLt
  have ht : (i 0).val / 200 < 50 := by omega
  obtain ⟨_, _, _, _, _, _, _, _, _, _, _, _, _, _, _, _, e80, e81⟩ := idx_facts ⟨(i 0).val / 200, ht⟩
  have e80' : win1_8.index ⟨(i 0).val / 200, ht⟩ (0 : Fin 2) = (i 0).val / 200 := e80
  refine ⟨⟨(i 0).val / 200, ht⟩, flush1_8 _, ?_⟩
  rw [mem_blk8]
  intro a
  match a with
  | ⟨0, _⟩ =>
    show win1_8.index ⟨(i 0).val / 200, ht⟩ (0 : Fin 2) * 200 ≤ (i 0).val
      ∧ (i 0).val < win1_8.index ⟨(i 0).val / 200, ht⟩ (0 : Fin 2) * 200 + 200
    omega
  | ⟨1, _⟩ =>
    show win1_8.index ⟨(i 0).val / 200, ht⟩ (1 : Fin 2) * 256 ≤ (i 1).val
      ∧ (i 1).val < win1_8.index ⟨(i 0).val / 200, ht⟩ (1 : Fin 2) * 256 + 256
    omega

/-- The third output after the region, as one function of the arrays the region finds. -/
theorem final8 (c : Dev nD) :
    (dat1 V c).arrAt 8 cfg1.N = G8 (V c (Pipeline.arrRef spec1 0)) (V c (Pipeline.arrRef spec1 1))
      (V c (Pipeline.arrRef spec1 2)) (V c (Pipeline.arrRef spec1 3)) (V c (Pipeline.arrRef spec1 4))
      (V c (Pipeline.arrRef spec1 5)) :=
  (dat1 V c).arrAt_eq_of_cover 8 _ (fun t _ => flushed_eq8 V c t) cover8

/-- The support of layer two: layer one's row times the next weight matrix. -/
theorem final8_apply (c : Dev nD) (r : Fin 10000) (j : Fin 256) :
    (dat1 V c).arrAt 8 cfg1.N (ix2 r j)
      = Gcn.rowMat (Gcn.layer (fun r k => V c (Pipeline.arrRef spec1 0) (ix2 r k)) (fun k q => V c (Pipeline.arrRef spec1 1) (ix2 k q))
          (fun q => V c (Pipeline.arrRef spec1 2) (ix2 (0 : Fin 1) q)) (fun q => V c (Pipeline.arrRef spec1 3) (ix2 (0 : Fin 1) q))
          (fun q => V c (Pipeline.arrRef spec1 4) (ix2 (0 : Fin 1) q)) r)
          (fun k q => V c (Pipeline.arrRef spec1 5) (ix2 k q)) j := by
  rw [final8]
  rfl

end Cert.KernelIdeal.Reg1

end
-- ==== Proof.Reg2.lean ====
/-
  The third region: layer two.  Each of its 10 points takes 1000 rows of the adjacency matrix and, whole, the support of
  layer two, the layer's bias, scale and shift rows and the next layer's weight matrix.  It writes back the 1000 rows of
  the layer's output — the aggregate plus bias, normalised over the 256 features, scaled, shifted and clipped at zero —
  and those rows times the next weight matrix, the support of layer three.  The 10 blocks of 1000 rows tile the 10000
  rows.
-/
import proofs.«122235_g19155554140324_cont_8to1_1621_8_alg».proof.Proof.Gen.KernelIdeal.Frame
import proofs.«122235_g19155554140324_cont_8to1_1621_8_alg».proof.Proof.Net
import proofs.«122235_g19155554140324_cont_8to1_1621_8_alg».proof.Proof.LibRowDims
import proofs.«122235_g19155554140324_cont_8to1_1621_8_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic, entry by entry -/

theorem hz : (![0, 0] : Fin 2 → Nat) = fun _ => 0 := funext fun a => by fin_cases a <;> rfl

/-- The aggregate of the support over the neighbours plus the bias row, as a block of 1000 rows. -/
def rowsV (v0 : FVec Ideal S1000x10000 .bf16) (v2 : FVec Ideal S10000x256 .bf16) (v5 : FVec Ideal S1x256 .f32) :
    FVec Ideal S1000x256 .f32 :=
  addf
    (matmul dot_S1000x10000_S10000x256_S1000x256_1_0_0_1_n_n none
      (shapeCast S1000x10000 v0 shapeCasts_S1000x10000_S1000x10000)
      (shapeCast S10000x256 v2 shapeCasts_S10000x256_S10000x256)
      (constant S1000x256 .f32 0x00000000#32))
    (broadcastTo S1000x256 (shapeCast S1x256 v5 shapeCasts_S1x256_S1x256) broadcasts_S1x256_S1000x256)

/-- Its entry: the adjacency row times the support's column, plus the bias at that column. -/
theorem rowsV_apply (v0 : FVec Ideal S1000x10000 .bf16) (v2 : FVec Ideal S10000x256 .bf16) (v5 : FVec Ideal S1x256 .f32)
    (p : Fin 1000) (q : Fin 256) :
    rowsV v0 v2 v5 (ix2 p q) = (∑ k : Fin 10000, v0 (ix2 p k) * v2 (ix2 k q)) + v5 (ix2 (0 : Fin 1) q) := by
  unfold rowsV
  rw [shapeCast_self, shapeCast_self, shapeCast_self]
  refine (addf_apply _ _ _).trans ?_
  refine congrArg₂ (· + ·) ?_ ?_
  · exact RowDims.matmul_plain_zero_apply none v0 v2 p q
  · exact broadcastTo_1b_ab_apply v5 _ p q

/-- The column of row sums over the 256 features, each divided by the word 256. -/
def meanCol (x : FVec Ideal S1000x256 .f32) : FVec Ideal S1000x1 .f32 :=
  divf
    (shapeCast S1000x1 (multiReduction .add [1] S1000 x 0x00000000#32 reduces_S1000x256_S1000 (.inl rfl) rfl)
      shapeCasts_S1000_S1000x1)
    (broadcast S1000x1 (Scalar.ofBits (F := Ideal) .f32 0x43800000#32))

/-- Its entry at row p: the sum of row p over 256. -/
theorem meanCol_apply (x : FVec Ideal S1000x256 .f32) (p : Fin 1000) (u : Fin 1) :
    meanCol x (ix2 p u) = Ideal.div (∑ k : Fin 256, x (ix2 p k)) Gcn.w256 := by
  unfold meanCol
  refine (divf_apply _ _ _).trans ?_
  refine congrArg₂ Ideal.div ?_ rfl
  refine (ColumnLayout.shapeCast_a_a1_apply _ shapeCasts_S1000_S1000x1 p u).trans ?_
  refine (Ideal.multiReduction_add_single x 0x00000000#32 reduces_S1000x256_S1000 _ _ (ix1 p)).trans ?_
  refine Finset.sum_congr rfl fun k _ => congrArg x ?_
  funext a
  match a with
  | ⟨0, _⟩ => rfl
  | ⟨1, _⟩ => rfl

/-- A block with each row centred on its mean. -/
def centred (x : FVec Ideal S1000x256 .f32) : FVec Ideal S1000x256 .f32 :=
  subf x (broadcastTo S1000x256 (meanCol x) broadcasts_S1000x1_S1000x256)

theorem centred_apply (x : FVec Ideal S1000x256 .f32) (p : Fin 1000) (q : Fin 256) :
    centred x (ix2 p q) = x (ix2 p q) - Ideal.div (∑ k : Fin 256, x (ix2 p k)) Gcn.w256 := by
  unfold centred
  refine (subf_apply _ _ _).trans ?_
  refine congrArg₂ (· - ·) rfl ?_
  refine (ColumnLayout.broadcastTo_a1_ab_apply _ broadcasts_S1000x1_S1000x256 p q).trans ?_
  exact meanCol_apply x p 0

/-- Centre each row, multiply by the reciprocal root of the row's variance plus the small word, scale and shift by the
    two rows, clip at zero. -/
def normed (x : FVec Ideal S1000x256 .f32) (g b : FVec Ideal S1x256 .f32) : FVec Ideal S1000x256 .f32 :=
  maximumf
    (addf
      (mulf
        (mulf (centred x)
          (broadcastTo S1000x256
            (rsqrt (addf (meanCol (mulf (centred x) (centred x)))
              (broadcast S1000x1 (Scalar.ofBits (F := Ideal) .f32 0x3727C5AC#32))))
            broadcasts_S1000x1_S1000x256))
        (broadcastTo S1000x256 (shapeCast S1x256 g shapeCasts_S1x256_S1x256) broadcasts_S1x256_S1000x256))
      (broadcastTo S1000x256 (shapeCast S1x256 b shapeCasts_S1x256_S1x256) broadcasts_S1x256_S1000x256))
    (broadcast S1000x256 (Scalar.ofBits (F := Ideal) .f32 0x00000000#32))

/-- Its entry: the normalised, clipped row of the block at that column. -/
theorem normed_apply (x : FVec Ideal S1000x256 .f32) (g b : FVec Ideal S1x256 .f32) (p : Fin 1000) (q : Fin 256) :
    normed x g b (ix2 p q)
      = Gcn.lnRelu (fun j => x (ix2 p j)) (fun j => g (ix2 (0 : Fin 1) j)) (fun j => b (ix2 (0 : Fin 1) j)) q := by
  unfold normed Gcn.lnRelu
  rw [shapeCast_self, shapeCast_self]
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) ?_ ?_
      · exact centred_apply x p q
      · refine (ColumnLayout.broadcastTo_a1_ab_apply _ broadcasts_S1000x1_S1000x256 p q).trans ?_
        show Ideal.rsqrt (meanCol (mulf (centred x) (centred x)) (ix2 p (0 : Fin 1)) + Gcn.wEps)
          = Ideal.rsqrt (Gcn.var (fun j => x (ix2 p j)) + Gcn.wEps)
        refine congrArg (fun z => Ideal.rsqrt (z + Gcn.wEps)) ?_
        refine (meanCol_apply _ p 0).trans ?_
        unfold Gcn.var
        refine congrArg (fun z => Ideal.div z Gcn.w256) ?_
        refine Finset.sum_congr rfl fun k _ => ?_
        refine (mulf_apply _ _ _).trans ?_
        exact congrArg₂ (· * ·) (centred_apply x p k) (centred_apply x p k)
    · exact broadcastTo_1b_ab_apply g _ p q
  · exact broadcastTo_1b_ab_apply b _ p q

/-- The layer's block is the normalisation of the aggregate block. -/
theorem pay2_eq (v0 : FVec Ideal S1000x10000 .bf16) (v2 : FVec Ideal S10000x256 .bf16) (v5 v9 v11 : FVec Ideal S1x256 .f32) :
    k2_pay2 (F := Ideal) v0 v2 v5 v9 v11 = normed (rowsV v0 v2 v5) v9 v11 := rfl

/-- The layer's block at an entry: the layer's row at that column. -/
theorem pay2_apply (v0 : FVec Ideal S1000x10000 .bf16) (v2 : FVec Ideal S10000x256 .bf16) (v5 v9 v11 : FVec Ideal S1x256 .f32)
    (p : Fin 1000) (q : Fin 256) :
    k2_pay2 (F := Ideal) v0 v2 v5 v9 v11 (ix2 p q)
      = Gcn.lnRelu (fun j => (∑ k : Fin 10000, v0 (ix2 p k) * v2 (ix2 k j)) + v5 (ix2 (0 : Fin 1) j))
          (fun j => v9 (ix2 (0 : Fin 1) j)) (fun j => v11 (ix2 (0 : Fin 1) j)) q := by
  rw [pay2_eq]
  refine (normed_apply _ v9 v11 p q).trans ?_
  refine congrArg (fun h => Gcn.lnRelu h (fun j => v9 (ix2 (0 : Fin 1) j)) (fun j => v11 (ix2 (0 : Fin 1) j)) q) ?_
  funext j
  exact rowsV_apply v0 v2 v5 p j

/-- The first stored block: the layer's block, its format changed, which is the identity. -/
theorem pay3_apply (v0 : FVec Ideal S1000x10000 .bf16) (v2 : FVec Ideal S10000x256 .bf16) (v5 v9 v11 : FVec Ideal S1x256 .f32)
    (p : Fin 1000) (q : Fin 256) :
    k2_pay3 (F := Ideal) v0 v2 v5 v9 v11 (ix2 p q)
      = Gcn.lnRelu (fun j => (∑ k : Fin 10000, v0 (ix2 p k) * v2 (ix2 k j)) + v5 (ix2 (0 : Fin 1) j))
          (fun j => v9 (ix2 (0 : Fin 1) j)) (fun j => v11 (ix2 (0 : Fin 1) j)) q :=
  pay2_apply v0 v2 v5 v9 v11 p q

/-- The second stored block: the layer's rows times the next weight matrix. -/
theorem pay7_apply (v0 : FVec Ideal S1000x10000 .bf16) (v2 : FVec Ideal S10000x256 .bf16) (v5 v9 v11 : FVec Ideal S1x256 .f32)
    (v38 : FVec Ideal S256x256 .bf16) (p : Fin 1000) (q : Fin 256) :
    k2_pay1 (F := Ideal) (k2_pay4 (F := Ideal) v0 v2 v5 v9 v11) v38 (ix2 p q)
      = Gcn.rowMat (Gcn.lnRelu (fun j => (∑ k : Fin 10000, v0 (ix2 p k) * v2 (ix2 k j)) + v5 (ix2 (0 : Fin 1) j))
          (fun j => v9 (ix2 (0 : Fin 1) j)) (fun j => v11 (ix2 (0 : Fin 1) j))) (fun k j => v38 (ix2 k j)) q := by
  unfold k2_pay1 Gcn.rowMat
  rw [shapeCast_self]
  refine (RowDims.matmul_plain_zero_apply none (k2_pay4 (F := Ideal) v0 v2 v5 v9 v11) v38 p q).trans ?_
  refine Finset.sum_congr rfl fun k _ => congrArg₂ (· * ·) ?_ rfl
  exact pay2_apply v0 v2 v5 v9 v11 p k

/-! ## The windows over the grid -/

/-- The index maps over the grid: the adjacency's block and the two outputs' blocks move with the point along the rows,
    the five whole arrays stay at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row p of point t's block is a row of the array. -/
theorem row_lt (t : Fin cfg2.N) (p : Fin 1000) : t.val * 1000 + p.val < 10000 := by
  have ht : t.val < 10 := t.isLt
  have hp : p.val < 1000 := p.isLt
  omega

/-- Row p of point t's block is row 1000 t + p of the array. -/
def rowOf (t : Fin cfg2.N) (p : Fin 1000) : Fin 10000 := ⟨t.val * 1000 + p.val, row_lt t p⟩

/-- The adjacency block's row p is row 1000 t + p of the adjacency matrix. -/
theorem blk0_apply (c : Dev nD) (t : Fin cfg2.N) (p : Fin 1000) (k : Fin 10000) :
    iblk2 V c 0 t (ix2 p k) = V c (Pipeline.arrRef spec2 0) (ix2 (rowOf t p) k) := by
  obtain ⟨e00, e01, _⟩ := idx_facts t
  show V c (Pipeline.arrRef spec2 0) (((cfg2.win 0).blk t).view.emb (ix2 p k)) = _
  refine congrArg (V c (Pipeline.arrRef spec2 0)) ?_
  funext a; apply Fin.ext
  match a with
  | ⟨0, _⟩ =>
    show win2_0.index t (0 : Fin 2) * 1000 + 1 * p.val = t.val * 1000 + p.val
    omega
  | ⟨1, _⟩ =>
    show win2_0.index t (1 : Fin 2) * 10000 + 1 * k.val = k.val
    omega

/-- The support is staged whole. -/
theorem blk1_apply (c : Dev nD) (t : Fin cfg2.N) (k : Fin 10000) (q : Fin 256) :
    iblk2 V c 1 t (ix2 k q) = V c (Pipeline.arrRef spec2 1) (ix2 k q) := by
  obtain ⟨_, _, e10, e11, _⟩ := idx_facts t
  show V c (Pipeline.arrRef spec2 1) (((cfg2.win 1).blk t).view.emb (ix2 k q)) = _
  refine congrArg (V c (Pipeline.arrRef spec2 1)) ?_
  funext a; apply Fin.ext
  match a with
  | ⟨0, _⟩ =>
    show win2_1.index t (0 : Fin 2) * 10000 + 1 * k.val = k.val
    omega
  | ⟨1, _⟩ =>
    show win2_1.index t (1 : Fin 2) * 256 + 1 * q.val = q.val
    omega

/-- The bias row is staged whole. -/
theorem blk2_apply (c : Dev nD) (t : Fin cfg2.N) (u : Fin 1) (q : Fin 256) :
    iblk2 V c 2 t (ix2 u q) = V c (Pipeline.arrRef spec2 2) (ix2 u q) := by
  obtain ⟨_, _, _, _, e20, e21, _⟩ := idx_facts t
  show V c (Pipeline.arrRef spec2 2) (((cfg2.win 2).blk t).view.emb (ix2 u q)) = _
  refine congrArg (V c (Pipeline.arrRef spec2 2)) ?_
  funext a; apply Fin.ext
  match a with
  | ⟨0, _⟩ =>
    show win2_2.index t (0 : Fin 2) * 1 + 1 * u.val = u.val
    omega
  | ⟨1, _⟩ =>
    show win2_2.index t (1 : Fin 2) * 256 + 1 * q.val = q.val
    omega

/-- The scale row is staged whole. -/
theorem blk3_apply (c : Dev nD) (t : Fin cfg2.N) (u : Fin 1) (q : Fin 256) :
    iblk2 V c 3 t (ix2 u q) = V c (Pipeline.arrRef spec2 3) (ix2 u q) := by
  obtain ⟨_, _, _, _, _, _, e30, e31, _⟩ := idx_facts t
  show V c (Pipeline.arrRef spec2 3) (((cfg2.win 3).blk t).view.emb (ix2 u q)) = _
  refine congrArg (V c (Pipeline.arrRef spec2 3)) ?_
  funext a; apply Fin.ext
  match a with
  | ⟨0, _⟩ =>
    show win2_3.index t (0 : Fin 2) * 1 + 1 * u.val = u.val
    omega
  | ⟨1, _⟩ =>
    show win2_3.index t (1 : Fin 2) * 256 + 1 * q.val = q.val
    omega

/-- The shift row is staged whole. -/
theorem blk4_apply (c : Dev nD) (t : Fin cfg2.N) (u : Fin 1) (q : Fin 256) :
    iblk2 V c 4 t (ix2 u q) = V c (Pipeline.arrRef spec2 4) (ix2 u q) := by
  obtain ⟨_, _, _, _, _, _, _, _, e40, e41, _⟩ := idx_facts t
  show V c (Pipeline.arrRef spec2 4) (((cfg2.win 4).blk t).view.emb (ix2 u q)) = _
  refine congrArg (V c (Pipeline.arrRef spec2 4)) ?_
  funext a; apply Fin.ext
  match a with
  | ⟨0, _⟩ =>
    show win2_4.index t (0 : Fin 2) * 1 + 1 * u.val = u.val
    omega
  | ⟨1, _⟩ =>
    show win2_4.index t (1 : Fin 2) * 256 + 1 * q.val = q.val
    omega

/-- The next weight matrix is staged whole. -/
theorem blk5_apply (c : Dev nD) (t : Fin cfg2.N) (k : Fin 256) (q : Fin 256) :
    iblk2 V c 5 t (ix2 k q) = V c (Pipeline.arrRef spec2 5) (ix2 k q) := by
  obtain ⟨_, _, _, _, _, _, _, _, _, _, e50, e51, _⟩ := idx_facts t
  show V c (Pipeline.arrRef spec2 5) (((cfg2.win 5).blk t).view.emb (ix2 k q)) = _
  refine congrArg (V c (Pipeline.arrRef spec2 5)) ?_
  funext a; apply Fin.ext
  match a with
  | ⟨0, _⟩ =>
    show win2_5.index t (0 : Fin 2) * 256 + 1 * k.val = k.val
    omega
  | ⟨1, _⟩ =>
    show win2_5.index t (1 : Fin 2) * 256 + 1 * q.val = q.val
    omega

/-- Entry (p, q) of the first output's block at point t is entry (1000 t + p, q) of the array. -/
theorem emb6 (t : Fin cfg2.N) (p : Fin 1000) (q : Fin 256) :
    ((cfg2.win 6).blk t).view.emb (ix2 p q) = ix2 (rowOf t p) q := by
  obtain ⟨_, _, _, _, _, _, _, _, _, _, _, _, e60, e61, _⟩ := idx_facts t
  funext a; apply Fin.ext
  match a with
  | ⟨0, _⟩ =>
    show win2_6.index t (0 : Fin 2) * 1000 + 1 * p.val = t.val * 1000 + p.val
    omega
  | ⟨1, _⟩ =>
    show win2_6.index t (1 : Fin 2) * 256 + 1 * q.val = q.val
    omega

/-- The same for the second output's block. -/
theorem emb7 (t : Fin cfg2.N) (p : Fin 1000) (q : Fin 256) :
    ((cfg2.win 7).blk t).view.emb (ix2 p q) = ix2 (rowOf t p) q := by
  obtain ⟨_, _, _, _, _, _, _, _, _, _, _, _, _, _, e70, e71⟩ := idx_facts t
  funext a; apply Fin.ext
  match a with
  | ⟨0, _⟩ =>
    show win2_7.index t (0 : Fin 2) * 1000 + 1 * p.val = t.val * 1000 + p.val
    omega
  | ⟨1, _⟩ =>
    show win2_7.index t (1 : Fin 2) * 256 + 1 * q.val = q.val
    omega

/-! ## What the region leaves in its two outputs -/

/-- Two normalised rows agree when their three arguments agree entry by entry. -/
theorem lnRelu_congr {h h' g g' b b' : Fin 256 → EReal} (eh : ∀ j, h j = h' j) (eg : ∀ j, g j = g' j)
    (eb : ∀ j, b j = b' j) : Gcn.lnRelu h g b = Gcn.lnRelu h' g' b' := by
  obtain rfl : h = h' := funext eh
  obtain rfl : g = g' := funext eg
  obtain rfl : b = b' := funext eb
  rfl

/-- The whole-array function the first output ends at: the layer's row at each node. -/
def G6 (a0 : S10000x10000.Idx → EReal) (a1 : S10000x256.Idx → EReal) (a2 a3 a4 : S1x256.Idx → EReal) :
    S10000x256.Idx → EReal :=
  fun i => Gcn.layer (fun r k => a0 (ix2 r k)) (fun k q => a1 (ix2 k q)) (fun q => a2 (ix2 (0 : Fin 1) q))
    (fun q => a3 (ix2 (0 : Fin 1) q)) (fun q => a4 (ix2 (0 : Fin 1) q)) ⟨(i 0).val, idx2_lt0 i⟩ ⟨(i 1).val, idx2_lt1 i⟩

/-- The whole-array function the second output ends at: the layer's row times the next weight matrix. -/
def G7 (a0 : S10000x10000.Idx → EReal) (a1 : S10000x256.Idx → EReal) (a2 a3 a4 : S1x256.Idx → EReal)
    (a5 : S256x256.Idx → EReal) : S10000x256.Idx → EReal :=
  fun i => Gcn.rowMat (Gcn.layer (fun r k => a0 (ix2 r k)) (fun k q => a1 (ix2 k q)) (fun q => a2 (ix2 (0 : Fin 1) q))
    (fun q => a3 (ix2 (0 : Fin 1) q)) (fun q => a4 (ix2 (0 : Fin 1) q)) ⟨(i 0).val, idx2_lt0 i⟩)
    (fun k q => a5 (ix2 k q)) ⟨(i 1).val, idx2_lt1 i⟩

/-- The layer's row computed from point t's blocks at block row p is the layer's row at node 1000 t + p computed from
    the arrays. -/
theorem layer_blocks (c : Dev nD) (t : Fin cfg2.N) (p : Fin 1000)
    (b0 : FVec Ideal S1000x10000 .bf16) (b1 : FVec Ideal S10000x256 .bf16) (b2 b3 b4 : FVec Ideal S1x256 .f32)
    (h0 : b0 = iblk2 V c 0 t) (h1 : b1 = iblk2 V c 1 t) (h2 : b2 = iblk2 V c 2 t) (h3 : b3 = iblk2 V c 3 t)
    (h4 : b4 = iblk2 V c 4 t) :
    Gcn.lnRelu (fun j => (∑ k : Fin 10000, b0 (ix2 p k) * b1 (ix2 k j)) + b2 (ix2 (0 : Fin 1) j))
        (fun j => b3 (ix2 (0 : Fin 1) j)) (fun j => b4 (ix2 (0 : Fin 1) j))
      = Gcn.layer (fun r k => V c (Pipeline.arrRef spec2 0) (ix2 r k)) (fun k q => V c (Pipeline.arrRef spec2 1) (ix2 k q))
          (fun q => V c (Pipeline.arrRef spec2 2) (ix2 (0 : Fin 1) q)) (fun q => V c (Pipeline.arrRef spec2 3) (ix2 (0 : Fin 1) q))
          (fun q => V c (Pipeline.arrRef spec2 4) (ix2 (0 : Fin 1) q)) (rowOf t p) := by
  subst h0 h1 h2 h3 h4
  unfold Gcn.layer
  refine lnRelu_congr (fun j => ?_) (fun j => blk3_apply V c t 0 j) (fun j => blk4_apply V c t 0 j)
  refine congrArg₂ (· + ·) (Finset.sum_congr rfl fun k _ => congrArg₂ (· * ·) ?_ ?_) ?_
  · exact blk0_apply V c t p k
  · exact blk1_apply V c t k j
  · exact blk2_apply V c t 0 j

/-- What point t writes back to the first output is block t of that function of the arrays as the region finds them. -/
theorem flushed6_eq (c : Dev nD) (t : Fin cfg2.N) :
    (dat2 V c).flushed 6 t = ((cfg2.win 6).blk t).view.read (Elt Ideal)
      (G6 (V c (Pipeline.arrRef spec2 0)) (V c (Pipeline.arrRef spec2 1)) (V c (Pipeline.arrRef spec2 2))
        (V c (Pipeline.arrRef spec2 3)) (V c (Pipeline.arrRef spec2 4))) := by
  show (cfg2.win 6).cut (grid2.coords t) ((dat2 V c).after 6 t) = _
  rw [after2_6]
  unfold out2_6
  rw [View.canon_unit_zero hz]
  simp only [View.ld_unit_zero (S := S1000x10000) hz, View.ld_unit_zero (S := S10000x256) hz,
    View.ld_unit_zero (S := S1x256) hz]
  funext j
  have hj0 : (j 0).val < 1000 := (j 0).isLt
  have hj1 : (j 1).val < 256 := (j 1).isLt
  -- the block index in literal coordinates
  have ej : j = ix2 (⟨(j 0).val, hj0⟩ : Fin 1000) (⟨(j 1).val, hj1⟩ : Fin 256) := by
    funext a; match a with
    | ⟨0, _⟩ => rfl
    | ⟨1, _⟩ => rfl
  show k2_pay3 (F := Ideal) (iblk2 V c 0 t) (iblk2 V c 1 t) (iblk2 V c 2 t) (iblk2 V c 3 t) (iblk2 V c 4 t) j
    = G6 (V c (Pipeline.arrRef spec2 0)) (V c (Pipeline.arrRef spec2 1)) (V c (Pipeline.arrRef spec2 2))
        (V c (Pipeline.arrRef spec2 3)) (V c (Pipeline.arrRef spec2 4)) (((cfg2.win 6).blk t).view.emb j)
  rw [ej, emb6 t]
  refine (pay3_apply (iblk2 V c 0 t) (iblk2 V c 1 t) (iblk2 V c 2 t) (iblk2 V c 3 t) (iblk2 V c 4 t) _ _).trans ?_
  exact congrFun (layer_blocks V c t _ _ _ _ _ _ rfl rfl rfl rfl rfl) _

/-- What point t writes back to the second output is block t of its function of the arrays. -/
theorem flushed7_eq (c : Dev nD) (t : Fin cfg2.N) :
    (dat2 V c).flushed 7 t = ((cfg2.win 7).blk t).view.read (Elt Ideal)
      (G7 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 7).cut (grid2.coords t) ((dat2 V c).after 7 t) = _
  rw [after2_7]
  unfold out2_7
  rw [View.canon_unit_zero hz]
  simp only [View.ld_unit_zero (S := S1000x10000) hz, View.ld_unit_zero (S := S10000x256) hz,
    View.ld_unit_zero (S := S1x256) hz, View.ld_unit_zero (S := S256x256) hz]
  funext j
  have hj0 : (j 0).val < 1000 := (j 0).isLt
  have hj1 : (j 1).val < 256 := (j 1).isLt
  have ej : j = ix2 (⟨(j 0).val, hj0⟩ : Fin 1000) (⟨(j 1).val, hj1⟩ : Fin 256) := by
    funext a; match a with
    | ⟨0, _⟩ => rfl
    | ⟨1, _⟩ => rfl
  show k2_pay1 (F := Ideal) (k2_pay4 (F := Ideal) (iblk2 V c 0 t) (iblk2 V c 1 t) (iblk2 V c 2 t) (iblk2 V c 3 t) (iblk2 V c 4 t))
      (iblk2 V c 5 t) j
    = G7 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (((cfg2.win 7).blk t).view.emb j)
  rw [ej, emb7 t]
  refine (pay7_apply (iblk2 V c 0 t) (iblk2 V c 1 t) (iblk2 V c 2 t) (iblk2 V c 3 t) (iblk2 V c 4 t) (iblk2 V c 5 t) _ _).trans ?_
  show Gcn.rowMat _ _ _ = Gcn.rowMat _ _ _
  unfold Gcn.rowMat
  refine Finset.sum_congr rfl fun k _ => congrArg₂ (· * ·) ?_ ?_
  · exact congrFun (layer_blocks V c t _ _ _ _ _ _ rfl rfl rfl rfl rfl) k
  · exact blk5_apply V c t k _

/-! ## The ten blocks tile the rows -/

/-- An index of the first output is in point t's block iff each coordinate is in the block's range on its axis. -/
theorem mem_blk6 (t : Fin cfg2.N) (i : S10000x256.Idx) :
    i ∈ ((cfg2.win 6).blk t).view.set ↔ ∀ a : Fin 2, win2_6.index t a * S1000x256.size a ≤ (i a).val
      ∧ (i a).val < win2_6.index t a * S1000x256.size a + S1000x256.size a := by
  show i ∈ ((View.whole main_v11_0).slice (win2_6.rect t)).set ↔ _
  rw [View.set_slice_whole, Rect.mem_set_unit]
  exact Iff.rfl

/-- The same for the second output. -/
theorem mem_blk7 (t : Fin cfg2.N) (i : S10000x256.Idx) :
    i ∈ ((cfg2.win 7).blk t).view.set ↔ ∀ a : Fin 2, win2_7.index t a * S1000x256.size a ≤ (i a).val
      ∧ (i a).val < win2_7.index t a * S1000x256.size a + S1000x256.size a := by
  show i ∈ ((View.whole main_v11_1).slice (win2_7.rect t)).set ↔ _
  rw [View.set_slice_whole, Rect.mem_set_unit]
  exact Iff.rfl

/-- Every row of the first output lies in the block of the point row / 1000. -/
theorem cover6 (i : S10000x256.Idx) :
    ∃ t : Fin cfg2.N, (cfg2.win 6).flush t = true ∧ i ∈ ((cfg2.win 6).blk t).view.set := by
  have hi0 : (i 0).val < 10000 := (i 0).isLt
  have hi1 : (i 1).val < 256 := (i 1).isLt
  have ht : (i 0).val / 1000 < 10 := by omega
  obtain ⟨_, _, _, _, _, _, _, _, _, _, _, _, e60, e61, _⟩ := idx_facts ⟨(i 0).val / 1000, ht⟩
  have e60' : win2_6.index ⟨(i 0).val / 1000, ht⟩ (0 : Fin 2) = (i 0).val / 1000 := e60
  refine ⟨⟨(i 0).val / 1000, ht⟩, flush2_6 _, ?_⟩
  rw [mem_blk6]
  intro a
  match a with
  | ⟨0, _⟩ =>
    show win2_6.index ⟨(i 0).val / 1000, ht⟩ (0 : Fin 2) * 1000 ≤ (i 0).val
      ∧ (i 0).val < win2_6.index ⟨(i 0).val / 1000, ht⟩ (0 : Fin 2) * 1000 + 1000
    omega
  | ⟨1, _⟩ =>
    show win2_6.index ⟨(i 0).val / 1000, ht⟩ (1 : Fin 2) * 256 ≤ (i 1).val
      ∧ (i 1).val < win2_6.index ⟨(i 0).val / 1000, ht⟩ (1 : Fin 2) * 256 + 256
    omega

/-- The same for the second output. -/
theorem cover7 (i : S10000x256.Idx) :
    ∃ t : Fin cfg2.N, (cfg2.win 7).flush t = true ∧ i ∈ ((cfg2.win 7).blk t).view.set := by
  have hi0 : (i 0).val < 10000 := (i 0).isLt
  have hi1 : (i 1).val < 256 := (i 1).isLt
  have ht : (i 0).val / 1000 < 10 := by omega
  obtain ⟨_, _, _, _, _, _, _, _, _, _, _, _, _, _, e70, e71⟩ := idx_facts ⟨(i 0).val / 1000, ht⟩
  have e70' : win2_7.index ⟨(i 0).val / 1000, ht⟩ (0 : Fin 2) = (i 0).val / 1000 := e70
  refine ⟨⟨(i 0).val / 1000, ht⟩, flush2_7 _, ?_⟩
  rw [mem_blk7]
  intro a
  match a with
  | ⟨0, _⟩ =>
    show win2_7.index ⟨(i 0).val / 1000, ht⟩ (0 : Fin 2) * 1000 ≤ (i 0).val
      ∧ (i 0).val < win2_7.index ⟨(i 0).val / 1000, ht⟩ (0 : Fin 2) * 1000 + 1000
    omega
  | ⟨1, _⟩ =>
    show win2_7.index ⟨(i 0).val / 1000, ht⟩ (1 : Fin 2) * 256 ≤ (i 1).val
      ∧ (i 1).val < win2_7.index ⟨(i 0).val / 1000, ht⟩ (1 : Fin 2) * 256 + 256
    omega

/-! ## The two outputs after the region -/

/-- The first output after the region, as one function of the arrays the region finds. -/
theorem final6 (c : Dev nD) :
    (dat2 V c).arrAt 6 cfg2.N = G6 (V c (Pipeline.arrRef spec2 0)) (V c (Pipeline.arrRef spec2 1))
      (V c (Pipeline.arrRef spec2 2)) (V c (Pipeline.arrRef spec2 3)) (V c (Pipeline.arrRef spec2 4)) :=
  (dat2 V c).arrAt_eq_of_cover 6 _ (fun t _ => flushed6_eq V c t) cover6

/-- The second output after the region likewise. -/
theorem final7 (c : Dev nD) :
    (dat2 V c).arrAt 7 cfg2.N = G7 (V c (Pipeline.arrRef spec2 0)) (V c (Pipeline.arrRef spec2 1))
      (V c (Pipeline.arrRef spec2 2)) (V c (Pipeline.arrRef spec2 3)) (V c (Pipeline.arrRef spec2 4))
      (V c (Pipeline.arrRef spec2 5)) :=
  (dat2 V c).arrAt_eq_of_cover 7 _ (fun t _ => flushed7_eq V c t) cover7

/-- Layer two's output, entry by entry. -/
theorem final6_apply (c : Dev nD) (r : Fin 10000) (j : Fin 256) :
    (dat2 V c).arrAt 6 cfg2.N (ix2 r j)
      = Gcn.layer (fun r k => V c (Pipeline.arrRef spec2 0) (ix2 r k)) (fun k q => V c (Pipeline.arrRef spec2 1) (ix2 k q))
          (fun q => V c (Pipeline.arrRef spec2 2) (ix2 (0 : Fin 1) q)) (fun q => V c (Pipeline.arrRef spec2 3) (ix2 (0 : Fin 1) q))
          (fun q => V c (Pipeline.arrRef spec2 4) (ix2 (0 : Fin 1) q)) r j := by
  rw [final6]
  rfl

/-- The support of layer three: layer two's row times the next weight matrix. -/
theorem final7_apply (c : Dev nD) (r : Fin 10000) (j : Fin 256) :
    (dat2 V c).arrAt 7 cfg2.N (ix2 r j)
      = Gcn.rowMat (Gcn.layer (fun r k => V c (Pipeline.arrRef spec2 0) (ix2 r k)) (fun k q => V c (Pipeline.arrRef spec2 1) (ix2 k q))
          (fun q => V c (Pipeline.arrRef spec2 2) (ix2 (0 : Fin 1) q)) (fun q => V c (Pipeline.arrRef spec2 3) (ix2 (0 : Fin 1) q))
          (fun q => V c (Pipeline.arrRef spec2 4) (ix2 (0 : Fin 1) q)) r)
          (fun k q => V c (Pipeline.arrRef spec2 5) (ix2 k q)) j := by
  rw [final7]
  rfl

end Cert.KernelIdeal.Reg2

end
-- ==== Proof.Reg3.lean ====
/-
  The fourth region: layer three and the head.  Each of its 25 points takes 400 rows of the adjacency matrix, the same
  400 rows of the first two layers' outputs and, whole, the support of layer three, the layer's bias, scale and shift
  rows, the three 256-row bands of the head's matrix, the head's bias row, its weight row and its last bias.  It forms the
  400 rows of layer three's output, multiplies the three layers' rows by the three bands, adds the products and the bias,
  clips at zero, contracts with the weight row and adds the last bias: one number per node.  The 25 blocks of 400 rows
  tile the 10000 rows.
-/
import proofs.«122235_g19155554140324_cont_8to1_1621_8_alg».proof.Proof.Gen.KernelIdeal.Frame
import proofs.«122235_g19155554140324_cont_8to1_1621_8_alg».proof.Proof.Net
import proofs.«122235_g19155554140324_cont_8to1_1621_8_alg».proof.Proof.LibRowDims
import proofs.«122235_g19155554140324_cont_8to1_1621_8_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The head's three contractions are plain ones: rows by columns. -/
theorem dot_plain : dot_S400x256_S256x256_S400x256_1_0_0_1_n_n = DotDims.plain 400 256 256 := rfl

/-- So is the aggregation over the 10000 neighbours. -/
theorem dot_plain_big : dot_S400x10000_S10000x256_S400x256_1_0_0_1_n_n = DotDims.plain 400 10000 256 := rfl

/-- A lane sum of a block of 400 rows of 256, read at row `p`: the sum of the row. -/
theorem rowSum_apply (x : FVec Ideal S400x256 .f32) (p : Fin 400) :
    multiReduction .add [1] S400 x 0x00000000#32 reduces_S400x256_S400 (.inl rfl) rfl (ix1 p)
      = ∑ k : Fin 256, x (ix2 p k) := by
  refine (Ideal.multiReduction_add_single x 0x00000000#32 reduces_S400x256_S400 _ _ (ix1 p)).trans ?_
  refine Finset.sum_congr rfl fun k _ => congrArg x ?_
  funext a
  match a with
  | ⟨0, _⟩ => rfl
  | ⟨1, _⟩ => rfl

/-- The same sum kept as a column of 400 entries. -/
theorem rowSumCol_apply (x : FVec Ideal S400x256 .f32) (p : Fin 400) :
    shapeCast S400x1 (multiReduction .add [1] S400 x 0x00000000#32 reduces_S400x256_S400 (.inl rfl) rfl)
        shapeCasts_S400_S400x1 (ix2 p (0 : Fin 1))
      = ∑ k : Fin 256, x (ix2 p k) :=
  (ColumnLayout.shapeCast_a_a1_apply _ shapeCasts_S400_S400x1 p (0 : Fin 1)).trans (rowSum_apply x p)

/-- The mean of each row of a block, kept as a column. -/
def meanCol (x : FVec Ideal S400x256 .f32) : FVec Ideal S400x1 .f32 :=
  divf (shapeCast S400x1 (multiReduction .add [1] S400 x 0x00000000#32 reduces_S400x256_S400 (.inl rfl) rfl)
      shapeCasts_S400_S400x1) (broadcast S400x1 (Scalar.ofBits (F := Ideal) .f32 0x43800000#32))

theorem meanCol_apply (x : FVec Ideal S400x256 .f32) (p : Fin 400) :
    meanCol x (ix2 p (0 : Fin 1)) = Ideal.div (∑ k : Fin 256, x (ix2 p k)) Gcn.w256 := by
  unfold meanCol
  refine (divf_apply _ _ _).trans ?_
  rw [rowSumCol_apply]
  rfl

/-- Each row centred on its mean. -/
def devBlock (x : FVec Ideal S400x256 .f32) : FVec Ideal S400x256 .f32 :=
  subf x (broadcastTo S400x256 (meanCol x) broadcasts_S400x1_S400x256)

theorem devBlock_apply (x : FVec Ideal S400x256 .f32) (p : Fin 400) (q : Fin 256) :
    devBlock x (ix2 p q) = Gcn.dev (fun k => x (ix2 p k)) q := by
  unfold devBlock Gcn.dev Gcn.mean
  refine (subf_apply _ _ _).trans ?_
  refine congrArg₂ (· - ·) rfl ?_
  exact (ColumnLayout.broadcastTo_a1_ab_apply _ broadcasts_S400x1_S400x256 p q).trans (meanCol_apply x p)

/-- The reciprocal root of each row's variance plus the small word, kept as a column. -/
def rstdCol (x : FVec Ideal S400x256 .f32) : FVec Ideal S400x1 .f32 :=
  rsqrt (addf (meanCol (mulf (devBlock x) (devBlock x))) (broadcast S400x1 (Scalar.ofBits (F := Ideal) .f32 0x3727C5AC#32)))

theorem rstdCol_apply (x : FVec Ideal S400x256 .f32) (p : Fin 400) :
    rstdCol x (ix2 p (0 : Fin 1)) = Ideal.rsqrt (Gcn.var (fun k => x (ix2 p k)) + Gcn.wEps) := by
  unfold rstdCol Gcn.var
  show Ideal.rsqrt (meanCol (mulf (devBlock x) (devBlock x)) (ix2 p (0 : Fin 1)) + Gcn.wEps) = _
  rw [meanCol_apply]
  refine congrArg (fun z => Ideal.rsqrt (Ideal.div z Gcn.w256 + Gcn.wEps)) ?_
  refine Finset.sum_congr rfl fun k _ => ?_
  refine (mulf_apply _ _ _).trans ?_
  rw [devBlock_apply]

/-- Normalise, scale, shift and clip a block of rows. -/
def lnBlock (x : FVec Ideal S400x256 .f32) (g b : FVec Ideal S1x256 .f32) : FVec Ideal S400x256 .f32 :=
  maximumf
    (addf
      (mulf (mulf (devBlock x) (broadcastTo S400x256 (rstdCol x) broadcasts_S400x1_S400x256))
        (broadcastTo S400x256 (shapeCast S1x256 g shapeCasts_S1x256_S1x256) broadcasts_S1x256_S400x256))
      (broadcastTo S400x256 (shapeCast S1x256 b shapeCasts_S1x256_S1x256) broadcasts_S1x256_S400x256))
    (broadcast S400x256 (Scalar.ofBits (F := Ideal) .f32 0x00000000#32))

theorem lnBlock_apply (x : FVec Ideal S400x256 .f32) (g b : FVec Ideal S1x256 .f32) (p : Fin 400) (q : Fin 256) :
    lnBlock x g b (ix2 p q)
      = Gcn.lnRelu (fun k => x (ix2 p k)) (fun j => g (ix2 (0 : Fin 1) j)) (fun j => b (ix2 (0 : Fin 1) j)) q := by
  unfold lnBlock Gcn.lnRelu
  rw [shapeCast_self, shapeCast_self]
  refine (maximumf_apply _ _ _).trans ?_
  refine congrArg₂ max ?_ rfl
  refine (addf_apply _ _ _).trans ?_
  refine congrArg₂ (· + ·) ?_ (broadcastTo_1b_ab_apply b broadcasts_S1x256_S400x256 p q)
  refine (mulf_apply _ _ _).trans ?_
  refine congrArg₂ (· * ·) ?_ (broadcastTo_1b_ab_apply g broadcasts_S1x256_S400x256 p q)
  refine (mulf_apply _ _ _).trans ?_
  refine congrArg₂ (· * ·) (devBlock_apply x p q) ?_
  exact (ColumnLayout.broadcastTo_a1_ab_apply _ broadcasts_S400x1_S400x256 p q).trans (rstdCol_apply x p)

/-- The aggregate of the support over the neighbours plus the bias row. -/
def pre (v0 : FVec Ideal S400x10000 .bf16) (v2 : FVec Ideal S10000x256 .bf16) (v5 : FVec Ideal S1x256 .f32) :
    FVec Ideal S400x256 .f32 :=
  addf (matmul dot_S400x10000_S10000x256_S400x256_1_0_0_1_n_n none
      (shapeCast S400x10000 v0 shapeCasts_S400x10000_S400x10000) (shapeCast S10000x256 v2 shapeCasts_S10000x256_S10000x256)
      (constant S400x256 .f32 0x00000000#32))
    (broadcastTo S400x256 (shapeCast S1x256 v5 shapeCasts_S1x256_S1x256) broadcasts_S1x256_S400x256)

theorem pre_apply (v0 : FVec Ideal S400x10000 .bf16) (v2 : FVec Ideal S10000x256 .bf16) (v5 : FVec Ideal S1x256 .f32)
    (p : Fin 400) (q : Fin 256) :
    pre v0 v2 v5 (ix2 p q) = (∑ k : Fin 10000, v0 (ix2 p k) * v2 (ix2 k q)) + v5 (ix2 (0 : Fin 1) q) := by
  unfold pre
  rw [shapeCast_self, shapeCast_self, shapeCast_self, dot_plain_big]
  refine (addf_apply _ _ _).trans ?_
  refine congrArg₂ (· + ·) ?_ ?_
  · exact RowDims.matmul_plain_zero_apply none v0 v2 p q
  · exact broadcastTo_1b_ab_apply v5 broadcasts_S1x256_S400x256 p q

/-- The body's layer-three rows are the normalised aggregate. -/
theorem pay2_eq (v0 : FVec Ideal S400x10000 .bf16) (v2 : FVec Ideal S10000x256 .bf16) (v5 v9 v11 : FVec Ideal S1x256 .f32) :
    k3_pay2 (F := Ideal) v0 v2 v5 v9 v11 = lnBlock (pre v0 v2 v5) v9 v11 := rfl

/-- Layer three's row at an entry of the block. -/
theorem pay2_apply (v0 : FVec Ideal S400x10000 .bf16) (v2 : FVec Ideal S10000x256 .bf16) (v5 v9 v11 : FVec Ideal S1x256 .f32)
    (p : Fin 400) (q : Fin 256) :
    k3_pay2 (F := Ideal) v0 v2 v5 v9 v11 (ix2 p q)
      = Gcn.lnRelu (fun j => (∑ k : Fin 10000, v0 (ix2 p k) * v2 (ix2 k j)) + v5 (ix2 (0 : Fin 1) j))
          (fun j => v9 (ix2 (0 : Fin 1) j)) (fun j => v11 (ix2 (0 : Fin 1) j)) q := by
  rw [pay2_eq]
  refine (lnBlock_apply _ v9 v11 p q).trans ?_
  refine congrArg (fun h => Gcn.lnRelu h (fun j => v9 (ix2 (0 : Fin 1) j)) (fun j => v11 (ix2 (0 : Fin 1) j)) q) ?_
  funext j
  exact pre_apply v0 v2 v5 p j

/-- The three layers' rows against the three bands, added up, plus the head's bias row. -/
def headPre (v34 : FVec Ideal S400x256 .f32) (v36 : FVec Ideal S400x256 .bf16) (v37 : FVec Ideal S256x256 .bf16)
    (v40 : FVec Ideal S400x256 .bf16) (v42 v47 : FVec Ideal S256x256 .bf16) (v51 : FVec Ideal S1x256 .f32) :
    FVec Ideal S400x256 .f32 :=
  addf
    (addf
      (addf
        (matmul dot_S400x256_S256x256_S400x256_1_0_0_1_n_n none v36 (shapeCast S256x256 v37 shapeCasts_S256x256_S256x256)
          (constant S400x256 .f32 0x00000000#32))
        (matmul dot_S400x256_S256x256_S400x256_1_0_0_1_n_n none (shapeCast S400x256 v40 shapeCasts_S400x256_S400x256)
          (shapeCast S256x256 v42 shapeCasts_S256x256_S256x256) (constant S400x256 .f32 0x00000000#32)))
      (matmul dot_S400x256_S256x256_S400x256_1_0_0_1_n_n none (truncf .bf16 v34 bitsLt_bf16_f32)
        (shapeCast S256x256 v47 shapeCasts_S256x256_S256x256) (constant S400x256 .f32 0x00000000#32)))
    (broadcastTo S400x256 (shapeCast S1x256 v51 shapeCasts_S1x256_S1x256) broadcasts_S1x256_S400x256)

theorem headPre_apply (v34 : FVec Ideal S400x256 .f32) (v36 : FVec Ideal S400x256 .bf16) (v37 : FVec Ideal S256x256 .bf16)
    (v40 : FVec Ideal S400x256 .bf16) (v42 v47 : FVec Ideal S256x256 .bf16) (v51 : FVec Ideal S1x256 .f32)
    (p : Fin 400) (q : Fin 256) :
    headPre v34 v36 v37 v40 v42 v47 v51 (ix2 p q)
      = Gcn.rowMat (fun k => v36 (ix2 p k)) (fun k j => v37 (ix2 k j)) q
        + Gcn.rowMat (fun k => v40 (ix2 p k)) (fun k j => v42 (ix2 k j)) q
        + Gcn.rowMat (fun k => v34 (ix2 p k)) (fun k j => v47 (ix2 k j)) q
        + v51 (ix2 (0 : Fin 1) q) := by
  unfold headPre Gcn.rowMat
  rw [shapeCast_self, shapeCast_self, shapeCast_self, shapeCast_self, shapeCast_self, dot_plain]
  refine (addf_apply _ _ _).trans ?_
  refine congrArg₂ (· + ·) ?_ (broadcastTo_1b_ab_apply v51 broadcasts_S1x256_S400x256 p q)
  refine (addf_apply _ _ _).trans ?_
  refine congrArg₂ (· + ·) ?_ ?_
  · refine (addf_apply _ _ _).trans ?_
    refine congrArg₂ (· + ·) ?_ ?_
    · exact RowDims.matmul_plain_zero_apply none v36 v37 p q
    · exact RowDims.matmul_plain_zero_apply none v40 v42 p q
  · exact RowDims.matmul_plain_zero_apply none (truncf .bf16 v34 bitsLt_bf16_f32) v47 p q

/-- The body's stored column is the clipped sum contracted with the weight row, plus the last bias. -/
theorem pay1_eq (v34 : FVec Ideal S400x256 .f32) (v36 : FVec Ideal S400x256 .bf16) (v37 : FVec Ideal S256x256 .bf16)
    (v40 : FVec Ideal S400x256 .bf16) (v42 v47 : FVec Ideal S256x256 .bf16) (v51 v57 : FVec Ideal S1x256 .f32)
    (v63 : FVec Ideal S1x1 .f32) :
    k3_pay1 (F := Ideal) v34 v36 v37 v40 v42 v47 v51 v57 v63
      = addf
          (shapeCast S400x1
            (multiReduction .add [1] S400
              (mulf (maximumf (headPre v34 v36 v37 v40 v42 v47 v51) (broadcast S400x256 (Scalar.ofBits (F := Ideal) .f32 0x00000000#32)))
                (broadcastTo S400x256 (shapeCast S1x256 v57 shapeCasts_S1x256_S1x256) broadcasts_S1x256_S400x256))
              0x00000000#32 reduces_S400x256_S400 (.inl rfl) rfl)
            shapeCasts_S400_S400x1)
          (broadcastTo S400x1 (shapeCast S1x1 v63 shapeCasts_S1x1_S1x1) broadcasts_S1x1_S400x1) := rfl

/-- The head at a node of the block. -/
theorem pay1_apply (v34 : FVec Ideal S400x256 .f32) (v36 : FVec Ideal S400x256 .bf16) (v37 : FVec Ideal S256x256 .bf16)
    (v40 : FVec Ideal S400x256 .bf16) (v42 v47 : FVec Ideal S256x256 .bf16) (v51 v57 : FVec Ideal S1x256 .f32)
    (v63 : FVec Ideal S1x1 .f32) (p : Fin 400) :
    k3_pay1 (F := Ideal) v34 v36 v37 v40 v42 v47 v51 v57 v63 (ix2 p (0 : Fin 1))
      = Gcn.head (fun k => v36 (ix2 p k)) (fun k => v40 (ix2 p k)) (fun k => v34 (ix2 p k))
          (fun k q => v37 (ix2 k q)) (fun k q => v42 (ix2 k q)) (fun k q => v47 (ix2 k q))
          (fun q => v51 (ix2 (0 : Fin 1) q)) (fun q => v57 (ix2 (0 : Fin 1) q)) (v63 (ix2 (0 : Fin 1) (0 : Fin 1))) := by
  rw [pay1_eq]
  unfold Gcn.head
  rw [shapeCast_self, shapeCast_self]
  refine (addf_apply _ _ _).trans ?_
  refine congrArg₂ (· + ·) ?_ (broadcastTo_1b_ab_apply v63 broadcasts_S1x1_S400x1 p (0 : Fin 1))
  refine (rowSumCol_apply _ p).trans ?_
  refine Finset.sum_congr rfl fun j _ => ?_
  refine (mulf_apply _ _ _).trans ?_
  refine congrArg₂ (· * ·) ?_ (broadcastTo_1b_ab_apply v57 broadcasts_S1x256_S400x256 p j)
  refine (maximumf_apply _ _ _).trans ?_
  refine congrArg₂ max (headPre_apply v34 v36 v37 v40 v42 v47 v51 p j) rfl

/-- The change of format of a block already in that format is the identity. -/
theorem pay3_eq (v35 : FVec Ideal S400x256 .bf16) : k3_pay3 (F := Ideal) v35 = v35 := shapeCast_self _ _

/-! The index maps over the grid, window by window: a row-blocked window's block moves with the point along the rows,
    a whole window stays at the origin. -/

theorem idx0 : ∀ t : Fin cfg3.N, win3_0.index t (0 : Fin 2) = t.val ∧ win3_0.index t (1 : Fin 2) = 0 :=
  (by decide +kernel : ∀ t : Fin grid3.N, _)

theorem idx5 : ∀ t : Fin cfg3.N, win3_5.index t (0 : Fin 2) = t.val ∧ win3_5.index t (1 : Fin 2) = 0 :=
  (by decide +kernel : ∀ t : Fin grid3.N, _)

theorem idx6 : ∀ t : Fin cfg3.N, win3_6.index t (0 : Fin 2) = t.val ∧ win3_6.index t (1 : Fin 2) = 0 :=
  (by decide +kernel : ∀ t : Fin grid3.N, _)

theorem idx13 : ∀ t : Fin cfg3.N, win3_13.index t (0 : Fin 2) = t.val ∧ win3_13.index t (1 : Fin 2) = 0 :=
  (by decide +kernel : ∀ t : Fin grid3.N, _)

theorem idx1 : ∀ t : Fin cfg3.N, win3_1.index t (0 : Fin 2) = 0 ∧ win3_1.index t (1 : Fin 2) = 0 :=
  (by decide +kernel : ∀ t : Fin grid3.N, _)

theorem idx2 : ∀ t : Fin cfg3.N, win3_2.index t (0 : Fin 2) = 0 ∧ win3_2.index t (1 : Fin 2) = 0 :=
  (by decide +kernel : ∀ t : Fin grid3.N, _)

theorem idx3 : ∀ t : Fin cfg3.N, win3_3.index t (0 : Fin 2) = 0 ∧ win3_3.index t (1 : Fin 2) = 0 :=
  (by decide +kernel : ∀ t : Fin grid3.N, _)

theorem idx4 : ∀ t : Fin cfg3.N, win3_4.index t (0 : Fin 2) = 0 ∧ win3_4.index t (1 : Fin 2) = 0 :=
  (by decide +kernel : ∀ t : Fin grid3.N, _)

theorem idx7 : ∀ t : Fin cfg3.N, win3_7.index t (0 : Fin 2) = 0 ∧ win3_7.index t (1 : Fin 2) = 0 :=
  (by decide +kernel : ∀ t : Fin grid3.N, _)

theorem idx8 : ∀ t : Fin cfg3.N, win3_8.index t (0 : Fin 2) = 0 ∧ win3_8.index t (1 : Fin 2) = 0 :=
  (by decide +kernel : ∀ t : Fin grid3.N, _)

theorem idx9 : ∀ t : Fin cfg3.N, win3_9.index t (0 : Fin 2) = 0 ∧ win3_9.index t (1 : Fin 2) = 0 :=
  (by decide +kernel : ∀ t : Fin grid3.N, _)

theorem idx10 : ∀ t : Fin cfg3.N, win3_10.index t (0 : Fin 2) = 0 ∧ win3_10.index t (1 : Fin 2) = 0 :=
  (by decide +kernel : ∀ t : Fin grid3.N, _)

theorem idx11 : ∀ t : Fin cfg3.N, win3_11.index t (0 : Fin 2) = 0 ∧ win3_11.index t (1 : Fin 2) = 0 :=
  (by decide +kernel : ∀ t : Fin grid3.N, _)

theorem idx12 : ∀ t : Fin cfg3.N, win3_12.index t (0 : Fin 2) = 0 ∧ win3_12.index t (1 : Fin 2) = 0 :=
  (by decide +kernel : ∀ t : Fin grid3.N, _)

/-- The adjacency block: row `p` of point `t`'s block is row `400 t + p` of the array. -/
theorem blk0_apply (c : Dev nD) (t : Fin cfg3.N) (p : Fin 400) (k : Fin 10000) (R : Fin 10000)
    (hR : R.val = t.val * 400 + p.val) :
    iblk3 V c 0 t (ix2 p k) = V c (Pipeline.arrRef spec3 0) (ix2 R k) := by
  obtain ⟨e0, e1⟩ := idx0 t
  show V c (Pipeline.arrRef spec3 0) (((cfg3.win 0).blk t).view.emb (ix2 p k)) = _
  refine congrArg (V c (Pipeline.arrRef spec3 0)) ?_
  funext a; apply Fin.ext
  match a with
  | ⟨0, _⟩ =>
    show win3_0.index t (0 : Fin 2) * 400 + 1 * p.val = R.val
    omega
  | ⟨1, _⟩ =>
    show win3_0.index t (1 : Fin 2) * 10000 + 1 * k.val = k.val
    omega

/-- Layer one's block: row `p` of point `t`'s block is row `400 t + p` of the array. -/
theorem blk5_apply (c : Dev nD) (t : Fin cfg3.N) (p : Fin 400) (k : Fin 256) (R : Fin 10000)
    (hR : R.val = t.val * 400 + p.val) :
    iblk3 V c 5 t (ix2 p k) = V c (Pipeline.arrRef spec3 5) (ix2 R k) := by
  obtain ⟨e0, e1⟩ := idx5 t
  show V c (Pipeline.arrRef spec3 5) (((cfg3.win 5).blk t).view.emb (ix2 p k)) = _
  refine congrArg (V c (Pipeline.arrRef spec3 5)) ?_
  funext a; apply Fin.ext
  match a with
  | ⟨0, _⟩ =>
    show win3_5.index t (0 : Fin 2) * 400 + 1 * p.val = R.val
    omega
  | ⟨1, _⟩ =>
    show win3_5.index t (1 : Fin 2) * 256 + 1 * k.val = k.val
    omega

/-- Layer two's block: row `p` of point `t`'s block is row `400 t + p` of the array. -/
theorem blk6_apply (c : Dev nD) (t : Fin cfg3.N) (p : Fin 400) (k : Fin 256) (R : Fin 10000)
    (hR : R.val = t.val * 400 + p.val) :
    iblk3 V c 6 t (ix2 p k) = V c (Pipeline.arrRef spec3 6) (ix2 R k) := by
  obtain ⟨e0, e1⟩ := idx6 t
  show V c (Pipeline.arrRef spec3 6) (((cfg3.win 6).blk t).view.emb (ix2 p k)) = _
  refine congrArg (V c (Pipeline.arrRef spec3 6)) ?_
  funext a; apply Fin.ext
  match a with
  | ⟨0, _⟩ =>
    show win3_6.index t (0 : Fin 2) * 400 + 1 * p.val = R.val
    omega
  | ⟨1, _⟩ =>
    show win3_6.index t (1 : Fin 2) * 256 + 1 * k.val = k.val
    omega

/-- The support of layer three is staged whole. -/
theorem blk1_apply (c : Dev nD) (t : Fin cfg3.N) (k : Fin 10000) (q : Fin 256) :
    iblk3 V c 1 t (ix2 k q) = V c (Pipeline.arrRef spec3 1) (ix2 k q) := by
  obtain ⟨e0, e1⟩ := idx1 t
  show V c (Pipeline.arrRef spec3 1) (((cfg3.win 1).blk t).view.emb (ix2 k q)) = _
  refine congrArg (V c (Pipeline.arrRef spec3 1)) ?_
  funext a; apply Fin.ext
  match a with
  | ⟨0, _⟩ =>
    show win3_1.index t (0 : Fin 2) * 10000 + 1 * k.val = k.val
    omega
  | ⟨1, _⟩ =>
    show win3_1.index t (1 : Fin 2) * 256 + 1 * q.val = q.val
    omega

/-- The layer's bias row is staged whole. -/
theorem blk2_apply (c : Dev nD) (t : Fin cfg3.N) (k : Fin 1) (q : Fin 256) :
    iblk3 V c 2 t (ix2 k q) = V c (Pipeline.arrRef spec3 2) (ix2 k q) := by
  obtain ⟨e0, e1⟩ := idx2 t
  show V c (Pipeline.arrRef spec3 2) (((cfg3.win 2).blk t).view.emb (ix2 k q)) = _
  refine congrArg (V c (Pipeline.arrRef spec3 2)) ?_
  funext a; apply Fin.ext
  match a with
  | ⟨0, _⟩ =>
    show win3_2.index t (0 : Fin 2) * 1 + 1 * k.val = k.val
    omega
  | ⟨1, _⟩ =>
    show win3_2.index t (1 : Fin 2) * 256 + 1 * q.val = q.val
    omega

/-- The layer's scale row is staged whole. -/
theorem blk3_apply (c : Dev nD) (t : Fin cfg3.N) (k : Fin 1) (q : Fin 256) :
    iblk3 V c 3 t (ix2 k q) = V c (Pipeline.arrRef spec3 3) (ix2 k q) := by
  obtain ⟨e0, e1⟩ := idx3 t
  show V c (Pipeline.arrRef spec3 3) (((cfg3.win 3).blk t).view.emb (ix2 k q)) = _
  refine congrArg (V c (Pipeline.arrRef spec3 3)) ?_
  funext a; apply Fin.ext
  match a with
  | ⟨0, _⟩ =>
    show win3_3.index t (0 : Fin 2) * 1 + 1 * k.val = k.val
    omega
  | ⟨1, _⟩ =>
    show win3_3.index t (1 : Fin 2) * 256 + 1 * q.val = q.val
    omega

/-- The layer's shift row is staged whole. -/
theorem blk4_apply (c : Dev nD) (t : Fin cfg3.N) (k : Fin 1) (q : Fin 256) :
    iblk3 V c 4 t (ix2 k q) = V c (Pipeline.arrRef spec3 4) (ix2 k q) := by
  obtain ⟨e0, e1⟩ := idx4 t
  show V c (Pipeline.arrRef spec3 4) (((cfg3.win 4).blk t).view.emb (ix2 k q)) = _
  refine congrArg (V c (Pipeline.arrRef spec3 4)) ?_
  funext a; apply Fin.ext
  match a with
  | ⟨0, _⟩ =>
    show win3_4.index t (0 : Fin 2) * 1 + 1 * k.val = k.val
    omega
  | ⟨1, _⟩ =>
    show win3_4.index t (1 : Fin 2) * 256 + 1 * q.val = q.val
    omega

/-- The first band of the head's matrix is staged whole. -/
theorem blk7_apply (c : Dev nD) (t : Fin cfg3.N) (k : Fin 256) (q : Fin 256) :
    iblk3 V c 7 t (ix2 k q) = V c (Pipeline.arrRef spec3 7) (ix2 k q) := by
  obtain ⟨e0, e1⟩ := idx7 t
  show V c (Pipeline.arrRef spec3 7) (((cfg3.win 7).blk t).view.emb (ix2 k q)) = _
  refine congrArg (V c (Pipeline.arrRef spec3 7)) ?_
  funext a; apply Fin.ext
  match a with
  | ⟨0, _⟩ =>
    show win3_7.index t (0 : Fin 2) * 256 + 1 * k.val = k.val
    omega
  | ⟨1, _⟩ =>
    show win3_7.index t (1 : Fin 2) * 256 + 1 * q.val = q.val
    omega

/-- The second band of the head's matrix is staged whole. -/
theorem blk8_apply (c : Dev nD) (t : Fin cfg3.N) (k : Fin 256) (q : Fin 256) :
    iblk3 V c 8 t (ix2 k q) = V c (Pipeline.arrRef spec3 8) (ix2 k q) := by
  obtain ⟨e0, e1⟩ := idx8 t
  show V c (Pipeline.arrRef spec3 8) (((cfg3.win 8).blk t).view.emb (ix2 k q)) = _
  refine congrArg (V c (Pipeline.arrRef spec3 8)) ?_
  funext a; apply Fin.ext
  match a with
  | ⟨0, _⟩ =>
    show win3_8.index t (0 : Fin 2) * 256 + 1 * k.val = k.val
    omega
  | ⟨1, _⟩ =>
    show win3_8.index t (1 : Fin 2) * 256 + 1 * q.val = q.val
    omega

/-- The third band of the head's matrix is staged whole. -/
theorem blk9_apply (c : Dev nD) (t : Fin cfg3.N) (k : Fin 256) (q : Fin 256) :
    iblk3 V c 9 t (ix2 k q) = V c (Pipeline.arrRef spec3 9) (ix2 k q) := by
  obtain ⟨e0, e1⟩ := idx9 t
  show V c (Pipeline.arrRef spec3 9) (((cfg3.win 9).blk t).view.emb (ix2 k q)) = _
  refine congrArg (V c (Pipeline.arrRef spec3 9)) ?_
  funext a; apply Fin.ext
  match a with
  | ⟨0, _⟩ =>
    show win3_9.index t (0 : Fin 2) * 256 + 1 * k.val = k.val
    omega
  | ⟨1, _⟩ =>
    show win3_9.index t (1 : Fin 2) * 256 + 1 * q.val = q.val
    omega

/-- The head's bias row is staged whole. -/
theorem blk10_apply (c : Dev nD) (t : Fin cfg3.N) (k : Fin 1) (q : Fin 256) :
    iblk3 V c 10 t (ix2 k q) = V c (Pipeline.arrRef spec3 10) (ix2 k q) := by
  obtain ⟨e0, e1⟩ := idx10 t
  show V c (Pipeline.arrRef spec3 10) (((cfg3.win 10).blk t).view.emb (ix2 k q)) = _
  refine congrArg (V c (Pipeline.arrRef spec3 10)) ?_
  funext a; apply Fin.ext
  match a with
  | ⟨0, _⟩ =>
    show win3_10.index t (0 : Fin 2) * 1 + 1 * k.val = k.val
    omega
  | ⟨1, _⟩ =>
    show win3_10.index t (1 : Fin 2) * 256 + 1 * q.val = q.val
    omega

/-- The head's weight row is staged whole. -/
theorem blk11_apply (c : Dev nD) (t : Fin cfg3.N) (k : Fin 1) (q : Fin 256) :
    iblk3 V c 11 t (ix2 k q) = V c (Pipeline.arrRef spec3 11) (ix2 k q) := by
  obtain ⟨e0, e1⟩ := idx11 t
  show V c (Pipeline.arrRef spec3 11) (((cfg3.win 11).blk t).view.emb (ix2 k q)) = _
  refine congrArg (V c (Pipeline.arrRef spec3 11)) ?_
  funext a; apply Fin.ext
  match a with
  | ⟨0, _⟩ =>
    show win3_11.index t (0 : Fin 2) * 1 + 1 * k.val = k.val
    omega
  | ⟨1, _⟩ =>
    show win3_11.index t (1 : Fin 2) * 256 + 1 * q.val = q.val
    omega

/-- The last bias is staged whole. -/
theorem blk12_apply (c : Dev nD) (t : Fin cfg3.N) (k : Fin 1) (q : Fin 1) :
    iblk3 V c 12 t (ix2 k q) = V c (Pipeline.arrRef spec3 12) (ix2 k q) := by
  obtain ⟨e0, e1⟩ := idx12 t
  show V c (Pipeline.arrRef spec3 12) (((cfg3.win 12).blk t).view.emb (ix2 k q)) = _
  refine congrArg (V c (Pipeline.arrRef spec3 12)) ?_
  funext a; apply Fin.ext
  match a with
  | ⟨0, _⟩ =>
    show win3_12.index t (0 : Fin 2) * 1 + 1 * k.val = k.val
    omega
  | ⟨1, _⟩ =>
    show win3_12.index t (1 : Fin 2) * 1 + 1 * q.val = q.val
    omega

/-- The whole-array function the output column ends at: at node `r`, the head of layer one's row, layer two's row and
    layer three's row (the normalised aggregate of the support over `r`'s neighbours) against the three bands. -/
def G (a0 : S10000x10000.Idx → EReal) (a1 : S10000x256.Idx → EReal) (a2 a3 a4 : S1x256.Idx → EReal)
    (a5 a6 : S10000x256.Idx → EReal) (a7 a8 a9 : S256x256.Idx → EReal) (a10 a11 : S1x256.Idx → EReal)
    (a12 : S1x1.Idx → EReal) : S10000x1.Idx → EReal :=
  fun i => Gcn.head (fun k => a5 (ix2 ⟨(i 0).val, idx2_lt0 i⟩ k)) (fun k => a6 (ix2 ⟨(i 0).val, idx2_lt0 i⟩ k))
    (Gcn.layer (fun r k => a0 (ix2 r k)) (fun k q => a1 (ix2 k q)) (fun q => a2 (ix2 (0 : Fin 1) q))
      (fun q => a3 (ix2 (0 : Fin 1) q)) (fun q => a4 (ix2 (0 : Fin 1) q)) ⟨(i 0).val, idx2_lt0 i⟩)
    (fun k q => a7 (ix2 k q)) (fun k q => a8 (ix2 k q)) (fun k q => a9 (ix2 k q))
    (fun q => a10 (ix2 (0 : Fin 1) q)) (fun q => a11 (ix2 (0 : Fin 1) q)) (a12 (ix2 (0 : Fin 1) (0 : Fin 1)))

/-- Layer three's row `p` of point `t`'s block is the layer's row `400 t + p` of the arrays. -/
theorem layer_row (c : Dev nD) (t : Fin cfg3.N) (p : Fin 400) (R : Fin 10000) (hR : R.val = t.val * 400 + p.val) :
    (fun q : Fin 256 => k3_pay2 (F := Ideal) (iblk3 V c 0 t) (iblk3 V c 1 t) (iblk3 V c 2 t) (iblk3 V c 3 t)
        (iblk3 V c 4 t) (ix2 p q))
      = Gcn.layer (fun r k => V c (Pipeline.arrRef spec3 0) (ix2 r k)) (fun k q => V c (Pipeline.arrRef spec3 1) (ix2 k q))
          (fun q => V c (Pipeline.arrRef spec3 2) (ix2 (0 : Fin 1) q)) (fun q => V c (Pipeline.arrRef spec3 3) (ix2 (0 : Fin 1) q))
          (fun q => V c (Pipeline.arrRef spec3 4) (ix2 (0 : Fin 1) q)) R := by
  funext q
  refine (pay2_apply _ _ _ _ _ p q).trans ?_
  unfold Gcn.layer
  refine congrFun (congr (congr (congrArg Gcn.lnRelu ?_) ?_) ?_) q
  · funext i
    refine congrArg₂ (· + ·) (Finset.sum_congr rfl fun k _ => congrArg₂ (· * ·) ?_ ?_) ?_
    · exact blk0_apply V c t p k R hR
    · exact blk1_apply V c t k i
    · exact blk2_apply V c t 0 i
  · exact funext fun i => blk3_apply V c t 0 i
  · exact funext fun i => blk4_apply V c t 0 i

/-- The body's stored entry at row `p` of point `t`'s block is the head at node `400 t + p` of the arrays. -/
theorem entry_eq (c : Dev nD) (t : Fin cfg3.N) (p : Fin 400) (R : Fin 10000) (hR : R.val = t.val * 400 + p.val) :
    k3_pay1 (F := Ideal)
      (k3_pay2 (F := Ideal) (iblk3 V c 0 t) (iblk3 V c 1 t) (iblk3 V c 2 t) (iblk3 V c 3 t) (iblk3 V c 4 t))
      (k3_pay3 (F := Ideal) (iblk3 V c 5 t)) (iblk3 V c 7 t) (iblk3 V c 6 t) (iblk3 V c 8 t) (iblk3 V c 9 t)
      (iblk3 V c 10 t) (iblk3 V c 11 t) (iblk3 V c 12 t) (ix2 p (0 : Fin 1))
    = Gcn.head (fun k => V c (Pipeline.arrRef spec3 5) (ix2 R k)) (fun k => V c (Pipeline.arrRef spec3 6) (ix2 R k))
        (Gcn.layer (fun r k => V c (Pipeline.arrRef spec3 0) (ix2 r k)) (fun k q => V c (Pipeline.arrRef spec3 1) (ix2 k q))
          (fun q => V c (Pipeline.arrRef spec3 2) (ix2 (0 : Fin 1) q)) (fun q => V c (Pipeline.arrRef spec3 3) (ix2 (0 : Fin 1) q))
          (fun q => V c (Pipeline.arrRef spec3 4) (ix2 (0 : Fin 1) q)) R)
        (fun k q => V c (Pipeline.arrRef spec3 7) (ix2 k q)) (fun k q => V c (Pipeline.arrRef spec3 8) (ix2 k q))
        (fun k q => V c (Pipeline.arrRef spec3 9) (ix2 k q))
        (fun q => V c (Pipeline.arrRef spec3 10) (ix2 (0 : Fin 1) q)) (fun q => V c (Pipeline.arrRef spec3 11) (ix2 (0 : Fin 1) q))
        (V c (Pipeline.arrRef spec3 12) (ix2 (0 : Fin 1) (0 : Fin 1))) := by
  refine (pay1_apply _ _ _ _ _ _ _ _ _ p).trans ?_
  -- the change of format of layer one's block is the identity
  have h1 : (fun k : Fin 256 => k3_pay3 (F := Ideal) (iblk3 V c 5 t) (ix2 p k))
      = fun k => V c (Pipeline.arrRef spec3 5) (ix2 R k) :=
    funext fun k => (congrFun (pay3_eq _) _).trans (blk5_apply V c t p k R hR)
  have h2 : (fun k : Fin 256 => iblk3 V c 6 t (ix2 p k)) = fun k => V c (Pipeline.arrRef spec3 6) (ix2 R k) :=
    funext fun k => blk6_apply V c t p k R hR
  have h4 : (fun k q : Fin 256 => iblk3 V c 7 t (ix2 k q)) = fun k q => V c (Pipeline.arrRef spec3 7) (ix2 k q) :=
    funext fun k => funext fun q => blk7_apply V c t k q
  have h5 : (fun k q : Fin 256 => iblk3 V c 8 t (ix2 k q)) = fun k q => V c (Pipeline.arrRef spec3 8) (ix2 k q) :=
    funext fun k => funext fun q => blk8_apply V c t k q
  have h6 : (fun k q : Fin 256 => iblk3 V c 9 t (ix2 k q)) = fun k q => V c (Pipeline.arrRef spec3 9) (ix2 k q) :=
    funext fun k => funext fun q => blk9_apply V c t k q
  have h7 : (fun q : Fin 256 => iblk3 V c 10 t (ix2 (0 : Fin 1) q)) = fun q => V c (Pipeline.arrRef spec3 10) (ix2 (0 : Fin 1) q) :=
    funext fun q => blk10_apply V c t 0 q
  have h8 : (fun q : Fin 256 => iblk3 V c 11 t (ix2 (0 : Fin 1) q)) = fun q => V c (Pipeline.arrRef spec3 11) (ix2 (0 : Fin 1) q) :=
    funext fun q => blk11_apply V c t 0 q
  have h9 : iblk3 V c 12 t (ix2 (0 : Fin 1) (0 : Fin 1)) = V c (Pipeline.arrRef spec3 12) (ix2 (0 : Fin 1) (0 : Fin 1)) :=
    blk12_apply V c t 0 0
  exact congr (congr (congr (congr (congr (congr (congr (congr (congrArg Gcn.head h1) h2) (layer_row V c t p R hR)) h4) h5) h6) h7) h8) h9

/-- What point `t` writes back is block `t` of that function of the arrays as the region finds them. -/
theorem flushed_eq (c : Dev nD) (t : Fin cfg3.N) :
    (dat3 V c).flushed 13 t = ((cfg3.win 13).blk t).view.read (Elt Ideal)
      (G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12))) := by
  show (cfg3.win 13).cut (grid3.coords t) ((dat3 V c).after 13 t) = _
  rw [after3_13]
  unfold out3_13
  rw [View.canon_unit_zero hz]
  simp only [View.ld_unit_zero (S := S400x10000) hz, View.ld_unit_zero (S := S10000x256) hz,
    View.ld_unit_zero (S := S1x256) hz, View.ld_unit_zero (S := S400x256) hz, View.ld_unit_zero (S := S256x256) hz,
    View.ld_unit_zero (S := S1x1) hz]
  obtain ⟨e0, e1⟩ := idx13 t
  funext j
  have hj0 : (j 0).val < 400 := (j 0).isLt
  have hj1 : (j 1).val < 1 := (j 1).isLt
  have ht : t.val < 25 := t.isLt
  -- the block index in literal coordinates: a row below 400 and the one column
  have ej : (win3 13).xinj (grid3.coords t) j = ix2 (⟨(j 0).val, hj0⟩ : Fin 400) (0 : Fin 1) := by
    funext a; match a with
    | ⟨0, _⟩ => rfl
    | ⟨1, _⟩ => exact Fin.ext (by show (j 1).val = 0; omega)
  -- the output entry's row is row 400 t + p of the array
  have hR : ((((cfg3.win 13).blk t).view.emb j) 0).val = t.val * 400 + (j 0).val := by
    show win3_13.index t (0 : Fin 2) * 400 + 1 * (j 0).val = t.val * 400 + (j 0).val
    omega
  refine (congrArg (k3_pay1 (F := Ideal)
      (k3_pay2 (F := Ideal) (iblk3 V c 0 t) (iblk3 V c 1 t) (iblk3 V c 2 t) (iblk3 V c 3 t) (iblk3 V c 4 t))
      (k3_pay3 (F := Ideal) (iblk3 V c 5 t)) (iblk3 V c 7 t) (iblk3 V c 6 t) (iblk3 V c 8 t) (iblk3 V c 9 t)
      (iblk3 V c 10 t) (iblk3 V c 11 t) (iblk3 V c 12 t)) ej).trans ?_
  refine (entry_eq V c t ⟨(j 0).val, hj0⟩ ⟨((((cfg3.win 13).blk t).view.emb j) 0).val, idx2_lt0 _⟩ hR).trans ?_
  rfl
/-- An index of the array is in point `t`'s block iff each coordinate is in the block's range on its axis. -/
theorem mem_blk (t : Fin cfg3.N) (i : S10000x1.Idx) :
    i ∈ ((cfg3.win 13).blk t).view.set ↔ ∀ a : Fin 2, win3_13.index t a * S400x1.size a ≤ (i a).val
      ∧ (i a).val < win3_13.index t a * S400x1.size a + S400x1.size a := by
  show i ∈ ((View.whole main_v24).slice (win3_13.rect t)).set ↔ _
  rw [View.set_slice_whole, Rect.mem_set_unit]
  exact Iff.rfl

/-- Every row lies in the block of the point `row / 400`. -/
theorem cover (i : S10000x1.Idx) :
    ∃ t : Fin cfg3.N, (cfg3.win 13).flush t = true ∧ i ∈ ((cfg3.win 13).blk t).view.set := by
  have hi0 : (i 0).val < 10000 := (i 0).isLt
  have hi1 : (i 1).val < 1 := (i 1).isLt
  have ht : (i 0).val / 400 < 25 := by omega
  obtain ⟨e0, e1⟩ := idx13 ⟨(i 0).val / 400, ht⟩
  have e0' : win3_13.index ⟨(i 0).val / 400, ht⟩ (0 : Fin 2) = (i 0).val / 400 := e0
  refine ⟨⟨(i 0).val / 400, ht⟩, flush3_13 _, ?_⟩
  rw [mem_blk]
  intro a
  match a with
  | ⟨0, _⟩ =>
    show win3_13.index ⟨(i 0).val / 400, ht⟩ (0 : Fin 2) * 400 ≤ (i 0).val
      ∧ (i 0).val < win3_13.index ⟨(i 0).val / 400, ht⟩ (0 : Fin 2) * 400 + 400
    omega
  | ⟨1, _⟩ =>
    show win3_13.index ⟨(i 0).val / 400, ht⟩ (1 : Fin 2) * 1 ≤ (i 1).val
      ∧ (i 1).val < win3_13.index ⟨(i 0).val / 400, ht⟩ (1 : Fin 2) * 1 + 1
    omega

/-- The output array after the region, as one function of the arrays the region finds. -/
theorem final (c : Dev nD) :
    (dat3 V c).arrAt 13 cfg3.N = G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) :=
  (dat3 V c).arrAt_eq_of_cover 13 _ (fun t _ => flushed_eq V c t) cover

/-- The network's output column, entry by entry. -/
theorem final13_apply (c : Dev nD) (r : Fin 10000) :
    (dat3 V c).arrAt 13 cfg3.N (ix2 r (0 : Fin 1))
      = Gcn.head (fun k => V c (Pipeline.arrRef spec3 5) (ix2 r k)) (fun k => V c (Pipeline.arrRef spec3 6) (ix2 r k))
          (Gcn.layer (fun r k => V c (Pipeline.arrRef spec3 0) (ix2 r k)) (fun k q => V c (Pipeline.arrRef spec3 1) (ix2 k q))
          (fun q => V c (Pipeline.arrRef spec3 2) (ix2 (0 : Fin 1) q)) (fun q => V c (Pipeline.arrRef spec3 3) (ix2 (0 : Fin 1) q))
          (fun q => V c (Pipeline.arrRef spec3 4) (ix2 (0 : Fin 1) q)) r)
          (fun k q => V c (Pipeline.arrRef spec3 7) (ix2 k q)) (fun k q => V c (Pipeline.arrRef spec3 8) (ix2 k q))
          (fun k q => V c (Pipeline.arrRef spec3 9) (ix2 k q))
          (fun q => V c (Pipeline.arrRef spec3 10) (ix2 (0 : Fin 1) q)) (fun q => V c (Pipeline.arrRef spec3 11) (ix2 (0 : Fin 1) q))
          (V c (Pipeline.arrRef spec3 12) (ix2 (0 : Fin 1) (0 : Fin 1))) := by
  rw [final]
  rfl

end Cert.KernelIdeal.Reg3

end
-- ==== Proof.Compose.lean ====
/-
  The kernel's result as the network of its arguments.

  @main is four regions among five stretches of host operations.  A buffer's contents at a boundary are followed back
  to the launch memory: a stretch that does not write the buffer and a region that does not stage it leave it as it
  was; a region that stages it as an input leaves it as entered; a stretch that writes it applies its one operation (a
  change of float format, the identity on the extended reals; a reshape of a vector to a row; a band of rows cut out of
  a matrix); a region that writes it leaves its closed form of the region's entry contents.  Read in order: the support
  of layer one, layer one's rows and the support of layer two, layer two's rows and the support of layer three, and the
  head of the three layers' rows, one number per node.
-/
import proofs.«122235_g19155554140324_cont_8to1_1621_8_alg».proof.Proof.Gen.KernelIdeal.Frame
import proofs.«122235_g19155554140324_cont_8to1_1621_8_alg».proof.Proof.Net
import proofs.«122235_g19155554140324_cont_8to1_1621_8_alg».proof.Proof.Reg0
import proofs.«122235_g19155554140324_cont_8to1_1621_8_alg».proof.Proof.Reg1
import proofs.«122235_g19155554140324_cont_8to1_1621_8_alg».proof.Proof.Reg2
import proofs.«122235_g19155554140324_cont_8to1_1621_8_alg».proof.Proof.Reg3
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Compose

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-- The eighteen arguments at launch, as the network's record. -/
abbrev P (c : Dev nD) : Gcn.Params :=
  Gcn.Params.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- A stretch of host operations leaves a buffer none of them writes as it was. -/
local macro "skip_host" : tactic => `(tactic| exact StableHlo.after_of_forall_not_mem _ _ (List.forall_iff_forall_mem.mp (by
  simp only [hostOps0, hostOps1, hostOps2, hostOps3, hostOps4, List.flatten_cons, List.flatten_nil, List.append_nil,
    List.cons_append, List.nil_append, List.Forall, StableHlo.nullary_writes, StableHlo.unary_writes,
    StableHlo.binary_writes, StableHlo.reshape_writes, Finset.mem_singleton]
  repeat' apply And.intro
  all_goals exact StableHlo.devRef_ne_of_ne (by decide))))

/-! ## Region 0: the support of layer one -/

theorem W1_arg0 (c : Dev nD) : W1 m ρ c (Proc.devRef .tc main_arg0) = m ((c : Thread nD τ).loc main_arg0) :=
  (by skip_host : W1 m ρ c (Proc.devRef .tc main_arg0) = W0 m ρ c (Proc.devRef .tc main_arg0))

/-- The first weight matrix in the narrow format is the matrix. -/
theorem W1_v0 (c : Dev nD) : W1 m ρ c (Proc.devRef .tc main_v0) = m ((c : Thread nD τ).loc main_arg2) := by
  show StableHlo.after hostOps0 (W0 m ρ c) (Proc.devRef .tc main_v0) = _
  after_results
  rfl

/-- After region 0 the support of layer one is the features' row times the first weight matrix. -/
theorem W2_v1 (c : Dev nD) (r : Fin 10000) (j : Fin 256) :
    W2 m ρ c (Proc.devRef .tc main_v1) (ix2 r j) = Gcn.rowMat ((P m c).x r) (P m c).W1 j := by
  refine (congrFun (W2_arr m ρ c 2) (ix2 r j)).trans ?_
  refine (Reg0.final_apply (V1 m ρ) c r j).trans ?_
  show Gcn.rowMat (fun k => W1 m ρ c (Proc.devRef .tc main_arg0) (ix2 r k))
      (fun k q => W1 m ρ c (Proc.devRef .tc main_v0) (ix2 k q)) j = _
  rw [W1_arg0, W1_v0]
  rfl

/-! ## Buffers no stretch writes and no region stages, followed back to the launch -/

/-- No operation of a literal stretch writes the buffer. -/
local macro "not_written" : tactic => `(tactic| (
  refine List.forall_iff_forall_mem.mp ?_
  simp only [hostOps0, hostOps1, hostOps2, hostOps3, hostOps4, List.flatten_cons, List.flatten_nil, List.append_nil,
    List.cons_append, List.nil_append, List.Forall, StableHlo.nullary_writes, StableHlo.unary_writes,
    StableHlo.binary_writes, StableHlo.reshape_writes, Finset.mem_singleton]
  repeat' apply And.intro
  all_goals exact StableHlo.devRef_ne_of_ne (by decide)))

theorem W1_of (c : Dev nD) (b : Ref sig .tc)
    (h0 : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h0

theorem W2_of (c : Dev nD) (b : Ref sig .tc)
    (h0 : ∀ op ∈ (hostOps0 : List (HloOp τ sig (Elt Ideal))), Proc.devRef .tc b ∉ op.writes)
    (r0 : ∀ w, Pipeline.arrRef spec0 w ≠ b) :
    W2 m ρ c (Proc.devRef .tc b) = m ((c : Thread nD τ).loc b) :=
  (W2_of_ne m ρ c b r0).trans (W1_of m ρ c b h0)

theorem W3_of (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes) :
    W3 m ρ c (Proc.devRef .tc b) = m ((c : Thread nD τ).loc b) :=
  (StableHlo.after_of_forall_not_mem _ _ h1).trans (W2_of m ρ c b h0 r0)

theorem W4_of (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b) :
    W4 m ρ c (Proc.devRef .tc b) = m ((c : Thread nD τ).loc b) :=
  (W4_of_ne m ρ c b r1).trans (W3_of m ρ c b h0 r0 h1)

theorem W6_of (c : Dev nD) (b : Ref sig .tc)
    (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b) :
    W6 m ρ c (Proc.devRef .tc b) = m ((c : Thread nD τ).loc b) :=
  (W6_of_ne m ρ c b r2).trans ((StableHlo.after_of_forall_not_mem _ _ h2).trans (W4_of m ρ c b h0 r0 h1 r1))

/-! ## Region 1: layer one and the support of layer two -/

theorem W3_arg1 (c : Dev nD) : W3 m ρ c (Proc.devRef .tc main_arg1) = m ((c : Thread nD τ).loc main_arg1) :=
  W3_of m ρ c main_arg1 (by not_written) (by decide) (by not_written)

theorem W3_v1 (c : Dev nD) : W3 m ρ c (Proc.devRef .tc main_v1) = W2 m ρ c (Proc.devRef .tc main_v1) :=
  StableHlo.after_of_forall_not_mem _ _ (by not_written)

/-- A vector reshaped to a one-row matrix keeps its entries. -/
theorem W3_v2 (c : Dev nD) (q : Fin 256) :
    W3 m ρ c (Proc.devRef .tc main_v2) (ix2 (0 : Fin 1) q) = m ((c : Thread nD τ).loc main_arg3) (ix1 q) := by
  have e : W3 m ρ c (Proc.devRef .tc main_v2)
      = shapeCast S1x256 (W2 m ρ c (Proc.devRef .tc main_arg3)) shapeCasts_S256_S1x256 := by
    show StableHlo.after hostOps1 (W2 m ρ c) (Proc.devRef .tc main_v2) = _
    after_results
    rfl
  rw [e, W2_of m ρ c main_arg3 (by not_written) (by decide)]
  exact shapeCast_a_1a_apply _ _ 0 q

theorem W3_v3 (c : Dev nD) (q : Fin 256) :
    W3 m ρ c (Proc.devRef .tc main_v3) (ix2 (0 : Fin 1) q) = m ((c : Thread nD τ).loc main_arg4) (ix1 q) := by
  have e : W3 m ρ c (Proc.devRef .tc main_v3)
      = shapeCast S1x256 (W2 m ρ c (Proc.devRef .tc main_arg4)) shapeCasts_S256_S1x256 := by
    show StableHlo.after hostOps1 (W2 m ρ c) (Proc.devRef .tc main_v3) = _
    after_results
    rfl
  rw [e, W2_of m ρ c main_arg4 (by not_written) (by decide)]
  exact shapeCast_a_1a_apply _ _ 0 q

theorem W3_v4 (c : Dev nD) (q : Fin 256) :
    W3 m ρ c (Proc.devRef .tc main_v4) (ix2 (0 : Fin 1) q) = m ((c : Thread nD τ).loc main_arg5) (ix1 q) := by
  have e : W3 m ρ c (Proc.devRef .tc main_v4)
      = shapeCast S1x256 (W2 m ρ c (Proc.devRef .tc main_arg5)) shapeCasts_S256_S1x256 := by
    show StableHlo.after hostOps1 (W2 m ρ c) (Proc.devRef .tc main_v4) = _
    after_results
    rfl
  rw [e, W2_of m ρ c main_arg5 (by not_written) (by decide)]
  exact shapeCast_a_1a_apply _ _ 0 q

/-- The second weight matrix in the narrow format is the matrix. -/
theorem W3_v5 (c : Dev nD) : W3 m ρ c (Proc.devRef .tc main_v5) = m ((c : Thread nD τ).loc main_arg6) := by
  show StableHlo.after hostOps1 (W2 m ρ c) (Proc.devRef .tc main_v5) = _
  after_results
  rw [W2_of m ρ c main_arg6 (by not_written) (by decide)]
  rfl

/-! What region 1 finds, as the record's fields. -/

theorem r1_adj (c : Dev nD) :
    (fun (r k : Fin 10000) => W3 m ρ c (Proc.devRef .tc main_arg1) (ix2 r k)) = (P m c).adj := by
  rw [W3_arg1]; rfl

theorem r1_sup (c : Dev nD) :
    (fun (k : Fin 10000) (q : Fin 256) => W3 m ρ c (Proc.devRef .tc main_v1) (ix2 k q))
      = fun k => Gcn.rowMat ((P m c).x k) (P m c).W1 := by
  funext k q
  rw [W3_v1]
  exact W2_v1 m ρ c k q

theorem r1_b (c : Dev nD) : (fun q : Fin 256 => W3 m ρ c (Proc.devRef .tc main_v2) (ix2 (0 : Fin 1) q)) = (P m c).b1 :=
  funext (W3_v2 m ρ c)
theorem r1_g (c : Dev nD) : (fun q : Fin 256 => W3 m ρ c (Proc.devRef .tc main_v3) (ix2 (0 : Fin 1) q)) = (P m c).g1 :=
  funext (W3_v3 m ρ c)
theorem r1_be (c : Dev nD) : (fun q : Fin 256 => W3 m ρ c (Proc.devRef .tc main_v4) (ix2 (0 : Fin 1) q)) = (P m c).be1 :=
  funext (W3_v4 m ρ c)
theorem r1_W (c : Dev nD) :
    (fun (k q : Fin 256) => W3 m ρ c (Proc.devRef .tc main_v5) (ix2 k q)) = (P m c).W2 := by
  rw [W3_v5]; rfl

/-- The adjacency matrix in the narrow format is the matrix. -/
theorem W4_v6_0 (c : Dev nD) (r k : Fin 10000) :
    W4 m ρ c (Proc.devRef .tc main_v6_0) (ix2 r k) = m ((c : Thread nD τ).loc main_arg1) (ix2 r k) := by
  refine (congrFun (W4_arr m ρ c 6) (ix2 r k)).trans ?_
  refine (Reg1.final6_apply (V3 m ρ) c r k).trans ?_
  show W3 m ρ c (Proc.devRef .tc main_arg1) (ix2 r k) = _
  rw [W3_arg1]

/-- Layer one's rows. -/
theorem W4_v6_1 (c : Dev nD) (r : Fin 10000) (j : Fin 256) :
    W4 m ρ c (Proc.devRef .tc main_v6_1) (ix2 r j) = Gcn.x1 (P m c) r j := by
  refine (congrFun (W4_arr m ρ c 7) (ix2 r j)).trans ?_
  refine (Reg1.final7_apply (V3 m ρ) c r j).trans ?_
  show Gcn.layer (fun r k => W3 m ρ c (Proc.devRef .tc main_arg1) (ix2 r k))
      (fun k q => W3 m ρ c (Proc.devRef .tc main_v1) (ix2 k q))
      (fun q => W3 m ρ c (Proc.devRef .tc main_v2) (ix2 (0 : Fin 1) q))
      (fun q => W3 m ρ c (Proc.devRef .tc main_v3) (ix2 (0 : Fin 1) q))
      (fun q => W3 m ρ c (Proc.devRef .tc main_v4) (ix2 (0 : Fin 1) q)) r j = _
  rw [r1_adj, r1_sup, r1_b, r1_g, r1_be]
  rfl

/-- The support of layer two. -/
theorem W4_v6_2 (c : Dev nD) (r : Fin 10000) (j : Fin 256) :
    W4 m ρ c (Proc.devRef .tc main_v6_2) (ix2 r j) = Gcn.rowMat (Gcn.x1 (P m c) r) (P m c).W2 j := by
  refine (congrFun (W4_arr m ρ c 8) (ix2 r j)).trans ?_
  refine (Reg1.final8_apply (V3 m ρ) c r j).trans ?_
  show Gcn.rowMat (Gcn.layer (fun r k => W3 m ρ c (Proc.devRef .tc main_arg1) (ix2 r k))
      (fun k q => W3 m ρ c (Proc.devRef .tc main_v1) (ix2 k q))
      (fun q => W3 m ρ c (Proc.devRef .tc main_v2) (ix2 (0 : Fin 1) q))
      (fun q => W3 m ρ c (Proc.devRef .tc main_v3) (ix2 (0 : Fin 1) q))
      (fun q => W3 m ρ c (Proc.devRef .tc main_v4) (ix2 (0 : Fin 1) q)) r)
      (fun k q => W3 m ρ c (Proc.devRef .tc main_v5) (ix2 k q)) j = _
  rw [r1_adj, r1_sup, r1_b, r1_g, r1_be, r1_W]
  rfl

/-! ## Region 2: layer two and the support of layer three -/

theorem W5_v7 (c : Dev nD) (q : Fin 256) :
    W5 m ρ c (Proc.devRef .tc main_v7) (ix2 (0 : Fin 1) q) = m ((c : Thread nD τ).loc main_arg7) (ix1 q) := by
  have e : W5 m ρ c (Proc.devRef .tc main_v7)
      = shapeCast S1x256 (W4 m ρ c (Proc.devRef .tc main_arg7)) shapeCasts_S256_S1x256 := by
    show StableHlo.after hostOps2 (W4 m ρ c) (Proc.devRef .tc main_v7) = _
    after_results
    rfl
  rw [e, W4_of m ρ c main_arg7 (by not_written) (by decide) (by not_written) (by decide)]
  exact shapeCast_a_1a_apply _ _ 0 q

theorem W5_v8 (c : Dev nD) (q : Fin 256) :
    W5 m ρ c (Proc.devRef .tc main_v8) (ix2 (0 : Fin 1) q) = m ((c : Thread nD τ).loc main_arg8) (ix1 q) := by
  have e : W5 m ρ c (Proc.devRef .tc main_v8)
      = shapeCast S1x256 (W4 m ρ c (Proc.devRef .tc main_arg8)) shapeCasts_S256_S1x256 := by
    show StableHlo.after hostOps2 (W4 m ρ c) (Proc.devRef .tc main_v8) = _
    after_results
    rfl
  rw [e, W4_of m ρ c main_arg8 (by not_written) (by decide) (by not_written) (by decide)]
  exact shapeCast_a_1a_apply _ _ 0 q

theorem W5_v9 (c : Dev nD) (q : Fin 256) :
    W5 m ρ c (Proc.devRef .tc main_v9) (ix2 (0 : Fin 1) q) = m ((c : Thread nD τ).loc main_arg9) (ix1 q) := by
  have e : W5 m ρ c (Proc.devRef .tc main_v9)
      = shapeCast S1x256 (W4 m ρ c (Proc.devRef .tc main_arg9)) shapeCasts_S256_S1x256 := by
    show StableHlo.after hostOps2 (W4 m ρ c) (Proc.devRef .tc main_v9) = _
    after_results
    rfl
  rw [e, W4_of m ρ c main_arg9 (by not_written) (by decide) (by not_written) (by decide)]
  exact shapeCast_a_1a_apply _ _ 0 q

/-- The third weight matrix in the narrow format is the matrix. -/
theorem W5_v10 (c : Dev nD) : W5 m ρ c (Proc.devRef .tc main_v10) = m ((c : Thread nD τ).loc main_arg10) := by
  show StableHlo.after hostOps2 (W4 m ρ c) (Proc.devRef .tc main_v10) = _
  after_results
  rw [W4_of m ρ c main_arg10 (by not_written) (by decide) (by not_written) (by decide)]
  rfl

theorem W5_v6_0 (c : Dev nD) : W5 m ρ c (Proc.devRef .tc main_v6_0) = W4 m ρ c (Proc.devRef .tc main_v6_0) :=
  StableHlo.after_of_forall_not_mem _ _ (by not_written)
theorem W5_v6_1 (c : Dev nD) : W5 m ρ c (Proc.devRef .tc main_v6_1) = W4 m ρ c (Proc.devRef .tc main_v6_1) :=
  StableHlo.after_of_forall_not_mem _ _ (by not_written)
theorem W5_v6_2 (c : Dev nD) : W5 m ρ c (Proc.devRef .tc main_v6_2) = W4 m ρ c (Proc.devRef .tc main_v6_2) :=
  StableHlo.after_of_forall_not_mem _ _ (by not_written)

/-! What region 2 finds, as the record's fields. -/

theorem r2_adj (c : Dev nD) :
    (fun (r k : Fin 10000) => W5 m ρ c (Proc.devRef .tc main_v6_0) (ix2 r k)) = (P m c).adj := by
  funext r k
  rw [W5_v6_0]
  exact W4_v6_0 m ρ c r k

theorem r2_sup (c : Dev nD) :
    (fun (k : Fin 10000) (q : Fin 256) => W5 m ρ c (Proc.devRef .tc main_v6_2) (ix2 k q))
      = fun k => Gcn.rowMat (Gcn.x1 (P m c) k) (P m c).W2 := by
  funext k q
  rw [W5_v6_2]
  exact W4_v6_2 m ρ c k q

theorem r2_b (c : Dev nD) : (fun q : Fin 256 => W5 m ρ c (Proc.devRef .tc main_v7) (ix2 (0 : Fin 1) q)) = (P m c).b2 :=
  funext (W5_v7 m ρ c)
theorem r2_g (c : Dev nD) : (fun q : Fin 256 => W5 m ρ c (Proc.devRef .tc main_v8) (ix2 (0 : Fin 1) q)) = (P m c).g2 :=
  funext (W5_v8 m ρ c)
theorem r2_be (c : Dev nD) : (fun q : Fin 256 => W5 m ρ c (Proc.devRef .tc main_v9) (ix2 (0 : Fin 1) q)) = (P m c).be2 :=
  funext (W5_v9 m ρ c)
theorem r2_W (c : Dev nD) :
    (fun (k q : Fin 256) => W5 m ρ c (Proc.devRef .tc main_v10) (ix2 k q)) = (P m c).W3 := by
  rw [W5_v10]; rfl

/-- Layer two's rows. -/
theorem W6_v11_0 (c : Dev nD) (r : Fin 10000) (j : Fin 256) :
    W6 m ρ c (Proc.devRef .tc main_v11_0) (ix2 r j) = Gcn.x2 (P m c) r j := by
  refine (congrFun (W6_arr m ρ c 6) (ix2 r j)).trans ?_
  refine (Reg2.final6_apply (V5 m ρ) c r j).trans ?_
  show Gcn.layer (fun r k => W5 m ρ c (Proc.devRef .tc main_v6_0) (ix2 r k))
      (fun k q => W5 m ρ c (Proc.devRef .tc main_v6_2) (ix2 k q))
      (fun q => W5 m ρ c (Proc.devRef .tc main_v7) (ix2 (0 : Fin 1) q))
      (fun q => W5 m ρ c (Proc.devRef .tc main_v8) (ix2 (0 : Fin 1) q))
      (fun q => W5 m ρ c (Proc.devRef .tc main_v9) (ix2 (0 : Fin 1) q)) r j = _
  rw [r2_adj, r2_sup, r2_b, r2_g, r2_be]
  rfl

/-- The support of layer three. -/
theorem W6_v11_1 (c : Dev nD) (r : Fin 10000) (j : Fin 256) :
    W6 m ρ c (Proc.devRef .tc main_v11_1) (ix2 r j) = Gcn.rowMat (Gcn.x2 (P m c) r) (P m c).W3 j := by
  refine (congrFun (W6_arr m ρ c 7) (ix2 r j)).trans ?_
  refine (Reg2.final7_apply (V5 m ρ) c r j).trans ?_
  show Gcn.rowMat (Gcn.layer (fun r k => W5 m ρ c (Proc.devRef .tc main_v6_0) (ix2 r k))
      (fun k q => W5 m ρ c (Proc.devRef .tc main_v6_2) (ix2 k q))
      (fun q => W5 m ρ c (Proc.devRef .tc main_v7) (ix2 (0 : Fin 1) q))
      (fun q => W5 m ρ c (Proc.devRef .tc main_v8) (ix2 (0 : Fin 1) q))
      (fun q => W5 m ρ c (Proc.devRef .tc main_v9) (ix2 (0 : Fin 1) q)) r)
      (fun k q => W5 m ρ c (Proc.devRef .tc main_v10) (ix2 k q)) j = _
  rw [r2_adj, r2_sup, r2_b, r2_g, r2_be, r2_W]
  rfl

/-- Through region 2 the adjacency matrix, staged as an input, stays as entered; layer one's rows are not staged. -/
theorem W6_v6_0 (c : Dev nD) : W6 m ρ c (Proc.devRef .tc main_v6_0) = W5 m ρ c (Proc.devRef .tc main_v6_0) :=
  (W6_arr m ρ c 0).trans (((dat2 (V5 m ρ) c).arrAt_in 0 rfl _).trans (A_eq2 (V5 m ρ) c 0))
theorem W6_v6_1 (c : Dev nD) : W6 m ρ c (Proc.devRef .tc main_v6_1) = W5 m ρ c (Proc.devRef .tc main_v6_1) :=
  W6_of_ne m ρ c main_v6_1 (by decide)

/-! ## Region 3: layer three and the head -/

theorem W7_v18 (c : Dev nD) (q : Fin 256) :
    W7 m ρ c (Proc.devRef .tc main_v18) (ix2 (0 : Fin 1) q) = m ((c : Thread nD τ).loc main_arg11) (ix1 q) := by
  have e : W7 m ρ c (Proc.devRef .tc main_v18)
      = shapeCast S1x256 (W6 m ρ c (Proc.devRef .tc main_arg11)) shapeCasts_S256_S1x256 := by
    show StableHlo.after hostOps3 (W6 m ρ c) (Proc.devRef .tc main_v18) = _
    after_results
    rfl
  rw [e, W6_of m ρ c main_arg11 (by not_written) (by decide) (by not_written) (by decide) (by not_written) (by decide)]
  exact shapeCast_a_1a_apply _ _ 0 q

theorem W7_v19 (c : Dev nD) (q : Fin 256) :
    W7 m ρ c (Proc.devRef .tc main_v19) (ix2 (0 : Fin 1) q) = m ((c : Thread nD τ).loc main_arg12) (ix1 q) := by
  have e : W7 m ρ c (Proc.devRef .tc main_v19)
      = shapeCast S1x256 (W6 m ρ c (Proc.devRef .tc main_arg12)) shapeCasts_S256_S1x256 := by
    show StableHlo.after hostOps3 (W6 m ρ c) (Proc.devRef .tc main_v19) = _
    after_results
    rfl
  rw [e, W6_of m ρ c main_arg12 (by not_written) (by decide) (by not_written) (by decide) (by not_written) (by decide)]
  exact shapeCast_a_1a_apply _ _ 0 q

theorem W7_v20 (c : Dev nD) (q : Fin 256) :
    W7 m ρ c (Proc.devRef .tc main_v20) (ix2 (0 : Fin 1) q) = m ((c : Thread nD τ).loc main_arg13) (ix1 q) := by
  have e : W7 m ρ c (Proc.devRef .tc main_v20)
      = shapeCast S1x256 (W6 m ρ c (Proc.devRef .tc main_arg13)) shapeCasts_S256_S1x256 := by
    show StableHlo.after hostOps3 (W6 m ρ c) (Proc.devRef .tc main_v20) = _
    after_results
    rfl
  rw [e, W6_of m ρ c main_arg13 (by not_written) (by decide) (by not_written) (by decide) (by not_written) (by decide)]
  exact shapeCast_a_1a_apply _ _ 0 q

theorem W7_v21 (c : Dev nD) (q : Fin 256) :
    W7 m ρ c (Proc.devRef .tc main_v21) (ix2 (0 : Fin 1) q) = m ((c : Thread nD τ).loc main_arg15) (ix1 q) := by
  have e : W7 m ρ c (Proc.devRef .tc main_v21)
      = shapeCast S1x256 (W6 m ρ c (Proc.devRef .tc main_arg15)) shapeCasts_S256_S1x256 := by
    show StableHlo.after hostOps3 (W6 m ρ c) (Proc.devRef .tc main_v21) = _
    after_results
    rfl
  rw [e, W6_of m ρ c main_arg15 (by not_written) (by decide) (by not_written) (by decide) (by not_written) (by decide)]
  exact shapeCast_a_1a_apply _ _ 0 q

/-- A band of 256 rows of the head's matrix, in the narrow format: rows `k + 0`. -/
theorem W7_v13 (c : Dev nD) (k q : Fin 256) :
    W7 m ρ c (Proc.devRef .tc main_v13) (ix2 k q) = Gcn.band0 (P m c) k q := by
  show StableHlo.after hostOps3 (W6 m ρ c) (Proc.devRef .tc main_v13) (ix2 k q) = _
  after_results
  rw [W6_of m ρ c main_arg14 (by not_written) (by decide) (by not_written) (by decide) (by not_written) (by decide)]
  exact slice2_axis0_apply 0 (m ((c : Thread nD τ).loc main_arg14)) slices_S768x256_S256x256_0_0 k q ⟨k.val + 0, by omega⟩
    (by show k.val + 0 = 0 + k.val; omega)

/-- A band of 256 rows of the head's matrix, in the narrow format: rows `k + 256`. -/
theorem W7_v15 (c : Dev nD) (k q : Fin 256) :
    W7 m ρ c (Proc.devRef .tc main_v15) (ix2 k q) = Gcn.band1 (P m c) k q := by
  show StableHlo.after hostOps3 (W6 m ρ c) (Proc.devRef .tc main_v15) (ix2 k q) = _
  after_results
  rw [W6_of m ρ c main_arg14 (by not_written) (by decide) (by not_written) (by decide) (by not_written) (by decide)]
  exact slice2_axis0_apply 256 (m ((c : Thread nD τ).loc main_arg14)) slices_S768x256_S256x256_256_0 k q ⟨k.val + 256, by omega⟩
    (by show k.val + 256 = 256 + k.val; omega)

/-- A band of 256 rows of the head's matrix, in the narrow format: rows `k + 512`. -/
theorem W7_v17 (c : Dev nD) (k q : Fin 256) :
    W7 m ρ c (Proc.devRef .tc main_v17) (ix2 k q) = Gcn.band2 (P m c) k q := by
  show StableHlo.after hostOps3 (W6 m ρ c) (Proc.devRef .tc main_v17) (ix2 k q) = _
  after_results
  rw [W6_of m ρ c main_arg14 (by not_written) (by decide) (by not_written) (by decide) (by not_written) (by decide)]
  exact slice2_axis0_apply 512 (m ((c : Thread nD τ).loc main_arg14)) slices_S768x256_S256x256_512_0 k q ⟨k.val + 512, by omega⟩
    (by show k.val + 512 = 512 + k.val; omega)

/-- The head's weight column, reshaped to a row, keeps its entries. -/
theorem W7_v22 (c : Dev nD) (q : Fin 256) :
    W7 m ρ c (Proc.devRef .tc main_v22) (ix2 (0 : Fin 1) q) = m ((c : Thread nD τ).loc main_arg16) (ix2 q (0 : Fin 1)) := by
  have e : W7 m ρ c (Proc.devRef .tc main_v22)
      = shapeCast S1x256 (W6 m ρ c (Proc.devRef .tc main_arg16)) shapeCasts_S256x1_S1x256 := by
    show StableHlo.after hostOps3 (W6 m ρ c) (Proc.devRef .tc main_v22) = _
    after_results
    rfl
  rw [e, W6_of m ρ c main_arg16 (by not_written) (by decide) (by not_written) (by decide) (by not_written) (by decide)]
  exact shapeCast_apply _ _ (ix2 (0 : Fin 1) q) (ix2 q (0 : Fin 1))
    (by rw [Shape.rowMajor_val_two, Shape.rowMajor_val_two]; show q.val * 1 + 0 = 0 * 256 + q.val; omega)

/-- The head's last bias, reshaped to a one-entry matrix, keeps its entry. -/
theorem W7_v23 (c : Dev nD) :
    W7 m ρ c (Proc.devRef .tc main_v23) (ix2 (0 : Fin 1) (0 : Fin 1)) = m ((c : Thread nD τ).loc main_arg17) (ix1 (0 : Fin 1)) := by
  have e : W7 m ρ c (Proc.devRef .tc main_v23)
      = shapeCast S1x1 (W6 m ρ c (Proc.devRef .tc main_arg17)) shapeCasts_S1_S1x1 := by
    show StableHlo.after hostOps3 (W6 m ρ c) (Proc.devRef .tc main_v23) = _
    after_results
    rfl
  rw [e, W6_of m ρ c main_arg17 (by not_written) (by decide) (by not_written) (by decide) (by not_written) (by decide)]
  exact shapeCast_a_1a_apply _ _ 0 0

theorem W7_v6_0 (c : Dev nD) : W7 m ρ c (Proc.devRef .tc main_v6_0) = W6 m ρ c (Proc.devRef .tc main_v6_0) :=
  StableHlo.after_of_forall_not_mem _ _ (by not_written)
theorem W7_v6_1 (c : Dev nD) : W7 m ρ c (Proc.devRef .tc main_v6_1) = W6 m ρ c (Proc.devRef .tc main_v6_1) :=
  StableHlo.after_of_forall_not_mem _ _ (by not_written)
theorem W7_v11_0 (c : Dev nD) : W7 m ρ c (Proc.devRef .tc main_v11_0) = W6 m ρ c (Proc.devRef .tc main_v11_0) :=
  StableHlo.after_of_forall_not_mem _ _ (by not_written)
theorem W7_v11_1 (c : Dev nD) : W7 m ρ c (Proc.devRef .tc main_v11_1) = W6 m ρ c (Proc.devRef .tc main_v11_1) :=
  StableHlo.after_of_forall_not_mem _ _ (by not_written)

/-! What region 3 finds, as the record's fields and the first two layers' rows. -/

theorem r3_adj (c : Dev nD) :
    (fun (r k : Fin 10000) => W7 m ρ c (Proc.devRef .tc main_v6_0) (ix2 r k)) = (P m c).adj := by
  funext r k
  rw [W7_v6_0, W6_v6_0, W5_v6_0]
  exact W4_v6_0 m ρ c r k

theorem r3_sup (c : Dev nD) :
    (fun (k : Fin 10000) (q : Fin 256) => W7 m ρ c (Proc.devRef .tc main_v11_1) (ix2 k q))
      = fun k => Gcn.rowMat (Gcn.x2 (P m c) k) (P m c).W3 := by
  funext k q
  rw [W7_v11_1]
  exact W6_v11_1 m ρ c k q

theorem r3_b (c : Dev nD) : (fun q : Fin 256 => W7 m ρ c (Proc.devRef .tc main_v18) (ix2 (0 : Fin 1) q)) = (P m c).b3 :=
  funext (W7_v18 m ρ c)
theorem r3_g (c : Dev nD) : (fun q : Fin 256 => W7 m ρ c (Proc.devRef .tc main_v19) (ix2 (0 : Fin 1) q)) = (P m c).g3 :=
  funext (W7_v19 m ρ c)
theorem r3_be (c : Dev nD) : (fun q : Fin 256 => W7 m ρ c (Proc.devRef .tc main_v20) (ix2 (0 : Fin 1) q)) = (P m c).be3 :=
  funext (W7_v20 m ρ c)

theorem r3_x1 (c : Dev nD) (r : Fin 10000) :
    (fun k : Fin 256 => W7 m ρ c (Proc.devRef .tc main_v6_1) (ix2 r k)) = Gcn.x1 (P m c) r := by
  funext k
  rw [W7_v6_1, W6_v6_1, W5_v6_1]
  exact W4_v6_1 m ρ c r k

theorem r3_x2 (c : Dev nD) (r : Fin 10000) :
    (fun k : Fin 256 => W7 m ρ c (Proc.devRef .tc main_v11_0) (ix2 r k)) = Gcn.x2 (P m c) r := by
  funext k
  rw [W7_v11_0]
  exact W6_v11_0 m ρ c r k

theorem r3_A (c : Dev nD) : (fun (k q : Fin 256) => W7 m ρ c (Proc.devRef .tc main_v13) (ix2 k q)) = Gcn.band0 (P m c) :=
  funext fun k => funext fun q => W7_v13 m ρ c k q
theorem r3_B (c : Dev nD) : (fun (k q : Fin 256) => W7 m ρ c (Proc.devRef .tc main_v15) (ix2 k q)) = Gcn.band1 (P m c) :=
  funext fun k => funext fun q => W7_v15 m ρ c k q
theorem r3_C (c : Dev nD) : (fun (k q : Fin 256) => W7 m ρ c (Proc.devRef .tc main_v17) (ix2 k q)) = Gcn.band2 (P m c) :=
  funext fun k => funext fun q => W7_v17 m ρ c k q
theorem r3_fb1 (c : Dev nD) : (fun q : Fin 256 => W7 m ρ c (Proc.devRef .tc main_v21) (ix2 (0 : Fin 1) q)) = (P m c).fcb1 :=
  funext (W7_v21 m ρ c)
theorem r3_w2 (c : Dev nD) : (fun q : Fin 256 => W7 m ρ c (Proc.devRef .tc main_v22) (ix2 (0 : Fin 1) q)) = (P m c).fcW2 :=
  funext (W7_v22 m ρ c)

/-- After region 3 the output column holds the network's output, node by node. -/
theorem W8_v24 (c : Dev nD) (r : Fin 10000) :
    W8 m ρ c (Proc.devRef .tc main_v24) (ix2 r (0 : Fin 1)) = Gcn.net (P m c) r := by
  refine (congrFun (W8_arr m ρ c 13) (ix2 r (0 : Fin 1))).trans ?_
  refine (Reg3.final13_apply (V7 m ρ) c r).trans ?_
  show Gcn.head (fun k => W7 m ρ c (Proc.devRef .tc main_v6_1) (ix2 r k))
      (fun k => W7 m ρ c (Proc.devRef .tc main_v11_0) (ix2 r k))
      (Gcn.layer (fun r k => W7 m ρ c (Proc.devRef .tc main_v6_0) (ix2 r k))
        (fun k q => W7 m ρ c (Proc.devRef .tc main_v11_1) (ix2 k q))
        (fun q => W7 m ρ c (Proc.devRef .tc main_v18) (ix2 (0 : Fin 1) q))
        (fun q => W7 m ρ c (Proc.devRef .tc main_v19) (ix2 (0 : Fin 1) q))
        (fun q => W7 m ρ c (Proc.devRef .tc main_v20) (ix2 (0 : Fin 1) q)) r)
      (fun k q => W7 m ρ c (Proc.devRef .tc main_v13) (ix2 k q))
      (fun k q => W7 m ρ c (Proc.devRef .tc main_v15) (ix2 k q))
      (fun k q => W7 m ρ c (Proc.devRef .tc main_v17) (ix2 k q))
      (fun q => W7 m ρ c (Proc.devRef .tc main_v21) (ix2 (0 : Fin 1) q))
      (fun q => W7 m ρ c (Proc.devRef .tc main_v22) (ix2 (0 : Fin 1) q))
      (W7 m ρ c (Proc.devRef .tc main_v23) (ix2 (0 : Fin 1) (0 : Fin 1))) = _
  rw [r3_x1, r3_x2, r3_adj, r3_sup, r3_b, r3_g, r3_be, r3_A, r3_B, r3_C, r3_fb1, r3_w2, W7_v23]
  rfl

/-! ## The result -/

/-- The result vector is the output column reshaped: at node `r`, the network's output. -/
theorem result_apply (c : Dev nD) (r : Fin 10000) :
    W9 m ρ c (Proc.devRef .tc main_v25) (ix1 r) = Gcn.net (P m c) r := by
  have e : W9 m ρ c (Proc.devRef .tc main_v25)
      = shapeCast S10000 (W8 m ρ c (Proc.devRef .tc main_v24)) shapeCasts_S10000x1_S10000 := by
    show StableHlo.after hostOps4 (W8 m ρ c) (Proc.devRef .tc main_v25) = _
    after_results
    rfl
  rw [e]
  exact (shapeCast_apply _ _ (ix1 r) (ix2 r (0 : Fin 1))
    (by rw [Shape.rowMajor_val_two, Shape.rowMajor_val_one]; show r.val * 1 + 0 = r.val; omega)).trans (W8_v24 m ρ c r)

end Cert.KernelIdeal.Compose

end
-- ==== Proof.RefL1.lean ====
/-
  The reference's layer one: its output stage, entry by entry, is the network's layer-1 row.  The reference
  aggregates the support over the neighbours, adds the bias, subtracts the mean over the 256 features, divides by the
  root of the variance plus a small positive word, scales, shifts and clips at zero; dividing by the root is
  multiplying by the reciprocal root because the argument of the root is positive.
-/
import proofs.«122235_g19155554140324_cont_8to1_1621_8_alg».proof.Proof.Gen.ReferenceIdeal.Run
import proofs.«122235_g19155554140324_cont_8to1_1621_8_alg».proof.Proof.Gen.ReferenceIdeal.Read
import proofs.«122235_g19155554140324_cont_8to1_1621_8_alg».proof.Proof.Net
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (x0 : (⟨S10000x256, .f32⟩ : BufTy).Contents (Elt Ideal)) (x1 : (⟨S10000x10000, .f32⟩ : BufTy).Contents (Elt Ideal)) (x2 : (⟨S256x256, .f32⟩ : BufTy).Contents (Elt Ideal))
    (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal))
    (x10 : (⟨S256x256, .f32⟩ : BufTy).Contents (Elt Ideal)) (x11 x12 x13 : (⟨S256, .f32⟩ : BufTy).Contents (Elt Ideal)) (x14 : (⟨S768x256, .f32⟩ : BufTy).Contents (Elt Ideal))
    (x15 : (⟨S256, .f32⟩ : BufTy).Contents (Elt Ideal)) (x16 : (⟨S256x1, .f32⟩ : BufTy).Contents (Elt Ideal)) (x17 : (⟨S1, .f32⟩ : BufTy).Contents (Elt Ideal))

namespace L1

/-- Row `r` of the array the normalisation acts on: the support `x0 · x2` aggregated over the neighbours with the
    weights `x1 r ·`, plus the bias. -/
def hrow (r : Fin 10000) : Fin 256 → EReal :=
  fun j => (∑ k : Fin 10000, x1 (ix2 r k) * ∑ m : Fin 256, x0 (ix2 k m) * x2 (ix2 m j)) + x3 (ix1 j)

/-- The support at an entry: a row of the features times a column of the weight matrix. -/
theorem v0_at (k : Fin 10000) (j : Fin 256) :
    val_main_v0 (F := Ideal) x0 x2 (ix2 k j) = ∑ m : Fin 256, x0 (ix2 k m) * x2 (ix2 m j) := by
  refine (val_main_v0_apply x0 x2 (ix2 k j)).trans ?_
  refine Finset.sum_congr rfl fun m _ => ?_
  have el : lidx_main_v0 (ix2 k j) m = ix2 k m := funext fun a => by match a with | ⟨0, _⟩ => rfl | ⟨1, _⟩ => rfl
  have er : ridx_main_v0 (ix2 k j) m = ix2 m j := funext fun a => by match a with | ⟨0, _⟩ => rfl | ⟨1, _⟩ => rfl
  rw [el, er]

/-- The aggregate at an entry: row `r` of the adjacency against column `j` of the support. -/
theorem v1_at (r : Fin 10000) (j : Fin 256) :
    val_main_v1 (F := Ideal) x0 x1 x2 (ix2 r j)
      = ∑ k : Fin 10000, x1 (ix2 r k) * ∑ m : Fin 256, x0 (ix2 k m) * x2 (ix2 m j) := by
  refine (val_main_v1_apply x0 x1 x2 (ix2 r j)).trans ?_
  refine Finset.sum_congr rfl fun k _ => ?_
  have el : lidx_main_v1 (ix2 r j) k = ix2 r k := funext fun a => by match a with | ⟨0, _⟩ => rfl | ⟨1, _⟩ => rfl
  have er : ridx_main_v1 (ix2 r j) k = ix2 k j := funext fun a => by match a with | ⟨0, _⟩ => rfl | ⟨1, _⟩ => rfl
  rw [el, er, v0_at]

/-- A length-256 vector laid along the features and repeated down the rows reads the vector at the feature. -/
theorem v3_at (r : Fin 10000) (j : Fin 256) : val_main_v3 (F := Ideal) x3 (ix2 r j) = x3 (ix1 j) := by
  refine (val_main_v3_apply (F := Ideal) x3 (ix2 r j)).trans ?_
  refine (val_main_v2_apply (F := Ideal) x3 _).trans ?_
  exact congrArg x3 (funext fun a => by match a with | ⟨0, _⟩ => rfl)

/-- The aggregate plus the bias at an entry. -/
theorem v4_at (r : Fin 10000) (j : Fin 256) :
    val_main_v4 (F := Ideal) x0 x1 x2 x3 (ix2 r j) = hrow x0 x1 x2 x3 r j := by
  refine (val_main_v4_apply (F := Ideal) x0 x1 x2 x3 (ix2 r j)).trans ?_
  rw [v1_at, v3_at]
  rfl

/-- The row's sum over the 256 features; the initial word is zero. -/
theorem v5_at (r : Fin 10000) :
    val_main_v5 (F := Ideal) x0 x1 x2 x3 (ix1 r) = ∑ k : Fin 256, hrow x0 x1 x2 x3 r k := by
  refine (val_main_v5_apply x0 x1 x2 x3 (ix1 r)).trans ?_
  have hz : (val_main_cst (F := Ideal)) (Shape.Idx.first h_S_) = 0 := Ideal.ofBits_zero_f32
  rw [hz, zero_add]
  refine Finset.sum_congr rfl fun k _ => ?_
  have e : idx_main_v5 (ix1 r) k = ix2 r k := funext fun a => by match a with | ⟨0, _⟩ => rfl | ⟨1, _⟩ => rfl
  rw [e, v4_at]

/-- The row's mean, as a one-column array. -/
theorem v8_at (r : Fin 10000) (u : Fin 1) :
    val_main_v8 (F := Ideal) x0 x1 x2 x3 (ix2 r u) = Gcn.mean (hrow x0 x1 x2 x3 r) := by
  refine (val_main_v8_apply (F := Ideal) x0 x1 x2 x3 (ix2 r u)).trans ?_
  rw [val_main_v6_apply, val_main_v7_apply]
  have e : idx_main_v6 (ix2 r u) = ix1 r := funext fun a => by match a with | ⟨0, _⟩ => rfl
  rw [e, v5_at]
  rfl

/-- The centred entry: the row's entry minus the row's mean (the first of the program's two copies). -/
theorem v10_at (r : Fin 10000) (j : Fin 256) :
    val_main_v10 (F := Ideal) x0 x1 x2 x3 (ix2 r j) = Gcn.dev (hrow x0 x1 x2 x3 r) j := by
  refine (val_main_v10_apply (F := Ideal) x0 x1 x2 x3 (ix2 r j)).trans ?_
  rw [val_main_v9_apply, v4_at]
  have e : idx_main_v9 (ix2 r j) = ix2 r (0 : Fin 1) := funext fun a => by match a with | ⟨0, _⟩ => rfl | ⟨1, _⟩ => rfl
  rw [e, v8_at]
  rfl

/-- The second copy of the centred entry has the same value. -/
theorem v17_at (r : Fin 10000) (j : Fin 256) :
    val_main_v17 (F := Ideal) x0 x1 x2 x3 (ix2 r j) = Gcn.dev (hrow x0 x1 x2 x3 r) j := by
  refine (val_main_v17_apply (F := Ideal) x0 x1 x2 x3 (ix2 r j)).trans ?_
  rw [val_main_v16_apply, v4_at]
  have e : idx_main_v16 (ix2 r j) = ix2 r (0 : Fin 1) := funext fun a => by match a with | ⟨0, _⟩ => rfl | ⟨1, _⟩ => rfl
  rw [e, v8_at]
  rfl

/-- The sum of the centred row's squares over the 256 features; the initial word is zero. -/
theorem v12_at (r : Fin 10000) :
    val_main_v12 (F := Ideal) x0 x1 x2 x3 (ix1 r)
      = ∑ k : Fin 256, Gcn.dev (hrow x0 x1 x2 x3 r) k * Gcn.dev (hrow x0 x1 x2 x3 r) k := by
  refine (val_main_v12_apply x0 x1 x2 x3 (ix1 r)).trans ?_
  have hz : (val_main_cst_1 (F := Ideal)) (Shape.Idx.first h_S_) = 0 := Ideal.ofBits_zero_f32
  rw [hz, zero_add]
  refine Finset.sum_congr rfl fun k _ => ?_
  have e : idx_main_v12 (ix1 r) k = ix2 r k := funext fun a => by match a with | ⟨0, _⟩ => rfl | ⟨1, _⟩ => rfl
  rw [e]
  refine (val_main_v11_apply (F := Ideal) x0 x1 x2 x3 (ix2 r k)).trans ?_
  rw [v10_at]
  rfl

/-- The row's variance, as a one-column array. -/
theorem v15_at (r : Fin 10000) (u : Fin 1) :
    val_main_v15 (F := Ideal) x0 x1 x2 x3 (ix2 r u) = Gcn.var (hrow x0 x1 x2 x3 r) := by
  refine (val_main_v15_apply (F := Ideal) x0 x1 x2 x3 (ix2 r u)).trans ?_
  rw [val_main_v13_apply, val_main_v14_apply]
  have e : idx_main_v13 (ix2 r u) = ix1 r := funext fun a => by match a with | ⟨0, _⟩ => rfl
  rw [e, v12_at]
  rfl

/-- The root of the variance plus the small positive word. -/
theorem v20_at (r : Fin 10000) (u : Fin 1) :
    val_main_v20 (F := Ideal) x0 x1 x2 x3 (ix2 r u) = Ideal.sqrt (Gcn.var (hrow x0 x1 x2 x3 r) + Gcn.wEps) := by
  refine (val_main_v20_apply (F := Ideal) x0 x1 x2 x3 (ix2 r u)).trans ?_
  rw [val_main_v19_apply, v15_at, val_main_v18_apply]
  rfl

/-- The centred entry divided by that root. -/
theorem v22_at (r : Fin 10000) (j : Fin 256) :
    val_main_v22 (F := Ideal) x0 x1 x2 x3 (ix2 r j)
      = Ideal.div (Gcn.dev (hrow x0 x1 x2 x3 r) j) (Ideal.sqrt (Gcn.var (hrow x0 x1 x2 x3 r) + Gcn.wEps)) := by
  refine (val_main_v22_apply (F := Ideal) x0 x1 x2 x3 (ix2 r j)).trans ?_
  rw [v17_at, val_main_v21_apply]
  have e : idx_main_v21 (ix2 r j) = ix2 r (0 : Fin 1) := funext fun a => by match a with | ⟨0, _⟩ => rfl | ⟨1, _⟩ => rfl
  rw [e, v20_at]
  rfl

/-- The scale vector laid along the features and repeated down the rows. -/
theorem v24_at (r : Fin 10000) (j : Fin 256) : val_main_v24 (F := Ideal) x4 (ix2 r j) = x4 (ix1 j) := by
  refine (val_main_v24_apply (F := Ideal) x4 (ix2 r j)).trans ?_
  refine (val_main_v23_apply (F := Ideal) x4 _).trans ?_
  exact congrArg x4 (funext fun a => by match a with | ⟨0, _⟩ => rfl)

/-- The shift vector laid along the features and repeated down the rows. -/
theorem v27_at (r : Fin 10000) (j : Fin 256) : val_main_v27 (F := Ideal) x5 (ix2 r j) = x5 (ix1 j) := by
  refine (val_main_v27_apply (F := Ideal) x5 (ix2 r j)).trans ?_
  refine (val_main_v26_apply (F := Ideal) x5 _).trans ?_
  exact congrArg x5 (funext fun a => by match a with | ⟨0, _⟩ => rfl)

/-- The normalised entry, scaled and shifted. -/
theorem v28_at (r : Fin 10000) (j : Fin 256) :
    val_main_v28 (F := Ideal) x0 x1 x2 x3 x4 x5 (ix2 r j)
      = Ideal.div (Gcn.dev (hrow x0 x1 x2 x3 r) j) (Ideal.sqrt (Gcn.var (hrow x0 x1 x2 x3 r) + Gcn.wEps)) * x4 (ix1 j)
        + x5 (ix1 j) := by
  refine (val_main_v28_apply (F := Ideal) x0 x1 x2 x3 x4 x5 (ix2 r j)).trans ?_
  rw [v27_at]
  refine congrArg (· + x5 (ix1 j)) ?_
  refine (val_main_v25_apply (F := Ideal) x0 x1 x2 x3 x4 (ix2 r j)).trans ?_
  rw [v22_at, v24_at]
  rfl

/-- The clipped entry, in the spelling that divides by the root. -/
theorem v29_quot (r : Fin 10000) (j : Fin 256) :
    val_main_v29 (F := Ideal) x0 x1 x2 x3 x4 x5 (ix2 r j)
      = Gcn.lnReluQuot (hrow x0 x1 x2 x3 r) (fun q => x4 (ix1 q)) (fun q => x5 (ix1 q)) j := by
  refine (val_main_v29_apply (F := Ideal) x0 x1 x2 x3 x4 x5 (ix2 r j)).trans ?_
  rw [v28_at, val_main_call0_v0_apply]
  rfl

end L1

/-- Layer 1's output stage at node `r`, feature `j`. -/
theorem v29_apply (r : Fin 10000) (j : Fin 256) :
    val_main_v29 (F := Ideal) x0 x1 x2 x3 x4 x5 (ix2 r j)
      = Gcn.x1 (Gcn.Params.ofArrays x0 x1 x2 x3 x4 x5 x6 x7 x8 x9 x10 x11 x12 x13 x14 x15 x16 x17) r j := by
  rw [L1.v29_quot, Gcn.lnReluQuot_eq]
  rfl

end Cert.ReferenceIdeal.RefValue

end
-- ==== Proof.RefL2.lean ====
/-
  The reference's layer two: its output stage, entry by entry, is the network's layer-2 row.  The reference
  aggregates the support over the neighbours, adds the bias, subtracts the mean over the 256 features, divides by the
  root of the variance plus a small positive word, scales, shifts and clips at zero; dividing by the root is
  multiplying by the reciprocal root because the argument of the root is positive.
-/
import proofs.«122235_g19155554140324_cont_8to1_1621_8_alg».proof.Proof.Gen.ReferenceIdeal.Run
import proofs.«122235_g19155554140324_cont_8to1_1621_8_alg».proof.Proof.Gen.ReferenceIdeal.Read
import proofs.«122235_g19155554140324_cont_8to1_1621_8_alg».proof.Proof.Net
import proofs.«122235_g19155554140324_cont_8to1_1621_8_alg».proof.Proof.RefL1
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (x0 : (⟨S10000x256, .f32⟩ : BufTy).Contents (Elt Ideal)) (x1 : (⟨S10000x10000, .f32⟩ : BufTy).Contents (Elt Ideal)) (x2 : (⟨S256x256, .f32⟩ : BufTy).Contents (Elt Ideal))
    (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal))
    (x10 : (⟨S256x256, .f32⟩ : BufTy).Contents (Elt Ideal)) (x11 x12 x13 : (⟨S256, .f32⟩ : BufTy).Contents (Elt Ideal)) (x14 : (⟨S768x256, .f32⟩ : BufTy).Contents (Elt Ideal))
    (x15 : (⟨S256, .f32⟩ : BufTy).Contents (Elt Ideal)) (x16 : (⟨S256x1, .f32⟩ : BufTy).Contents (Elt Ideal)) (x17 : (⟨S1, .f32⟩ : BufTy).Contents (Elt Ideal))

namespace L2

/-! ## The support and the aggregate -/

/-- The support at node `k`, feature `j`: row `k` of layer one times the second weight matrix. -/
theorem v30_at (k : Fin 10000) (j : Fin 256) :
    val_main_v30 (F := Ideal) x0 x1 x2 x3 x4 x5 x6 (ix2 k j)
      = ∑ m : Fin 256, val_main_v29 (F := Ideal) x0 x1 x2 x3 x4 x5 (ix2 k m) * x6 (ix2 m j) := by
  rw [val_main_v30_apply]
  refine Finset.sum_congr rfl fun m _ => ?_
  rw [show lidx_main_v30 (ix2 k j) m = ix2 k m from funext fun a => by match a with | ⟨0, _⟩ => rfl | ⟨1, _⟩ => rfl,
    show ridx_main_v30 (ix2 k j) m = ix2 m j from funext fun a => by match a with | ⟨0, _⟩ => rfl | ⟨1, _⟩ => rfl]

/-- The aggregate at node `r`, feature `j`: row `r` of the adjacency against column `j` of the support. -/
theorem v31_at (r : Fin 10000) (j : Fin 256) :
    val_main_v31 (F := Ideal) x0 x1 x2 x3 x4 x5 x6 (ix2 r j)
      = ∑ k : Fin 10000, x1 (ix2 r k) * val_main_v30 (F := Ideal) x0 x1 x2 x3 x4 x5 x6 (ix2 k j) := by
  rw [val_main_v31_apply]
  refine Finset.sum_congr rfl fun k _ => ?_
  rw [show lidx_main_v31 (ix2 r j) k = ix2 r k from funext fun a => by match a with | ⟨0, _⟩ => rfl | ⟨1, _⟩ => rfl,
    show ridx_main_v31 (ix2 r j) k = ix2 k j from funext fun a => by match a with | ⟨0, _⟩ => rfl | ⟨1, _⟩ => rfl]

/-- The bias row spread over the nodes reads the bias at the feature. -/
theorem v33_at (r : Fin 10000) (j : Fin 256) : val_main_v33 (F := Ideal) x7 (ix2 r j) = x7 (ix1 j) := by
  rw [val_main_v33_apply, val_main_v32_apply]
  exact congrArg x7 (funext fun a => by match a with | ⟨0, _⟩ => rfl)

/-- The aggregate plus the bias. -/
theorem v34_at (r : Fin 10000) (j : Fin 256) :
    val_main_v34 (F := Ideal) x0 x1 x2 x3 x4 x5 x6 x7 (ix2 r j)
      = (∑ k : Fin 10000, x1 (ix2 r k) * val_main_v30 (F := Ideal) x0 x1 x2 x3 x4 x5 x6 (ix2 k j)) + x7 (ix1 j) := by
  rw [val_main_v34_apply, v31_at, v33_at]
  rfl

/-! ## The normalisation of one row -/

/-- The aggregate-plus-bias row of node `r`, feature by feature. -/
def hrow (r : Fin 10000) : Fin 256 → EReal :=
  fun j => val_main_v34 (F := Ideal) x0 x1 x2 x3 x4 x5 x6 x7 (ix2 r j)

/-- The mean column: the sum of the row over its 256 features, started at the zero word, divided by the word 256. -/
theorem v38_at (r : Fin 10000) (u : Fin 1) :
    val_main_v38 (F := Ideal) x0 x1 x2 x3 x4 x5 x6 x7 (ix2 r u) = Gcn.mean (hrow x0 x1 x2 x3 x4 x5 x6 x7 r) := by
  rw [val_main_v38_apply, val_main_v36_apply, val_main_v37_apply, val_main_cst_5_apply,
    show idx_main_v36 (ix2 r u) = ix1 r from funext fun a => by match a with | ⟨0, _⟩ => rfl,
    val_main_v35_apply, val_main_cst_4_apply]
  rw [Ideal.ofBits_def, Ideal.ofBits_def, Ideal.ofBits_zero_f32, zero_add]
  unfold Gcn.mean hrow
  refine congrArg (fun s => Ideal.div s Gcn.w256) (Finset.sum_congr rfl fun k _ => ?_)
  exact congrArg (val_main_v34 (F := Ideal) x0 x1 x2 x3 x4 x5 x6 x7) (funext fun a => by match a with | ⟨0, _⟩ => rfl | ⟨1, _⟩ => rfl)

/-- The centred entry: the row's entry minus the row's mean, read from the mean column spread over the features. -/
theorem v40_at (r : Fin 10000) (j : Fin 256) :
    val_main_v40 (F := Ideal) x0 x1 x2 x3 x4 x5 x6 x7 (ix2 r j) = Gcn.dev (hrow x0 x1 x2 x3 x4 x5 x6 x7 r) j := by
  rw [val_main_v40_apply, val_main_v39_apply,
    show idx_main_v39 (ix2 r j) = ix2 r (⟨0, Nat.one_pos⟩ : Fin 1) from funext fun a => by match a with | ⟨0, _⟩ => rfl | ⟨1, _⟩ => rfl,
    v38_at]
  rfl

/-- The centred entry is computed a second time, from the same mean column; it has the same value. -/
theorem v47_at (r : Fin 10000) (j : Fin 256) :
    val_main_v47 (F := Ideal) x0 x1 x2 x3 x4 x5 x6 x7 (ix2 r j) = Gcn.dev (hrow x0 x1 x2 x3 x4 x5 x6 x7 r) j := by
  rw [val_main_v47_apply, val_main_v46_apply,
    show idx_main_v46 (ix2 r j) = ix2 r (⟨0, Nat.one_pos⟩ : Fin 1) from funext fun a => by match a with | ⟨0, _⟩ => rfl | ⟨1, _⟩ => rfl,
    v38_at]
  rfl

/-- The variance column: the sum of the squared centred entries, started at the zero word, divided by the word 256. -/
theorem v45_at (r : Fin 10000) (u : Fin 1) :
    val_main_v45 (F := Ideal) x0 x1 x2 x3 x4 x5 x6 x7 (ix2 r u) = Gcn.var (hrow x0 x1 x2 x3 x4 x5 x6 x7 r) := by
  rw [val_main_v45_apply, val_main_v43_apply, val_main_v44_apply, val_main_cst_7_apply,
    show idx_main_v43 (ix2 r u) = ix1 r from funext fun a => by match a with | ⟨0, _⟩ => rfl,
    val_main_v42_apply, val_main_cst_6_apply]
  rw [Ideal.ofBits_def, Ideal.ofBits_def, Ideal.ofBits_zero_f32, zero_add]
  unfold Gcn.var
  refine congrArg (fun s => Ideal.div s Gcn.w256) (Finset.sum_congr rfl fun k _ => ?_)
  rw [show idx_main_v42 (ix1 r) k = ix2 r k from funext fun a => by match a with | ⟨0, _⟩ => rfl | ⟨1, _⟩ => rfl, val_main_v41_apply, v40_at]
  rfl

/-- The root column: the root of the variance plus the small positive word. -/
theorem v50_at (r : Fin 10000) (u : Fin 1) :
    val_main_v50 (F := Ideal) x0 x1 x2 x3 x4 x5 x6 x7 (ix2 r u) = Ideal.sqrt (Gcn.var (hrow x0 x1 x2 x3 x4 x5 x6 x7 r) + Gcn.wEps) := by
  rw [val_main_v50_apply, val_main_v49_apply, v45_at, val_main_v48_apply, val_main_cst_8_apply]
  rfl

/-- The quotient: the centred entry divided by the root, read from the root column spread over the features. -/
theorem v52_at (r : Fin 10000) (j : Fin 256) :
    val_main_v52 (F := Ideal) x0 x1 x2 x3 x4 x5 x6 x7 (ix2 r j)
      = Ideal.div (Gcn.dev (hrow x0 x1 x2 x3 x4 x5 x6 x7 r) j) (Ideal.sqrt (Gcn.var (hrow x0 x1 x2 x3 x4 x5 x6 x7 r) + Gcn.wEps)) := by
  rw [val_main_v52_apply, v47_at, val_main_v51_apply,
    show idx_main_v51 (ix2 r j) = ix2 r (⟨0, Nat.one_pos⟩ : Fin 1) from funext fun a => by match a with | ⟨0, _⟩ => rfl | ⟨1, _⟩ => rfl,
    v50_at]
  rfl

/-- The scale row spread over the nodes reads the scale at the feature. -/
theorem v54_at (r : Fin 10000) (j : Fin 256) : val_main_v54 (F := Ideal) x8 (ix2 r j) = x8 (ix1 j) := by
  rw [val_main_v54_apply, val_main_v53_apply]
  exact congrArg x8 (funext fun a => by match a with | ⟨0, _⟩ => rfl)

/-- The shift row spread over the nodes reads the shift at the feature. -/
theorem v57_at (r : Fin 10000) (j : Fin 256) : val_main_v57 (F := Ideal) x9 (ix2 r j) = x9 (ix1 j) := by
  rw [val_main_v57_apply, val_main_v56_apply]
  exact congrArg x9 (funext fun a => by match a with | ⟨0, _⟩ => rfl)

/-- The clipped entry, in the spelling that divides by the root. -/
theorem v59_quot (r : Fin 10000) (j : Fin 256) :
    val_main_v59 (F := Ideal) x0 x1 x2 x3 x4 x5 x6 x7 x8 x9 (ix2 r j)
      = Gcn.lnReluQuot (hrow x0 x1 x2 x3 x4 x5 x6 x7 r) (fun q => x8 (ix1 q)) (fun q => x9 (ix1 q)) j := by
  rw [val_main_v59_apply, val_main_v58_apply, val_main_v55_apply, v52_at, v54_at, v57_at,
    val_main_call1_v0_apply, val_main_call1_cst_apply]
  rfl

/-! ## The row is the network's row -/

/-- The aggregate-plus-bias row is the one the network's second layer normalises: the support is layer one's rows
    times the second weight matrix. -/
theorem hrow_eq (r : Fin 10000) :
    hrow x0 x1 x2 x3 x4 x5 x6 x7 r = fun j => (∑ k : Fin 10000, x1 (ix2 r k)
        * Gcn.rowMat (Gcn.x1 (Gcn.Params.ofArrays x0 x1 x2 x3 x4 x5 x6 x7 x8 x9 x10 x11 x12 x13 x14 x15 x16 x17) k) (fun m q => x6 (ix2 m q)) j) + x7 (ix1 j) := by
  funext j
  unfold hrow
  rw [v34_at]
  refine congrArg (fun s => s + x7 (ix1 j)) (Finset.sum_congr rfl fun k _ => ?_)
  rw [v30_at]
  unfold Gcn.rowMat
  refine congrArg (fun s => x1 (ix2 r k) * s) (Finset.sum_congr rfl fun m _ => ?_)
  rw [v29_apply x0 x1 x2 x3 x4 x5 x6 x7 x8 x9 x10 x11 x12 x13 x14 x15 x16 x17]

end L2

/-- Layer 2's output stage at node `r`, feature `j`. -/
theorem v59_apply (r : Fin 10000) (j : Fin 256) :
    val_main_v59 (F := Ideal) x0 x1 x2 x3 x4 x5 x6 x7 x8 x9 (ix2 r j)
      = Gcn.x2 (Gcn.Params.ofArrays x0 x1 x2 x3 x4 x5 x6 x7 x8 x9 x10 x11 x12 x13 x14 x15 x16 x17) r j := by
  rw [L2.v59_quot, Gcn.lnReluQuot_eq, L2.hrow_eq x0 x1 x2 x3 x4 x5 x6 x7 x8 x9 x10 x11 x12 x13 x14 x15 x16 x17]
  rfl

end Cert.ReferenceIdeal.RefValue

end
-- ==== Proof.RefL3.lean ====
/-
  The reference's layer three: its output stage, entry by entry, is the network's layer-3 row.  The reference
  aggregates the support over the neighbours, adds the bias, subtracts the mean over the 256 features, divides by the
  root of the variance plus a small positive word, scales, shifts and clips at zero; dividing by the root is
  multiplying by the reciprocal root because the argument of the root is positive.
-/
import proofs.«122235_g19155554140324_cont_8to1_1621_8_alg».proof.Proof.Gen.ReferenceIdeal.Run
import proofs.«122235_g19155554140324_cont_8to1_1621_8_alg».proof.Proof.Gen.ReferenceIdeal.Read
import proofs.«122235_g19155554140324_cont_8to1_1621_8_alg».proof.Proof.Net
import proofs.«122235_g19155554140324_cont_8to1_1621_8_alg».proof.Proof.RefL2
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (x0 : (⟨S10000x256, .f32⟩ : BufTy).Contents (Elt Ideal)) (x1 : (⟨S10000x10000, .f32⟩ : BufTy).Contents (Elt Ideal)) (x2 : (⟨S256x256, .f32⟩ : BufTy).Contents (Elt Ideal))
    (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal))
    (x10 : (⟨S256x256, .f32⟩ : BufTy).Contents (Elt Ideal)) (x11 x12 x13 : (⟨S256, .f32⟩ : BufTy).Contents (Elt Ideal)) (x14 : (⟨S768x256, .f32⟩ : BufTy).Contents (Elt Ideal))
    (x15 : (⟨S256, .f32⟩ : BufTy).Contents (Elt Ideal)) (x16 : (⟨S256x1, .f32⟩ : BufTy).Contents (Elt Ideal)) (x17 : (⟨S1, .f32⟩ : BufTy).Contents (Elt Ideal))

namespace L3

/-! ## The operand index functions at literal coordinates -/

/-- The support's left operand index: row `r`, contraction coordinate `k`. -/
theorem lidx60 (r : Fin 10000) (j k : Fin 256) : lidx_main_v60 (ix2 r j) k = ix2 r k := by
  funext a; match a with | ⟨0, _⟩ => rfl | ⟨1, _⟩ => rfl
/-- The support's right operand index: contraction coordinate `k`, column `j`. -/
theorem ridx60 (r : Fin 10000) (j k : Fin 256) : ridx_main_v60 (ix2 r j) k = ix2 k j := by
  funext a; match a with | ⟨0, _⟩ => rfl | ⟨1, _⟩ => rfl
/-- The aggregate's left operand index: row `r`, neighbour `k`. -/
theorem lidx61 (r : Fin 10000) (j : Fin 256) (k : Fin 10000) : lidx_main_v61 (ix2 r j) k = ix2 r k := by
  funext a; match a with | ⟨0, _⟩ => rfl | ⟨1, _⟩ => rfl
/-- The aggregate's right operand index: neighbour `k`, column `j`. -/
theorem ridx61 (r : Fin 10000) (j : Fin 256) (k : Fin 10000) : ridx_main_v61 (ix2 r j) k = ix2 k j := by
  funext a; match a with | ⟨0, _⟩ => rfl | ⟨1, _⟩ => rfl

/-! ## The support and the aggregate -/

/-- The support at node `r`, feature `j`: layer two's row at `r` times the third weight matrix. -/
theorem v60_at (r : Fin 10000) (j : Fin 256) :
    val_main_v60 (F := Ideal) x0 x1 x2 x3 x4 x5 x6 x7 x8 x9 x10 (ix2 r j)
      = Gcn.rowMat (Gcn.x2 (Gcn.Params.ofArrays x0 x1 x2 x3 x4 x5 x6 x7 x8 x9 x10 x11 x12 x13 x14 x15 x16 x17) r) (fun a b => x10 (ix2 a b)) j := by
  rw [val_main_v60_apply]
  unfold Gcn.rowMat
  refine Finset.sum_congr rfl fun k _ => ?_
  rw [lidx60, ridx60, v59_apply x0 x1 x2 x3 x4 x5 x6 x7 x8 x9 x10 x11 x12 x13 x14 x15 x16 x17]

/-- The aggregate at node `r`, feature `j`: the adjacency row at `r` against the support's column `j`. -/
theorem v61_at (r : Fin 10000) (j : Fin 256) :
    val_main_v61 (F := Ideal) x0 x1 x2 x3 x4 x5 x6 x7 x8 x9 x10 (ix2 r j)
      = ∑ k : Fin 10000, x1 (ix2 r k)
          * Gcn.rowMat (Gcn.x2 (Gcn.Params.ofArrays x0 x1 x2 x3 x4 x5 x6 x7 x8 x9 x10 x11 x12 x13 x14 x15 x16 x17) k) (fun a b => x10 (ix2 a b)) j := by
  rw [val_main_v61_apply]
  refine Finset.sum_congr rfl fun k _ => ?_
  rw [lidx61, ridx61, v60_at x0 x1 x2 x3 x4 x5 x6 x7 x8 x9 x10 x11 x12 x13 x14 x15 x16 x17]

/-! ## The bias row and the row that is normalised -/

/-- The broadcast bias at node `r`, feature `j` is the bias at `j`. -/
theorem v63_at (r : Fin 10000) (j : Fin 256) : val_main_v63 (F := Ideal) x11 (ix2 r j) = x11 (ix1 j) := by
  rw [val_main_v63_apply, val_main_v62_apply]
  exact congrArg x11 (funext fun a => by match a with | ⟨0, _⟩ => rfl)

/-- The row layer three normalises at node `r`: the aggregate of the support over the neighbours plus the bias. -/
def hrow (r : Fin 10000) : Fin 256 → EReal := fun j =>
  (∑ k : Fin 10000, x1 (ix2 r k) * Gcn.rowMat (Gcn.x2 (Gcn.Params.ofArrays x0 x1 x2 x3 x4 x5 x6 x7 x8 x9 x10 x11 x12 x13 x14 x15 x16 x17) k) (fun a b => x10 (ix2 a b)) j) + x11 (ix1 j)

/-- The aggregate plus the bias at node `r`, feature `j`. -/
theorem v64_at (r : Fin 10000) (j : Fin 256) :
    val_main_v64 (F := Ideal) x0 x1 x2 x3 x4 x5 x6 x7 x8 x9 x10 x11 (ix2 r j) = hrow x0 x1 x2 x3 x4 x5 x6 x7 x8 x9 x10 x11 x12 x13 x14 x15 x16 x17 r j := by
  rw [val_main_v64_apply, v61_at x0 x1 x2 x3 x4 x5 x6 x7 x8 x9 x10 x11 x12 x13 x14 x15 x16 x17, v63_at]
  rfl

/-! ## The mean column and the centred row -/

/-- The reduced row index with the summed coordinate put back. -/
theorem idx65 (r : Fin 10000) (k : Fin 256) : idx_main_v65 (ix1 r) k = ix2 r k := by
  funext a; match a with | ⟨0, _⟩ => rfl | ⟨1, _⟩ => rfl

/-- The sum of the row over the 256 features (the initial word is zero). -/
theorem v65_at (r : Fin 10000) :
    val_main_v65 (F := Ideal) x0 x1 x2 x3 x4 x5 x6 x7 x8 x9 x10 x11 (ix1 r) = ∑ k : Fin 256, hrow x0 x1 x2 x3 x4 x5 x6 x7 x8 x9 x10 x11 x12 x13 x14 x15 x16 x17 r k := by
  rw [val_main_v65_apply, val_main_cst_9_apply, Ideal.ofBits_def, Ideal.ofBits_zero_f32, zero_add]
  refine Finset.sum_congr rfl fun k _ => ?_
  rw [idx65, v64_at x0 x1 x2 x3 x4 x5 x6 x7 x8 x9 x10 x11 x12 x13 x14 x15 x16 x17]

/-- A column entry `(r, u)` reads the vector at `r`. -/
theorem idx66 (r : Fin 10000) (u : Fin 1) : idx_main_v66 (ix2 r u) = ix1 r := by
  funext a; match a with | ⟨0, _⟩ => rfl

/-- The mean column at node `r`: the row's sum divided by the word 256. -/
theorem v68_at (r : Fin 10000) (u : Fin 1) :
    val_main_v68 (F := Ideal) x0 x1 x2 x3 x4 x5 x6 x7 x8 x9 x10 x11 (ix2 r u) = Gcn.mean (hrow x0 x1 x2 x3 x4 x5 x6 x7 x8 x9 x10 x11 x12 x13 x14 x15 x16 x17 r) := by
  rw [val_main_v68_apply, val_main_v66_apply, idx66, v65_at x0 x1 x2 x3 x4 x5 x6 x7 x8 x9 x10 x11 x12 x13 x14 x15 x16 x17, val_main_v67_apply, val_main_cst_10_apply]
  rfl

/-- A column broadcast along the features reads the column at the row. -/
theorem idx69 (r : Fin 10000) (j : Fin 256) : idx_main_v69 (ix2 r j) = ix2 r (⟨0, Nat.one_pos⟩ : Fin 1) := by
  funext a; match a with | ⟨0, _⟩ => rfl | ⟨1, _⟩ => rfl

/-- The centred entry. -/
theorem v70_at (r : Fin 10000) (j : Fin 256) :
    val_main_v70 (F := Ideal) x0 x1 x2 x3 x4 x5 x6 x7 x8 x9 x10 x11 (ix2 r j) = Gcn.dev (hrow x0 x1 x2 x3 x4 x5 x6 x7 x8 x9 x10 x11 x12 x13 x14 x15 x16 x17 r) j := by
  rw [val_main_v70_apply, v64_at x0 x1 x2 x3 x4 x5 x6 x7 x8 x9 x10 x11 x12 x13 x14 x15 x16 x17, val_main_v69_apply, idx69, v68_at x0 x1 x2 x3 x4 x5 x6 x7 x8 x9 x10 x11 x12 x13 x14 x15 x16 x17]
  rfl

/-! ## The variance column -/

theorem idx72 (r : Fin 10000) (k : Fin 256) : idx_main_v72 (ix1 r) k = ix2 r k := by
  funext a; match a with | ⟨0, _⟩ => rfl | ⟨1, _⟩ => rfl

/-- The sum of the centred row's squares. -/
theorem v72_at (r : Fin 10000) :
    val_main_v72 (F := Ideal) x0 x1 x2 x3 x4 x5 x6 x7 x8 x9 x10 x11 (ix1 r)
      = ∑ k : Fin 256, Gcn.dev (hrow x0 x1 x2 x3 x4 x5 x6 x7 x8 x9 x10 x11 x12 x13 x14 x15 x16 x17 r) k * Gcn.dev (hrow x0 x1 x2 x3 x4 x5 x6 x7 x8 x9 x10 x11 x12 x13 x14 x15 x16 x17 r) k := by
  rw [val_main_v72_apply, val_main_cst_11_apply, Ideal.ofBits_def, Ideal.ofBits_zero_f32, zero_add]
  refine Finset.sum_congr rfl fun k _ => ?_
  rw [idx72, val_main_v71_apply, v70_at x0 x1 x2 x3 x4 x5 x6 x7 x8 x9 x10 x11 x12 x13 x14 x15 x16 x17]
  rfl

theorem idx73 (r : Fin 10000) (u : Fin 1) : idx_main_v73 (ix2 r u) = ix1 r := by
  funext a; match a with | ⟨0, _⟩ => rfl

/-- The variance column at node `r`. -/
theorem v75_at (r : Fin 10000) (u : Fin 1) :
    val_main_v75 (F := Ideal) x0 x1 x2 x3 x4 x5 x6 x7 x8 x9 x10 x11 (ix2 r u) = Gcn.var (hrow x0 x1 x2 x3 x4 x5 x6 x7 x8 x9 x10 x11 x12 x13 x14 x15 x16 x17 r) := by
  rw [val_main_v75_apply, val_main_v73_apply, idx73, v72_at x0 x1 x2 x3 x4 x5 x6 x7 x8 x9 x10 x11 x12 x13 x14 x15 x16 x17, val_main_v74_apply, val_main_cst_12_apply]
  rfl

/-! ## The root and the quotient -/

theorem idx76 (r : Fin 10000) (j : Fin 256) : idx_main_v76 (ix2 r j) = ix2 r (⟨0, Nat.one_pos⟩ : Fin 1) := by
  funext a; match a with | ⟨0, _⟩ => rfl | ⟨1, _⟩ => rfl

/-- The centred entry, computed a second time with the same value. -/
theorem v77_at (r : Fin 10000) (j : Fin 256) :
    val_main_v77 (F := Ideal) x0 x1 x2 x3 x4 x5 x6 x7 x8 x9 x10 x11 (ix2 r j) = Gcn.dev (hrow x0 x1 x2 x3 x4 x5 x6 x7 x8 x9 x10 x11 x12 x13 x14 x15 x16 x17 r) j := by
  rw [val_main_v77_apply, v64_at x0 x1 x2 x3 x4 x5 x6 x7 x8 x9 x10 x11 x12 x13 x14 x15 x16 x17, val_main_v76_apply, idx76, v68_at x0 x1 x2 x3 x4 x5 x6 x7 x8 x9 x10 x11 x12 x13 x14 x15 x16 x17]
  rfl

/-- The root of the variance plus the small positive word, at node `r`. -/
theorem v80_at (r : Fin 10000) (u : Fin 1) :
    val_main_v80 (F := Ideal) x0 x1 x2 x3 x4 x5 x6 x7 x8 x9 x10 x11 (ix2 r u) = Ideal.sqrt (Gcn.var (hrow x0 x1 x2 x3 x4 x5 x6 x7 x8 x9 x10 x11 x12 x13 x14 x15 x16 x17 r) + Gcn.wEps) := by
  rw [val_main_v80_apply, val_main_v79_apply, v75_at x0 x1 x2 x3 x4 x5 x6 x7 x8 x9 x10 x11 x12 x13 x14 x15 x16 x17, val_main_v78_apply, val_main_cst_13_apply]
  rfl

theorem idx81 (r : Fin 10000) (j : Fin 256) : idx_main_v81 (ix2 r j) = ix2 r (⟨0, Nat.one_pos⟩ : Fin 1) := by
  funext a; match a with | ⟨0, _⟩ => rfl | ⟨1, _⟩ => rfl

/-- The centred entry divided by the root. -/
theorem v82_at (r : Fin 10000) (j : Fin 256) :
    val_main_v82 (F := Ideal) x0 x1 x2 x3 x4 x5 x6 x7 x8 x9 x10 x11 (ix2 r j)
      = Ideal.div (Gcn.dev (hrow x0 x1 x2 x3 x4 x5 x6 x7 x8 x9 x10 x11 x12 x13 x14 x15 x16 x17 r) j) (Ideal.sqrt (Gcn.var (hrow x0 x1 x2 x3 x4 x5 x6 x7 x8 x9 x10 x11 x12 x13 x14 x15 x16 x17 r) + Gcn.wEps)) := by
  rw [val_main_v82_apply, v77_at x0 x1 x2 x3 x4 x5 x6 x7 x8 x9 x10 x11 x12 x13 x14 x15 x16 x17, val_main_v81_apply, idx81, v80_at x0 x1 x2 x3 x4 x5 x6 x7 x8 x9 x10 x11 x12 x13 x14 x15 x16 x17]
  rfl

/-! ## Scale, shift, clip -/

/-- The broadcast scale at node `r`, feature `j` is the scale at `j`. -/
theorem v84_at (r : Fin 10000) (j : Fin 256) : val_main_v84 (F := Ideal) x12 (ix2 r j) = x12 (ix1 j) := by
  rw [val_main_v84_apply, val_main_v83_apply]
  exact congrArg x12 (funext fun a => by match a with | ⟨0, _⟩ => rfl)

/-- The broadcast shift at node `r`, feature `j` is the shift at `j`. -/
theorem v87_at (r : Fin 10000) (j : Fin 256) : val_main_v87 (F := Ideal) x13 (ix2 r j) = x13 (ix1 j) := by
  rw [val_main_v87_apply, val_main_v86_apply]
  exact congrArg x13 (funext fun a => by match a with | ⟨0, _⟩ => rfl)

/-- The scaled, shifted entry. -/
theorem v88_at (r : Fin 10000) (j : Fin 256) :
    val_main_v88 (F := Ideal) x0 x1 x2 x3 x4 x5 x6 x7 x8 x9 x10 x11 x12 x13 (ix2 r j)
      = Ideal.div (Gcn.dev (hrow x0 x1 x2 x3 x4 x5 x6 x7 x8 x9 x10 x11 x12 x13 x14 x15 x16 x17 r) j) (Ideal.sqrt (Gcn.var (hrow x0 x1 x2 x3 x4 x5 x6 x7 x8 x9 x10 x11 x12 x13 x14 x15 x16 x17 r) + Gcn.wEps)) * x12 (ix1 j)
        + x13 (ix1 j) := by
  rw [val_main_v88_apply, val_main_v85_apply, v82_at x0 x1 x2 x3 x4 x5 x6 x7 x8 x9 x10 x11 x12 x13 x14 x15 x16 x17, v84_at, v87_at]
  rfl

/-- The clipped entry, in the spelling that divides by the root. -/
theorem v89_at (r : Fin 10000) (j : Fin 256) :
    val_main_v89 (F := Ideal) x0 x1 x2 x3 x4 x5 x6 x7 x8 x9 x10 x11 x12 x13 (ix2 r j)
      = Gcn.lnReluQuot (hrow x0 x1 x2 x3 x4 x5 x6 x7 x8 x9 x10 x11 x12 x13 x14 x15 x16 x17 r) (fun c => x12 (ix1 c)) (fun c => x13 (ix1 c)) j := by
  rw [val_main_v89_apply, v88_at x0 x1 x2 x3 x4 x5 x6 x7 x8 x9 x10 x11 x12 x13 x14 x15 x16 x17, val_main_call2_v0_apply, val_main_call2_cst_apply]
  rfl

end L3

open L3 in
/-- Layer 3's output stage at node `r`, feature `j`. -/
theorem v89_apply (r : Fin 10000) (j : Fin 256) :
    val_main_v89 (F := Ideal) x0 x1 x2 x3 x4 x5 x6 x7 x8 x9 x10 x11 x12 x13 (ix2 r j)
      = Gcn.x3 (Gcn.Params.ofArrays x0 x1 x2 x3 x4 x5 x6 x7 x8 x9 x10 x11 x12 x13 x14 x15 x16 x17) r j := by
  rw [v89_at x0 x1 x2 x3 x4 x5 x6 x7 x8 x9 x10 x11 x12 x13 x14 x15 x16 x17, Gcn.lnReluQuot_eq]
  rfl

end Cert.ReferenceIdeal.RefValue

end
-- ==== Proof.RefValue.lean ====
/-
  The reference's result, row by row: every node's output is the head of the three layers' rows.  The reference
  multiplies the three layers' concatenated rows by the whole 768-row matrix, adds a bias, clips at zero and contracts
  with the weight column; one product over the 768 concatenated features is the sum of the three products over its
  bands of 256.
-/
import proofs.«122235_g19155554140324_cont_8to1_1621_8_alg».proof.Proof.Gen.ReferenceIdeal.Run
import proofs.«122235_g19155554140324_cont_8to1_1621_8_alg».proof.Proof.Gen.ReferenceIdeal.Read
import proofs.«122235_g19155554140324_cont_8to1_1621_8_alg».proof.Proof.Net
import proofs.«122235_g19155554140324_cont_8to1_1621_8_alg».proof.Proof.RefL1
import proofs.«122235_g19155554140324_cont_8to1_1621_8_alg».proof.Proof.RefL2
import proofs.«122235_g19155554140324_cont_8to1_1621_8_alg».proof.Proof.RefL3
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (x0 : (⟨S10000x256, .f32⟩ : BufTy).Contents (Elt Ideal)) (x1 : (⟨S10000x10000, .f32⟩ : BufTy).Contents (Elt Ideal)) (x2 : (⟨S256x256, .f32⟩ : BufTy).Contents (Elt Ideal))
    (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal))
    (x10 : (⟨S256x256, .f32⟩ : BufTy).Contents (Elt Ideal)) (x11 x12 x13 : (⟨S256, .f32⟩ : BufTy).Contents (Elt Ideal)) (x14 : (⟨S768x256, .f32⟩ : BufTy).Contents (Elt Ideal))
    (x15 : (⟨S256, .f32⟩ : BufTy).Contents (Elt Ideal)) (x16 : (⟨S256x1, .f32⟩ : BufTy).Contents (Elt Ideal)) (x17 : (⟨S1, .f32⟩ : BufTy).Contents (Elt Ideal))

namespace Head

/-! ## The concatenated row, band by band -/

/-- On the first band of 256 features the concatenated row is layer one's row. -/
theorem v90_band0 (r : Fin 10000) (k : Fin 256) :
    val_main_v90 (F := Ideal) x0 x1 x2 x3 x4 x5 x6 x7 x8 x9 x10 x11 x12 x13 (ix2 r (⟨k.val, by omega⟩ : Fin 768))
      = val_main_v29 (F := Ideal) x0 x1 x2 x3 x4 x5 (ix2 r k) := by
  unfold val_main_v90
  refine concatenate_apply_piece (t := S10000x768) (1 : Fin 2)
    [⟨S10000x256, (val_main_v29 (F := Ideal) x0 x1 x2 x3 x4 x5)⟩, ⟨S10000x256, (val_main_v59 (F := Ideal) x0 x1 x2 x3 x4 x5 x6 x7 x8 x9)⟩, ⟨S10000x256, (val_main_v89 (F := Ideal) x0 x1 x2 x3 x4 x5 x6 x7 x8 x9 x10 x11 x12 x13)⟩]
    concatenates_S10000x256_S10000x256_S10000x256_S10000x768_d1 (ix2 r (⟨k.val, by omega⟩ : Fin 768)) 0 (by show (0 : Nat) < 3; omega) S10000x256 (val_main_v29 (F := Ideal) x0 x1 x2 x3 x4 x5) rfl rfl 0 ?_ (ix2 r k) ?_ ?_
  · rfl
  · intro b hb
    match b with
    | ⟨0, _⟩ => rfl
    | ⟨1, _⟩ => exact absurd rfl hb
  · show 0 + k.val = k.val
    omega

/-- On the second band it is layer two's row. -/
theorem v90_band1 (r : Fin 10000) (k : Fin 256) :
    val_main_v90 (F := Ideal) x0 x1 x2 x3 x4 x5 x6 x7 x8 x9 x10 x11 x12 x13 (ix2 r (⟨k.val + 256, by omega⟩ : Fin 768))
      = val_main_v59 (F := Ideal) x0 x1 x2 x3 x4 x5 x6 x7 x8 x9 (ix2 r k) := by
  unfold val_main_v90
  refine concatenate_apply_piece (t := S10000x768) (1 : Fin 2)
    [⟨S10000x256, (val_main_v29 (F := Ideal) x0 x1 x2 x3 x4 x5)⟩, ⟨S10000x256, (val_main_v59 (F := Ideal) x0 x1 x2 x3 x4 x5 x6 x7 x8 x9)⟩, ⟨S10000x256, (val_main_v89 (F := Ideal) x0 x1 x2 x3 x4 x5 x6 x7 x8 x9 x10 x11 x12 x13)⟩]
    concatenates_S10000x256_S10000x256_S10000x256_S10000x768_d1 (ix2 r (⟨k.val + 256, by omega⟩ : Fin 768)) 1 (by show (1 : Nat) < 3; omega) S10000x256 (val_main_v59 (F := Ideal) x0 x1 x2 x3 x4 x5 x6 x7 x8 x9) rfl rfl 256 ?_ (ix2 r k) ?_ ?_
  · rfl
  · intro b hb
    match b with
    | ⟨0, _⟩ => rfl
    | ⟨1, _⟩ => exact absurd rfl hb
  · show 256 + k.val = k.val + 256
    omega

/-- On the third band it is layer three's row. -/
theorem v90_band2 (r : Fin 10000) (k : Fin 256) :
    val_main_v90 (F := Ideal) x0 x1 x2 x3 x4 x5 x6 x7 x8 x9 x10 x11 x12 x13 (ix2 r (⟨k.val + 512, by omega⟩ : Fin 768))
      = val_main_v89 (F := Ideal) x0 x1 x2 x3 x4 x5 x6 x7 x8 x9 x10 x11 x12 x13 (ix2 r k) := by
  unfold val_main_v90
  refine concatenate_apply_piece (t := S10000x768) (1 : Fin 2)
    [⟨S10000x256, (val_main_v29 (F := Ideal) x0 x1 x2 x3 x4 x5)⟩, ⟨S10000x256, (val_main_v59 (F := Ideal) x0 x1 x2 x3 x4 x5 x6 x7 x8 x9)⟩, ⟨S10000x256, (val_main_v89 (F := Ideal) x0 x1 x2 x3 x4 x5 x6 x7 x8 x9 x10 x11 x12 x13)⟩]
    concatenates_S10000x256_S10000x256_S10000x256_S10000x768_d1 (ix2 r (⟨k.val + 512, by omega⟩ : Fin 768)) 2 (by show (2 : Nat) < 3; omega) S10000x256 (val_main_v89 (F := Ideal) x0 x1 x2 x3 x4 x5 x6 x7 x8 x9 x10 x11 x12 x13) rfl rfl 512 ?_ (ix2 r k) ?_ ?_
  · rfl
  · intro b hb
    match b with
    | ⟨0, _⟩ => rfl
    | ⟨1, _⟩ => exact absurd rfl hb
  · show 512 + k.val = k.val + 512
    omega

/-! ## The head, stage by stage -/

/-- The product over the 768 concatenated features is the sum of the three layers' rows times the three bands. -/
theorem v91_entry (r : Fin 10000) (j : Fin 256) :
    val_main_v91 (F := Ideal) x0 x1 x2 x3 x4 x5 x6 x7 x8 x9 x10 x11 x12 x13 x14 (ix2 r j)
      = Gcn.rowMat (Gcn.x1 (Gcn.Params.ofArrays x0 x1 x2 x3 x4 x5 x6 x7 x8 x9 x10 x11 x12 x13 x14 x15 x16 x17) r) (Gcn.band0 (Gcn.Params.ofArrays x0 x1 x2 x3 x4 x5 x6 x7 x8 x9 x10 x11 x12 x13 x14 x15 x16 x17)) j
        + Gcn.rowMat (Gcn.x2 (Gcn.Params.ofArrays x0 x1 x2 x3 x4 x5 x6 x7 x8 x9 x10 x11 x12 x13 x14 x15 x16 x17) r) (Gcn.band1 (Gcn.Params.ofArrays x0 x1 x2 x3 x4 x5 x6 x7 x8 x9 x10 x11 x12 x13 x14 x15 x16 x17)) j
        + Gcn.rowMat (Gcn.x3 (Gcn.Params.ofArrays x0 x1 x2 x3 x4 x5 x6 x7 x8 x9 x10 x11 x12 x13 x14 x15 x16 x17) r) (Gcn.band2 (Gcn.Params.ofArrays x0 x1 x2 x3 x4 x5 x6 x7 x8 x9 x10 x11 x12 x13 x14 x15 x16 x17)) j := by
  refine (val_main_v91_apply x0 x1 x2 x3 x4 x5 x6 x7 x8 x9 x10 x11 x12 x13 x14 (ix2 r j)).trans ?_
  refine (Gcn.sum_three_bands _).trans ?_
  refine congrArg₂ (· + ·) (congrArg₂ (· + ·) ?_ ?_) ?_
  · refine Finset.sum_congr rfl fun k _ => congrArg₂ (· * ·) ?_ ?_
    · have e : lidx_main_v91 (ix2 r j) (⟨k.val, by omega⟩ : Fin 768) = ix2 r (⟨k.val, by omega⟩ : Fin 768) :=
        funext fun a => by match a with
          | ⟨0, _⟩ => rfl
          | ⟨1, _⟩ => rfl
      rw [e, v90_band0]
      exact v29_apply x0 x1 x2 x3 x4 x5 x6 x7 x8 x9 x10 x11 x12 x13 x14 x15 x16 x17 r k
    · refine congrArg x14 (funext fun a => ?_)
      match a with
      | ⟨0, _⟩ => rfl
      | ⟨1, _⟩ => rfl
  · refine Finset.sum_congr rfl fun k _ => congrArg₂ (· * ·) ?_ ?_
    · have e : lidx_main_v91 (ix2 r j) (⟨k.val + 256, by omega⟩ : Fin 768) = ix2 r (⟨k.val + 256, by omega⟩ : Fin 768) :=
        funext fun a => by match a with
          | ⟨0, _⟩ => rfl
          | ⟨1, _⟩ => rfl
      rw [e, v90_band1]
      exact v59_apply x0 x1 x2 x3 x4 x5 x6 x7 x8 x9 x10 x11 x12 x13 x14 x15 x16 x17 r k
    · refine congrArg x14 (funext fun a => ?_)
      match a with
      | ⟨0, _⟩ => rfl
      | ⟨1, _⟩ => rfl
  · refine Finset.sum_congr rfl fun k _ => congrArg₂ (· * ·) ?_ ?_
    · have e : lidx_main_v91 (ix2 r j) (⟨k.val + 512, by omega⟩ : Fin 768) = ix2 r (⟨k.val + 512, by omega⟩ : Fin 768) :=
        funext fun a => by match a with
          | ⟨0, _⟩ => rfl
          | ⟨1, _⟩ => rfl
      rw [e, v90_band2]
      exact v89_apply x0 x1 x2 x3 x4 x5 x6 x7 x8 x9 x10 x11 x12 x13 x14 x15 x16 x17 r k
    · refine congrArg x14 (funext fun a => ?_)
      match a with
      | ⟨0, _⟩ => rfl
      | ⟨1, _⟩ => rfl

/-- The bias row, broadcast over the nodes, reads the bias at the feature. -/
theorem v93_entry (r : Fin 10000) (j : Fin 256) :
    val_main_v93 (F := Ideal) x15 (ix2 r j) = x15 (ix1 j) := by
  rw [val_main_v93_apply, val_main_v92_apply]
  refine congrArg x15 (funext fun a => ?_)
  match a with
  | ⟨0, _⟩ => rfl

/-- The clipped entry: the three products and the bias, clipped at zero. -/
theorem v95_entry (r : Fin 10000) (j : Fin 256) :
    val_main_v95 (F := Ideal) x0 x1 x2 x3 x4 x5 x6 x7 x8 x9 x10 x11 x12 x13 x14 x15 (ix2 r j)
      = max (Gcn.rowMat (Gcn.x1 (Gcn.Params.ofArrays x0 x1 x2 x3 x4 x5 x6 x7 x8 x9 x10 x11 x12 x13 x14 x15 x16 x17) r) (Gcn.band0 (Gcn.Params.ofArrays x0 x1 x2 x3 x4 x5 x6 x7 x8 x9 x10 x11 x12 x13 x14 x15 x16 x17)) j
          + Gcn.rowMat (Gcn.x2 (Gcn.Params.ofArrays x0 x1 x2 x3 x4 x5 x6 x7 x8 x9 x10 x11 x12 x13 x14 x15 x16 x17) r) (Gcn.band1 (Gcn.Params.ofArrays x0 x1 x2 x3 x4 x5 x6 x7 x8 x9 x10 x11 x12 x13 x14 x15 x16 x17)) j
          + Gcn.rowMat (Gcn.x3 (Gcn.Params.ofArrays x0 x1 x2 x3 x4 x5 x6 x7 x8 x9 x10 x11 x12 x13 x14 x15 x16 x17) r) (Gcn.band2 (Gcn.Params.ofArrays x0 x1 x2 x3 x4 x5 x6 x7 x8 x9 x10 x11 x12 x13 x14 x15 x16 x17)) j + x15 (ix1 j)) Gcn.wZero := by
  rw [val_main_v95_apply, val_main_v94_apply, v91_entry x0 x1 x2 x3 x4 x5 x6 x7 x8 x9 x10 x11 x12 x13 x14 x15 x16 x17, v93_entry, val_main_call3_v0_apply,
    val_main_call3_cst_apply]
  rfl

/-- The one entry of the last bias, broadcast over the nodes. -/
theorem v98_entry (r : Fin 10000) :
    val_main_v98 (F := Ideal) x17 (ix2 r (0 : Fin 1)) = x17 (ix1 (0 : Fin 1)) := by
  rw [val_main_v98_apply, val_main_v97_apply]
  refine congrArg x17 (funext fun a => ?_)
  match a with
  | ⟨0, _⟩ => rfl

/-- The contraction of the clipped row with the weight column. -/
theorem v96_entry (r : Fin 10000) :
    val_main_v96 (F := Ideal) x0 x1 x2 x3 x4 x5 x6 x7 x8 x9 x10 x11 x12 x13 x14 x15 x16 (ix2 r (0 : Fin 1))
      = ∑ j : Fin 256, max (Gcn.rowMat (Gcn.x1 (Gcn.Params.ofArrays x0 x1 x2 x3 x4 x5 x6 x7 x8 x9 x10 x11 x12 x13 x14 x15 x16 x17) r) (Gcn.band0 (Gcn.Params.ofArrays x0 x1 x2 x3 x4 x5 x6 x7 x8 x9 x10 x11 x12 x13 x14 x15 x16 x17)) j
          + Gcn.rowMat (Gcn.x2 (Gcn.Params.ofArrays x0 x1 x2 x3 x4 x5 x6 x7 x8 x9 x10 x11 x12 x13 x14 x15 x16 x17) r) (Gcn.band1 (Gcn.Params.ofArrays x0 x1 x2 x3 x4 x5 x6 x7 x8 x9 x10 x11 x12 x13 x14 x15 x16 x17)) j
          + Gcn.rowMat (Gcn.x3 (Gcn.Params.ofArrays x0 x1 x2 x3 x4 x5 x6 x7 x8 x9 x10 x11 x12 x13 x14 x15 x16 x17) r) (Gcn.band2 (Gcn.Params.ofArrays x0 x1 x2 x3 x4 x5 x6 x7 x8 x9 x10 x11 x12 x13 x14 x15 x16 x17)) j + x15 (ix1 j)) Gcn.wZero * x16 (ix2 j (0 : Fin 1)) := by
  refine (val_main_v96_apply x0 x1 x2 x3 x4 x5 x6 x7 x8 x9 x10 x11 x12 x13 x14 x15 x16 (ix2 r (0 : Fin 1))).trans ?_
  refine Finset.sum_congr rfl fun k _ => congrArg₂ (· * ·) ?_ ?_
  · have e : lidx_main_v96 (ix2 r (0 : Fin 1)) k = ix2 r k :=
      funext fun a => by match a with
        | ⟨0, _⟩ => rfl
        | ⟨1, _⟩ => rfl
    rw [e]
    exact v95_entry x0 x1 x2 x3 x4 x5 x6 x7 x8 x9 x10 x11 x12 x13 x14 x15 x16 x17 r k
  · refine congrArg x16 (funext fun a => ?_)
    match a with
    | ⟨0, _⟩ => rfl
    | ⟨1, _⟩ => rfl

end Head

open Head in
/-- The reference's last stage at node `r` is the network's output at `r`, as a function of the eighteen arguments. -/
theorem result_apply (r : Fin 10000) :
    val_main_v100 (F := Ideal) x0 x1 x2 x3 x4 x5 x6 x7 x8 x9 x10 x11 x12 x13 x14 x15 x16 x17 (ix1 r)
      = Gcn.net (Gcn.Params.ofArrays x0 x1 x2 x3 x4 x5 x6 x7 x8 x9 x10 x11 x12 x13 x14 x15 x16 x17) r := by
  have e : idx_main_v100 (ix1 r) = ix2 r (0 : Fin 1) :=
    funext fun a => by match a with
      | ⟨0, _⟩ => exact Fin.ext (Nat.div_one r.val)
      | ⟨1, _⟩ => rfl
  rw [val_main_v100_apply, e, val_main_v99_apply, v96_entry x0 x1 x2 x3 x4 x5 x6 x7 x8 x9 x10 x11 x12 x13 x14 x15 x16 x17, v98_entry]
  rfl

end Cert.ReferenceIdeal.RefValue

end
-- ==== Proof.lean ====
/-
  The certificate: a three-layer dense graph-convolution network with a two-layer head, computed by four pipelined
  kernels, against its plain reference.

  The kernel forms, in turn, the support of layer one (the node features times the first weight matrix); layer one's
  rows (the adjacency matrix times the support, plus a bias, normalised over the 256 features, scaled, shifted, clipped
  at zero) together with the support of layer two; layer two's rows and the support of layer three; and layer three's
  rows with the head on all three layers' rows, one number per node.  The reference computes the same network with the
  normalisation written as a quotient by the root of the variance and the head's first product taken over the 768
  concatenated features.  On the extended reals the two are one function of the eighteen arguments: a change of float
  format is the identity, the variance plus the small positive word is positive (so multiplying by the reciprocal root is
  dividing by the root), and one sum over 768 features is the sum of its three bands of 256.  Nothing here needs the
  inputs to be finite.

  The three frames are the generated ones (the reference's is its generated run with the result dropped); the ideal pass
  rewrote nothing, so the idealization claim is trivial; the value claim puts the two runs side by side at the one
  function `Gcn.net` of the launch arguments.
-/
import proofs.«122235_g19155554140324_cont_8to1_1621_8_alg».proof.Defs
import proofs.«122235_g19155554140324_cont_8to1_1621_8_alg».proof.Proof.Gen.Kernel
import proofs.«122235_g19155554140324_cont_8to1_1621_8_alg».proof.Proof.Gen.Kernel.Frame
import proofs.«122235_g19155554140324_cont_8to1_1621_8_alg».proof.Proof.Gen.KernelIdeal
import proofs.«122235_g19155554140324_cont_8to1_1621_8_alg».proof.Proof.Gen.KernelIdeal.Frame
import proofs.«122235_g19155554140324_cont_8to1_1621_8_alg».proof.Proof.Gen.ReferenceIdeal
import proofs.«122235_g19155554140324_cont_8to1_1621_8_alg».proof.Proof.Gen.ReferenceIdeal.Run
import proofs.«122235_g19155554140324_cont_8to1_1621_8_alg».proof.Proof.Gen.ReferenceIdeal.Read
import proofs.«122235_g19155554140324_cont_8to1_1621_8_alg».proof.Proof.Gen.Pre_finite_inputs
import proofs.«122235_g19155554140324_cont_8to1_1621_8_alg».proof.Proof.KernelIdealRun
import proofs.«122235_g19155554140324_cont_8to1_1621_8_alg».proof.Proof.Compose
import proofs.«122235_g19155554140324_cont_8to1_1621_8_alg».proof.Proof.RefValue
import Idealize.ShloMosaic.Adequacy
import Idealize.ShloMosaic.Init
import Idealize.ShloMosaic.Lib.ValueIdx

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- An index of the result vector is its one coordinate. -/
theorem idx_eq (i : Cert.KernelIdeal.S10000.Idx) : i = ix1 (⟨(i 0).val, (i 0).isLt⟩ : Fin 10000) := by
  funext d
  match d with
  | ⟨0, _⟩ => rfl

/-- Both programs end with the network's output at every node: the kernel's by following its result buffer back
    through the four regions, the reference's by reading its stages, the two records of arguments equal because the
    launch memories agree on the arguments. -/
theorem algebraic : Cert.algebraic_KernelIdeal_ReferenceIdeal := by
  intro m ρ m' ρ' _ hagree
  refine ⟨fun c => fun i => Gcn.net (Cert.KernelIdeal.Compose.P m c) ⟨(i 0).val, (i 0).isLt⟩, ?_, ?_⟩
  · refine (θ_run Cert.KernelIdeal.defs _ _).mono (fun r h c => ⟨(h c).1.trans ?_, (h c).2⟩)
      (Cert.KernelIdeal.Run.run_named (F := Ideal) m ρ)
    funext i
    refine (congrArg (Cert.KernelIdeal.Gen.W9 m ρ c (Proc.devRef .tc Cert.KernelIdeal.main_v25)) (idx_eq i)).trans ?_
    exact Cert.KernelIdeal.Compose.result_apply m ρ c _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v100_eq]
    funext i
    refine (congrArg (Cert.ReferenceIdeal.Read.val_main_v100 (F := Ideal) _ _ _ _ _ _ _ _ _ _ _ _ _ _ _ _ _ _) (idx_eq i)).trans ?_
    refine (Cert.ReferenceIdeal.RefValue.result_apply _ _ _ _ _ _ _ _ _ _ _ _ _ _ _ _ _ _ _).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
